-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S30000x768 : Shape := ⟨2, ![30000, 768]⟩
abbrev S30000x128 : Shape := ⟨2, ![30000, 128]⟩
abbrev S896x64 : Shape := ⟨2, ![896, 64]⟩
abbrev S64 : Shape := ⟨1, ![64]⟩
abbrev S2x2000000 : Shape := ⟨2, ![2, 2000000]⟩
abbrev S4096 : Shape := ⟨1, ![4096]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S30000x768 : S_.BroadcastsInDim S30000x768 (![] : Fin 0 → Fin S30000x768.rank)
  reducesTo_S30000x768_S_d0_1 : S30000x768.ReducesTo [0, 1] S_
  bcast_S_S30000x128 : S_.BroadcastsInDim S30000x128 (![] : Fin 0 → Fin S30000x128.rank)
  reducesTo_S30000x128_S_d0_1 : S30000x128.ReducesTo [0, 1] S_
  bcast_S_S896x64 : S_.BroadcastsInDim S896x64 (![] : Fin 0 → Fin S896x64.rank)
  reducesTo_S896x64_S_d0_1 : S896x64.ReducesTo [0, 1] S_
  bcast_S_S64 : S_.BroadcastsInDim S64 (![] : Fin 0 → Fin S64.rank)
  reducesTo_S64_S_d0 : S64.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : IVec S4096 32) (main_v30 : IVec S_ 1) (main_v32 : IVec S4096 1) (main_c_12 : IVec S_ 32) : IVec S_ 1 :=
  let main_v33 : IVec S4096 32 := broadcastInDim S4096 ![] bcast_S_S4096 main_c_12
  let main_v34 : IVec S4096 1 := cmpi .slt main_arg7 main_v33
  let main_v35 : IVec S4096 1 := andi main_v32 main_v34
  let main_c_13 : IVec S_ 1 := constantI S_ 1 1#1
  let main_v36 : IVec S_ 1 := (fun x v => Host.reduce IntOp.andi x v reducesTo_S4096_S_d0 h_S_) main_v35 main_c_13
  let main_v37 : IVec S_ 1 := andi main_v30 main_v36
  main_v37

def fn_part1 {F : FTy → Type} [FloatOps F] (main_arg4 : FVec F S64 .f32) (main_arg6 : IVec S4096 32) (main_arg7 : IVec S4096 32) (main_v13 : IVec S_ 1) (main_v16 : IVec S896x64 1) : IVec S_ 1 :=
  let main_c_5 : IVec S_ 1 := constantI S_ 1 1#1
  let main_v17 : IVec S_ 1 := (fun x v => Host.reduce IntOp.andi x v reducesTo_S896x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg6 main_v24
  let main_c_9 : IVec S_ 32 := constantI S_ 32 50000#32
  let main_v26 : IVec S4096 32 := broadcastInDim S4096 ![] bcast_S_S4096 main_c_9
  let main_v27 : IVec S4096 1 := cmpi .slt main_arg6 main_v26
  let main_v28 : IVec S4096 1 := andi main_v25 main_v27
  let main_c_10 : IVec S_ 1 := constantI S_ 1 1#1
  let main_v29 : IVec S_ 1 := (fun x v => Host.reduce IntOp.andi x v reducesTo_S4096_S_d0 h_S_) main_v28 main_c_10
  let main_v30 : IVec S_ 1 := andi main_v23 main_v29
  let main_c_11 : IVec S_ 32 := constantI S_ 32 0#32
  let main_v31 : IVec S4096 32 := broadcastInDim S4096 ![] bcast_S_S4096 main_c_11
  let main_v32 : IVec S4096 1 := cmpi .sge main_arg7 main_v31
  let main_c_12 : IVec S_ 32 := constantI S_ 32 30000#32
  fn_part2 (F := F) main_arg7 main_v30 main_v32 main_c_12

def fn {F : FTy → Type} [FloatOps F] (main_arg0 : FVec F S50000x64 .f32) (main_arg1 : FVec F S30000x768 .f32) (main_arg2 : FVec F S30000x128 .f32) (main_arg3 : FVec F S896x64 .f32) (main_arg4 : FVec F S64 .f32) (main_arg5 : IVec S2x2000000 32) (main_arg6 : IVec S4096 32) (main_arg7 : IVec S4096 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S30000x768 .f32 := Host.absf main_arg1
  let main_cst_0 : FVec F S_ .f32 := constant S_ .f32 0x7F800000#32
  let main_v5 : FVec F S30000x768 .f32 := broadcastInDim S30000x768 ![] bcast_S_S30000x768 main_cst_0
  let main_v6 : IVec S30000x768 1 := cmpf .olt main_v4 main_v5
  let main_c_1 : IVec S_ 1 := constantI S_ 1 1#1
  let main_v7 : IVec S_ 1 := (fun x v => Host.reduce IntOp.andi x v reducesTo_S30000x768_S_d0_1 h_S_) main_v6 main_c_1
  let main_v8 : IVec S_ 1 := andi main_v3 main_v7
  let main_v9 : FVec F S30000x128 .f32 := Host.absf main_arg2
  let main_cst_2 : FVec F S_ .f32 := constant S_ .f32 0x7F800000#32
  let main_v10 : FVec F S30000x128 .f32 := broadcastInDim S30000x128 ![] bcast_S_S30000x128 main_cst_2
  let main_v11 : IVec S30000x128 1 := cmpf .olt main_v9 main_v10
  let main_c_3 : IVec S_ 1 := constantI S_ 1 1#1
  let main_v12 : IVec S_ 1 := (fun x v => Host.reduce IntOp.andi x v reducesTo_S30000x128_S_d0_1 h_S_) main_v11 main_c_3
  let main_v13 : IVec S_ 1 := andi main_v8 main_v12
  let main_v14 : FVec F S896x64 .f32 := Host.absf main_arg3
  let main_cst_4 : FVec F S_ .f32 := constant S_ .f32 0x7F800000#32
  let main_v15 : FVec F S896x64 .f32 := broadcastInDim S896x64 ![] bcast_S_S896x64 main_cst_4
  let main_v16 : IVec S896x64 1 := cmpf .olt main_v14 main_v15
  fn_part1 (F := F) main_arg4 main_arg6 main_arg7 main_v13 main_v16
-- ==== Kernel.lean ====
abbrev S50000x64 : Shape := ⟨2, ![50000, 64]⟩
abbrev S30000x768 : Shape := ⟨2, ![30000, 768]⟩
abbrev S30000x128 : Shape := ⟨2, ![30000, 128]⟩
abbrev S896x64 : Shape := ⟨2, ![896, 64]⟩
abbrev S64 : Shape := ⟨1, ![64]⟩
abbrev S2x2000000 : Shape := ⟨2, ![2, 2000000]⟩
abbrev S4096 : Shape := ⟨1, ![4096]⟩
abbrev S768x64 : Shape := ⟨2, ![768, 64]⟩
abbrev S128x64 : Shape := ⟨2, ![128, 64]⟩
abbrev S1x64 : Shape := ⟨2, ![1, 64]⟩
abbrev S30000x64 : Shape := ⟨2, ![30000, 64]⟩
abbrev S2000x768 : Shape := ⟨2, ![2000, 768]⟩
abbrev S2000x128 : Shape := ⟨2, ![2000, 128]⟩
abbrev S2000x64 : Shape := ⟨2, ![2000, 64]⟩
abbrev S2000 : Shape := ⟨1, ![2000]⟩
abbrev S2000x1 : Shape := ⟨2, ![2000, 1]⟩
abbrev S80000x64 : Shape := ⟨2, ![80000, 64]⟩
abbrev S1x2000000 : Shape := ⟨2, ![1, 2000000]⟩
abbrev S2000000 : Shape := ⟨1, ![2000000]⟩
abbrev S_ : Shape := ⟨0, ![]⟩
abbrev S80000 : Shape := ⟨1, ![80000]⟩
abbrev S2000000x1 : Shape := ⟨2, ![2000000, 1]⟩
abbrev S2000000x64 : Shape := ⟨2, ![2000000, 64]⟩
abbrev S4000x64 : Shape := ⟨2, ![4000, 64]⟩
abbrev S4096x1 : Shape := ⟨2, ![4096, 1]⟩
abbrev S4096x64 : Shape := ⟨2, ![4096, 64]⟩
abbrev S1000x64 : Shape := ⟨2, ![1000, 64]⟩
abbrev S4096x1000 : Shape := ⟨2, ![4096, 1000]⟩

abbrev nBuf : Space → Nat
  | .hbm => 109
  | .vmem => 30
  | .smem => 0
  | _ => 0

abbrev bufTy : (tb : Table) → Fin (tcTables nBuf tb) → BufTy
  | .hbm, ⟨0, _⟩ => ⟨S50000x64, .f32⟩
  | .hbm, ⟨1, _⟩ => ⟨S30000x768, .f32⟩
  | .hbm, ⟨2, _⟩ => ⟨S30000x128, .f32⟩
  | .hbm, ⟨3, _⟩ => ⟨S896x64, .f32⟩
  | .hbm, ⟨4, _⟩ => ⟨S64, .f32⟩
  | .hbm, ⟨5, _⟩ => ⟨S2x2000000, .i32⟩
  | .hbm, ⟨6, _⟩ => ⟨S4096, .i32⟩
  | .hbm, ⟨7, _⟩ => ⟨S4096, .i32⟩
  | .hbm, ⟨8, _⟩ => ⟨S768x64, .f32⟩
  | .hbm, ⟨9, _⟩ => ⟨S128x64, .f32⟩
  | .hbm, ⟨10, _⟩ => ⟨S1x64, .f32⟩
  | .hbm, ⟨11, _⟩ => ⟨S30000x64, .f32⟩
  | .hbm, ⟨12, _⟩ => ⟨S80000x64, .f32⟩
  | .hbm, ⟨13, _⟩ => ⟨S1x2000000, .i32⟩
  | .hbm, ⟨14, _⟩ => ⟨S2000000, .i32⟩
  | .hbm, ⟨15, _⟩ => ⟨S1x2000000, .i32⟩
  | .hbm, ⟨16, _⟩ => ⟨S2000000, .i32⟩
  | .hbm, ⟨17, _⟩ => ⟨S_, .f32⟩
  | .hbm, ⟨18, _⟩ => ⟨S2000000, .f32⟩
  | .hbm, ⟨19, _⟩ => ⟨S_, .f32⟩
  | .hbm, ⟨20, _⟩ => ⟨S80000, .f32⟩
  | .hbm, ⟨21, _⟩ => ⟨S2000000x1, .i32⟩
  | .hbm, ⟨22, _⟩ => ⟨S80000, .f32⟩
  | .hbm, ⟨23, _⟩ => ⟨S_, .f32⟩
  | .hbm, ⟨24, _⟩ => ⟨S80000, .f32⟩
  | .hbm, ⟨25, _⟩ => ⟨S80000, .i1⟩
  | .hbm, ⟨26, _⟩ => ⟨S_, .f32⟩
  | .hbm, ⟨27, _⟩ => ⟨S80000, .f32⟩
  | .hbm, ⟨28, _⟩ => ⟨S80000, .f32⟩
  | .hbm, ⟨29, _⟩ => ⟨S80000, .f32⟩
  | .hbm, ⟨30, _⟩ => ⟨S_, .f32⟩
  | .hbm, ⟨31, _⟩ => ⟨S_, .f32⟩
  | .hbm, ⟨32, _⟩ => ⟨S80000, .f32⟩
  | .hbm, ⟨33, _⟩ => ⟨S80000, .f32⟩
  | .hbm, ⟨34, _⟩ => ⟨S_, .i32⟩
  | .hbm, ⟨35, _⟩ => ⟨S2000000, .i32⟩
  | .hbm, ⟨36, _⟩ => ⟨S2000000, .i1⟩
  | .hbm, ⟨37, _⟩ => ⟨S_, .i32⟩
  | .hbm, ⟨38, _⟩ => ⟨S2000000, .i32⟩
  | .hbm, ⟨39, _⟩ => ⟨S2000000, .i32⟩
  | .hbm, ⟨40, _⟩ => ⟨S2000000, .i32⟩
  | .hbm, ⟨41, _⟩ => ⟨S2000000x1, .i32⟩
  | .hbm, ⟨42, _⟩ => ⟨S2000000, .f32⟩
  | .hbm, ⟨43, _⟩ => ⟨S_, .i32⟩
  | .hbm, ⟨44, _⟩ => ⟨S2000000, .i32⟩
  | .hbm, ⟨45, _⟩ => ⟨S2000000, .i1⟩
  | .hbm, ⟨46, _⟩ => ⟨S_, .i32⟩
  | .hbm, ⟨47, _⟩ => ⟨S2000000, .i32⟩
  | .hbm, ⟨48, _⟩ => ⟨S2000000, .i32⟩
  | .hbm, ⟨49, _⟩ => ⟨S2000000, .i32⟩
  | .hbm, ⟨50, _⟩ => ⟨S2000000x1, .i32⟩
  | .hbm, ⟨51, _⟩ => ⟨S2000000, .f32⟩
  | .hbm, ⟨52, _⟩ => ⟨S2000000, .f32⟩
  | .hbm, ⟨53, _⟩ => ⟨S_, .i32⟩
  | .hbm, ⟨54, _⟩ => ⟨S2000000, .i32⟩
  | .hbm, ⟨55, _⟩ => ⟨S2000000, .i1⟩
  | .hbm, ⟨56, _⟩ => ⟨S_, .i32⟩
  | .hbm, ⟨57, _⟩ => ⟨S2000000, .i32⟩
  | .hbm, ⟨58, _⟩ => ⟨S2000000, .i32⟩
  | .hbm, ⟨59, _⟩ => ⟨S2000000, .i32⟩
  | .hbm, ⟨60, _⟩ => ⟨S2000000x1, .i32⟩
  | .hbm, ⟨61, _⟩ => ⟨S2000000x64, .f32⟩
  | .hbm, ⟨62, _⟩ => ⟨S2000000x1, .f32⟩
  | .hbm, ⟨63, _⟩ => ⟨S2000000x64, .f32⟩
  | .hbm, ⟨64, _⟩ => ⟨S2000000x64, .f32⟩
  | .hbm, ⟨65, _⟩ => ⟨S_, .f32⟩
  | .hbm, ⟨66, _⟩ => ⟨S80000x64, .f32⟩
  | .hbm, ⟨67, _⟩ => ⟨S2000000x1, .i32⟩
  | .hbm, ⟨68, _⟩ => ⟨S80000x64, .f32⟩
  | .hbm, ⟨69, _⟩ => ⟨S_, .i32⟩
  | .hbm, ⟨70, _⟩ => ⟨S2000000, .i32⟩
  | .hbm, ⟨71, _⟩ => ⟨S2000000, .i1⟩
  | .hbm, ⟨72, _⟩ => ⟨S_, .i32⟩
  | .hbm, ⟨73, _⟩ => ⟨S2000000, .i32⟩
  | .hbm, ⟨74, _⟩ => ⟨S2000000, .i32⟩
  | .hbm, ⟨75, _⟩ => ⟨S2000000, .i32⟩
  | .hbm, ⟨76, _⟩ => ⟨S2000000x1, .i32⟩
  | .hbm, ⟨77, _⟩ => ⟨S2000000x64, .f32⟩
  | .hbm, ⟨78, _⟩ => ⟨S2000000x1, .f32⟩
  | .hbm, ⟨79, _⟩ => ⟨S2000000x64, .f32⟩
  | .hbm, ⟨80, _⟩ => ⟨S2000000x64, .f32⟩
  | .hbm, ⟨81, _⟩ => ⟨S_, .f32⟩
  | .hbm, ⟨82, _⟩ => ⟨S80000x64, .f32⟩
  | .hbm, ⟨83, _⟩ => ⟨S2000000x1, .i32⟩
  | .hbm, ⟨84, _⟩ => ⟨S80000x64, .f32⟩
  | .hbm, ⟨85, _⟩ => ⟨S_, .i32⟩
  | .hbm, ⟨86, _⟩ => ⟨S2000000, .i32⟩
  | .hbm, ⟨87, _⟩ => ⟨S2000000, .i1⟩
  | .hbm, ⟨88, _⟩ => ⟨S_, .i32⟩
  | .hbm, ⟨89, _⟩ => ⟨S2000000, .i32⟩
  | .hbm, ⟨90, _⟩ => ⟨S2000000, .i32⟩
  | .hbm, ⟨91, _⟩ => ⟨S2000000, .i32⟩
  | .hbm, ⟨92, _⟩ => ⟨S2000000x1, .i32⟩
  | .hbm, ⟨93, _⟩ => ⟨S2000000x64, .f32⟩
  | .hbm, ⟨94, _⟩ => ⟨S2000000x1, .f32⟩
  | .hbm, ⟨95, _⟩ => ⟨S2000000x64, .f32⟩
  | .hbm, ⟨96, _⟩ => ⟨S2000000x64, .f32⟩
  | .hbm, ⟨97, _⟩ => ⟨S_, .f32⟩
  | .hbm, ⟨98, _⟩ => ⟨S80000x64, .f32⟩
  | .hbm, ⟨99, _⟩ => ⟨S2000000x1, .i32⟩
  | .hbm, ⟨100, _⟩ => ⟨S80000x64, .f32⟩
  | .hbm, ⟨101, _⟩ => ⟨S80000x64, .f32⟩
  | .hbm, ⟨102, _⟩ => ⟨S50000x64, .f32⟩
  | .hbm, ⟨103, _⟩ => ⟨S30000x64, .f32⟩
  | .hbm, ⟨104, _⟩ => ⟨S4096x1, .i32⟩
  | .hbm, ⟨105, _⟩ => ⟨S4096x1, .i32⟩
  | .hbm, ⟨106, _⟩ => ⟨S4096x64, .f32⟩
  | .hbm, ⟨107, _⟩ => ⟨S4096x1, .f32⟩
  | .hbm, ⟨108, _⟩ => ⟨S4096, .f32⟩
  | .local _ .vmem, ⟨0, _⟩ => ⟨S2000x768, .f32⟩
  | .local _ .vmem, ⟨1, _⟩ => ⟨S2000x768, .f32⟩
  | .local _ .vmem, ⟨2, _⟩ => ⟨S2000x128, .f32⟩
  | .local _ .vmem, ⟨3, _⟩ => ⟨S2000x128, .f32⟩
  | .local _ .vmem, ⟨4, _⟩ => ⟨S768x64, .f32⟩
  | .local _ .vmem, ⟨5, _⟩ => ⟨S128x64, .f32⟩
  | .local _ .vmem, ⟨6, _⟩ => ⟨S1x64, .f32⟩
  | .local _ .vmem, ⟨7, _⟩ => ⟨S2000x64, .f32⟩
  | .local _ .vmem, ⟨8, _⟩ => ⟨S2000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S1000x64, .f32⟩
  | .local _ .vmem, ⟨20, _⟩ => ⟨S1000x64, .f32⟩
  | .local _ .vmem, ⟨21, _⟩ => ⟨S4096x1, .i32⟩
  | .local _ .vmem, ⟨22, _⟩ => ⟨S4096x64, .f32⟩
  | .local _ .vmem, ⟨23, _⟩ => ⟨S4096x64, .f32⟩
  | .local _ .vmem, ⟨24, _⟩ => ⟨S1000x64, .f32⟩
  | .local _ .vmem, ⟨25, _⟩ => ⟨S1000x64, .f32⟩
  | .local _ .vmem, ⟨26, _⟩ => ⟨S4096x1, .i32⟩
  | .local _ .vmem, ⟨27, _⟩ => ⟨S4096x64, .f32⟩
  | .local _ .vmem, ⟨28, _⟩ => ⟨S4096x1, .f32⟩
  | .local _ .vmem, ⟨29, _⟩ => ⟨S4096x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4096x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x1 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4096x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4096x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S896x64_S768x64_0_0 : S896x64.Slices ![0, 0] S768x64
  slices_S896x64_S128x64_768_0 : S896x64.Slices ![768, 0] S128x64
  shapeCasts_S64_S1x64 : S64.ShapeCasts S1x64
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S768x64_S768x64_0_0 : ∀ a, (![0, 0] : Fin 2 → Nat) a + S768x64.size a ≤ S768x64.size a
  h_S768x64 : 0 < S768x64.numel
  shapeCasts_S768x64_S768x64 : S768x64.ShapeCasts S768x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  concatenates_S50000x64_S30000x64_S80000x64_d0 : Shape.Concatenates [S50000x64, S30000x64] S80000x64 0
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S80000 : S_.BroadcastsInDim S80000 (![] : Fin 0 → Fin S80000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S80000x64 : S_.BroadcastsInDim S80000x64 (![] : Fin 0 → Fin S80000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  slices_S80000x64_S50000x64_0_0 : S80000x64.Slices ![0, 0] S50000x64
  slices_S80000x64_S30000x64_50000_0 : S80000x64.Slices ![50000, 0] S30000x64
  shapeCasts_S4096_S4096x1 : S4096.ShapeCasts S4096x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  iota_S4096x1000_d1_w32 : S4096x1000.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x1000 : S4096x1.Broadcasts S4096x1000
  natLt_1_32 : 1 < 32
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  reduces_S4096x64_S4096 : S4096x64.Reduces [1] S4096
  shapeCasts_S4096x1_S4096 : S4096x1.ShapeCasts S4096
  dot_S2000x768_S768x64_S2000x64_1_0_0_1_n_n_wf : DotDims.WF S2000x768 S768x64 S2000x64 [1] [0] [0] [1] [] []
  dot_S2000x128_S128x64_S2000x64_1_0_0_1_n_n_wf : DotDims.WF S2000x128 S128x64 S2000x64 [1] [0] [0] [1] [] []
  scatter_S80000_S2000000x1_S2000000_n_0_0_1_wf : ScatterDims.WF S80000 S2000000x1 S2000000 [] [0] [0] 1
  gather_S80000_S2000000x1_S2000000_n_0_n_n_0_1_1_wf : GatherDims.WF S80000 S2000000x1 S2000000 [] [0] [] [0] [] 1 ![1]
  gather_S80000x64_S2000000x1_S2000000x64_1_0_n_n_0_1_164_wf : GatherDims.WF S80000x64 S2000000x1 S2000000x64 [1] [0] [] [0] [] 1 ![1, 64]
  scatter_S80000x64_S2000000x1_S2000000x64_1_0_0_1_wf : ScatterDims.WF S80000x64 S2000000x1 S2000000x64 [1] [0] [0] 1
  dot_S4096x1000_S1000x64_S4096x64_1_0_0_1_n_n_wf : DotDims.WF S4096x1000 S1000x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S30000x768.size a
  hwx0_0 : ∀ i : grid0.Coords, EltTy.bits .f32 = 32 ∨ (Rect.block (s := S30000x768) S2000x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S30000x128.size a
  hwx0_1 : ∀ i : grid0.Coords, EltTy.bits .f32 = 32 ∨ (Rect.block (s := S30000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x64.size a ≤ S768x64.size a
  hwx0_2 : ∀ i : grid0.Coords, EltTy.bits .f32 = 32 ∨ (Rect.block (s := S768x64) S768x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S30000x64.size a
  hwx0_5 : ∀ i : grid0.Coords, EltTy.bits .f32 = 32 ∨ (Rect.block (s := S30000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S80000x64.size a
  hwx1_0 : ∀ i : grid1.Coords, EltTy.bits .f32 = 32 ∨ (Rect.block (s := S80000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S80000x64.size a
  hwx1_1 : ∀ i : grid1.Coords, EltTy.bits .f32 = 32 ∨ (Rect.block (s := S80000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S80000x64.size a
  hwx1_2 : ∀ i : grid1.Coords, EltTy.bits .f32 = 32 ∨ (Rect.block (s := S80000x64) S4000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S80000x64.size a
  hwx1_3 : ∀ i : grid1.Coords, EltTy.bits .f32 = 32 ∨ (Rect.block (s := S80000x64) S4000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S80000x64.size a
  hwx1_4 : ∀ i : grid1.Coords, EltTy.bits .f32 = 32 ∨ (Rect.block (s := S80000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S50000x64.size a
  hwx2_0 : ∀ i : grid2.Coords, EltTy.bits .f32 = 32 ∨ (Rect.block (s := S50000x64) S1000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S4096x1.size a
  hwx2_1 : ∀ i : grid2.Coords, EltTy.bits .i32 = 32 ∨ (Rect.block (s := S4096x1) S4096x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x64.size a ≤ S4096x64.size a
  hwx2_2 : ∀ i : grid2.Coords, EltTy.bits .f32 = 32 ∨ (Rect.block (s := S4096x64) S4096x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S30000x64.size a
  hwx3_0 : ∀ i : grid3.Coords, EltTy.bits .f32 = 32 ∨ (Rect.block (s := S30000x64) S1000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x1.size a ≤ S4096x1.size a
  hwx3_1 : ∀ i : grid3.Coords, EltTy.bits .i32 = 32 ∨ (Rect.block (s := S4096x1) S4096x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4096x64.size a ≤ S4096x64.size a
  hwx3_2 : ∀ i : grid3.Coords, EltTy.bits .f32 = 32 ∨ (Rect.block (s := S4096x64) S4096x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S4096x1.size a ≤ S4096x1.size a
  hwx3_3 : ∀ i : grid3.Coords, EltTy.bits .f32 = 32 ∨ (Rect.block (s := S4096x1) S4096x1.size (cc3_transform_3 i) (hinb3_3 i)).WholeWords (EltTy.packing .f32)

variable [Facts₀]

def dot_S2000x768_S768x64_S2000x64_1_0_0_1_n_n : DotDims S2000x768 S768x64 S2000x64 where
  lhsContracting := [1]
  rhsContracting := [0]
  lhsNonContracting := [0]
  rhsNonContracting := [1]
  lhsBatch := []
  rhsBatch := []
  wf := dot_S2000x768_S768x64_S2000x64_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def scatter_S80000_S2000000x1_S2000000_n_0_0_1 : ScatterDims S80000 S2000000x1 S2000000 where
  updateWindowDims := []
  insertedWindowDims := [0]
  scatterDimsToOperandDims := [0]
  indexVectorDim := 1
  wf := scatter_S80000_S2000000x1_S2000000_n_0_0_1_wf
def gather_S80000_S2000000x1_S2000000_n_0_n_n_0_1_1 : GatherDims S80000 S2000000x1 S2000000 where
  offsetDims := []
  collapsedSliceDims := [0]
  operandBatchingDims := []
  startIndicesBatchingDims := []
  startIndexMap := [0]
  indexVectorDim := 1
  sliceSizes := ![1]
  wf := gather_S80000_S2000000x1_S2000000_n_0_n_n_0_1_1_wf
def gather_S80000x64_S2000000x1_S2000000x64_1_0_n_n_0_1_164 : GatherDims S80000x64 S2000000x1 S2000000x64 where
  offsetDims := [1]
  collapsedSliceDims := [0]
  operandBatchingDims := []
  startIndicesBatchingDims := []
  startIndexMap := [0]
  indexVectorDim := 1
  sliceSizes := ![1, 64]
  wf := gather_S80000x64_S2000000x1_S2000000x64_1_0_n_n_0_1_164_wf
def scatter_S80000x64_S2000000x1_S2000000x64_1_0_0_1 : ScatterDims S80000x64 S2000000x1 S2000000x64 where
  updateWindowDims := [1]
  insertedWindowDims := [0]
  scatterDimsToOperandDims := [0]
  indexVectorDim := 1
  wf := scatter_S80000x64_S2000000x1_S2000000x64_1_0_0_1_wf
def dot_S4096x1000_S1000x64_S4096x64_1_0_0_1_n_n : DotDims S4096x1000 S1000x64 S4096x64 where
  lhsContracting := [1]
  rhsContracting := [0]
  lhsNonContracting := [0]
  rhsNonContracting := [1]
  lhsBatch := []
  rhsBatch := []
  wf := dot_S4096x1000_S1000x64_S4096x64_1_0_0_1_n_n_wf

abbrev win0_0 : Pipeline.Window sig grid0 :=
  Pipeline.Window.ofSpec (Memref.whole main_arg1) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S768x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v72) S4000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v73) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v74) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S4096x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v78) S4096x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v75) S1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S4096x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S4096x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S4096x1.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x64 : Shape := ⟨2, ![50000, 64]⟩
abbrev S30000x768 : Shape := ⟨2, ![30000, 768]⟩
abbrev S30000x128 : Shape := ⟨2, ![30000, 128]⟩
abbrev S896x64 : Shape := ⟨2, ![896, 64]⟩
abbrev S64 : Shape := ⟨1, ![64]⟩
abbrev S2x2000000 : Shape := ⟨2, ![2, 2000000]⟩
abbrev S4096 : Shape := ⟨1, ![4096]⟩
abbrev S30000x896 : Shape := ⟨2, ![30000, 896]⟩
abbrev S30000x64 : Shape := ⟨2, ![30000, 64]⟩
abbrev S1x64 : Shape := ⟨2, ![1, 64]⟩
abbrev S_ : Shape := ⟨0, ![]⟩
abbrev S30000 : Shape := ⟨1, ![30000]⟩
abbrev S30000x1 : Shape := ⟨2, ![30000, 1]⟩
abbrev S80000x64 : Shape := ⟨2, ![80000, 64]⟩
abbrev S1x2000000 : Shape := ⟨2, ![1, 2000000]⟩
abbrev S2000000 : Shape := ⟨1, ![2000000]⟩
abbrev S80000 : Shape := ⟨1, ![80000]⟩
abbrev S2000000x1 : Shape := ⟨2, ![2000000, 1]⟩
abbrev S2000000x64 : Shape := ⟨2, ![2000000, 64]⟩
abbrev S1x80000x64 : Shape := ⟨3, ![1, 80000, 64]⟩
abbrev S4x80000x64 : Shape := ⟨3, ![4, 80000, 64]⟩
abbrev S4096x1 : Shape := ⟨2, ![4096, 1]⟩
abbrev S4096x64 : Shape := ⟨2, ![4096, 64]⟩

abbrev nBuf : Space → Nat
  | .hbm => 145
  | .vmem => 0
  | .smem => 0
  | _ => 0

abbrev hbmTy0_0 (i : Nat) : BufTy := match i % 128 with
  | 0 => ⟨S50000x64, .f32⟩
  | 1 => ⟨S30000x768, .f32⟩
  | 2 => ⟨S30000x128, .f32⟩
  | 3 => ⟨S896x64, .f32⟩
  | 4 => ⟨S64, .f32⟩
  | 5 => ⟨S2x2000000, .i32⟩
  | 6 => ⟨S4096, .i32⟩
  | 7 => ⟨S4096, .i32⟩
  | 8 => ⟨S30000x896, .f32⟩
  | 9 => ⟨S30000x64, .f32⟩
  | 10 => ⟨S1x64, .f32⟩
  | 11 => ⟨S30000x64, .f32⟩
  | 12 => ⟨S30000x64, .f32⟩
  | 13 => ⟨S30000x64, .f32⟩
  | 14 => ⟨S_, .f32⟩
  | 15 => ⟨S30000, .f32⟩
  | 16 => ⟨S30000x1, .f32⟩
  | 17 => ⟨S30000x1, .f32⟩
  | 18 => ⟨S_, .f32⟩
  | 19 => ⟨S30000x1, .f32⟩
  | 20 => ⟨S30000x1, .f32⟩
  | 21 => ⟨S30000x64, .f32⟩
  | 22 => ⟨S30000x64, .f32⟩
  | 23 => ⟨S80000x64, .f32⟩
  | 24 => ⟨S1x2000000, .i32⟩
  | 25 => ⟨S2000000, .i32⟩
  | 26 => ⟨S1x2000000, .i32⟩
  | 27 => ⟨S2000000, .i32⟩
  | 28 => ⟨S_, .f32⟩
  | 29 => ⟨S2000000, .f32⟩
  | 30 => ⟨S_, .f32⟩
  | 31 => ⟨S80000, .f32⟩
  | 32 => ⟨S2000000x1, .i32⟩
  | 33 => ⟨S80000, .f32⟩
  | 34 => ⟨S_, .f32⟩
  | 35 => ⟨S80000, .f32⟩
  | 36 => ⟨S80000, .i1⟩
  | 37 => ⟨S_, .f32⟩
  | 38 => ⟨S80000, .f32⟩
  | 39 => ⟨S80000, .f32⟩
  | 40 => ⟨S80000, .f32⟩
  | 41 => ⟨S_, .f32⟩
  | 42 => ⟨S_, .f32⟩
  | 43 => ⟨S80000, .f32⟩
  | 44 => ⟨S80000, .f32⟩
  | 45 => ⟨S_, .i32⟩
  | 46 => ⟨S2000000, .i32⟩
  | 47 => ⟨S2000000, .i1⟩
  | 48 => ⟨S_, .i32⟩
  | 49 => ⟨S2000000, .i32⟩
  | 50 => ⟨S2000000, .i32⟩
  | 51 => ⟨S2000000, .i32⟩
  | 52 => ⟨S2000000x1, .i32⟩
  | 53 => ⟨S2000000, .f32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S2000000x1, .i32⟩
  | 62 => ⟨S2000000, .f32⟩
  | 63 => ⟨S2000000, .f32⟩
  | 64 => ⟨S_, .i32⟩
  | 65 => ⟨S2000000, .i32⟩
  | 66 => ⟨S2000000, .i1⟩
  | 67 => ⟨S_, .i32⟩
  | 68 => ⟨S2000000, .i32⟩
  | 69 => ⟨S2000000, .i32⟩
  | 70 => ⟨S2000000, .i32⟩
  | 71 => ⟨S2000000x1, .i32⟩
  | 72 => ⟨S2000000x64, .f32⟩
  | 73 => ⟨S2000000x1, .f32⟩
  | 74 => ⟨S2000000x64, .f32⟩
  | 75 => ⟨S2000000x64, .f32⟩
  | 76 => ⟨S_, .f32⟩
  | 77 => ⟨S80000x64, .f32⟩
  | 78 => ⟨S2000000x1, .i32⟩
  | 79 => ⟨S80000x64, .f32⟩
  | 80 => ⟨S_, .i32⟩
  | 81 => ⟨S2000000, .i32⟩
  | 82 => ⟨S2000000, .i1⟩
  | 83 => ⟨S_, .i32⟩
  | 84 => ⟨S2000000, .i32⟩
  | 85 => ⟨S2000000, .i32⟩
  | 86 => ⟨S2000000, .i32⟩
  | 87 => ⟨S2000000x1, .i32⟩
  | 88 => ⟨S2000000x64, .f32⟩
  | 89 => ⟨S2000000x1, .f32⟩
  | 90 => ⟨S2000000x64, .f32⟩
  | 91 => ⟨S2000000x64, .f32⟩
  | 92 => ⟨S_, .f32⟩
  | 93 => ⟨S80000x64, .f32⟩
  | 94 => ⟨S2000000x1, .i32⟩
  | 95 => ⟨S80000x64, .f32⟩
  | 96 => ⟨S_, .i32⟩
  | 97 => ⟨S2000000, .i32⟩
  | 98 => ⟨S2000000, .i1⟩
  | 99 => ⟨S_, .i32⟩
  | 100 => ⟨S2000000, .i32⟩
  | 101 => ⟨S2000000, .i32⟩
  | 102 => ⟨S2000000, .i32⟩
  | 103 => ⟨S2000000x1, .i32⟩
  | 104 => ⟨S2000000x64, .f32⟩
  | 105 => ⟨S2000000x1, .f32⟩
  | 106 => ⟨S2000000x64, .f32⟩
  | 107 => ⟨S2000000x64, .f32⟩
  | 108 => ⟨S_, .f32⟩
  | 109 => ⟨S80000x64, .f32⟩
  | 110 => ⟨S2000000x1, .i32⟩
  | 111 => ⟨S80000x64, .f32⟩
  | 112 => ⟨S1x80000x64, .f32⟩
  | 113 => ⟨S1x80000x64, .f32⟩
  | 114 => ⟨S1x80000x64, .f32⟩
  | 115 => ⟨S1x80000x64, .f32⟩
  | 116 => ⟨S4x80000x64, .f32⟩
  | 117 => ⟨S_, .f32⟩
  | 118 => ⟨S80000x64, .f32⟩
  | 119 => ⟨S_, .f32⟩
  | 120 => ⟨S80000x64, .f32⟩
  | 121 => ⟨S80000x64, .f32⟩
  | 122 => ⟨S50000x64, .f32⟩
  | 123 => ⟨S30000x64, .f32⟩
  | 124 => ⟨S_, .i32⟩
  | 125 => ⟨S4096, .i32⟩
  | 126 => ⟨S4096, .i1⟩
  | 127 => ⟨S_, .i32⟩
  | _ => ⟨S50000x64, .f32⟩

abbrev hbmTy0_1 (i : Nat) : BufTy := match i % 128 with
  | 0 => ⟨S4096, .i32⟩
  | 1 => ⟨S4096, .i32⟩
  | 2 => ⟨S4096, .i32⟩
  | 3 => ⟨S4096x1, .i32⟩
  | 4 => ⟨S4096x64, .f32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S4096x64, .f32⟩
  | 14 => ⟨S4096x64, .f32⟩
  | 15 => ⟨S_, .f32⟩
  | 16 => ⟨S4096, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v24 : Ref sig .tc := ⟨.hbm, 44, rfl⟩
abbrev main_c : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_17 : Ref sig .tc := ⟨.hbm, 117, rfl⟩
abbrev main_v84 : Ref sig .tc := ⟨.hbm, 118, rfl⟩
abbrev main_cst_18 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_19 : Ref sig .tc := ⟨.hbm, 124, rfl⟩
abbrev main_v89 : Ref sig .tc := ⟨.hbm, 125, rfl⟩
abbrev main_v90 : Ref sig .tc := ⟨.hbm, 126, rfl⟩
abbrev main_c_20 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_21 : Ref sig .tc := ⟨.hbm, 133, rfl⟩
abbrev main_v96 : Ref sig .tc := ⟨.hbm, 134, rfl⟩
abbrev main_v97 : Ref sig .tc := ⟨.hbm, 135, rfl⟩
abbrev main_c_22 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_23 : Ref sig .tc := ⟨.hbm, 143, rfl⟩
abbrev main_v104 : Ref sig .tc := ⟨.hbm, 144, rfl⟩

abbrev nD : Nat := 1
abbrev τ : Topo := Topo.v7x

variable {F : FTy → Type} [FloatOps F]

class Facts₀ : Prop where
  concatenates_S30000x768_S30000x128_S30000x896_d1 : Shape.Concatenates [S30000x768, S30000x128] S30000x896 1
  bcast_S64_S1x64_1 : S64.BroadcastsInDim S1x64 (![1] : Fin 1 → Fin S1x64.rank)
  bcast_S1x64_S30000x64_0_1 : S1x64.BroadcastsInDim S30000x64 (![0, 1] : Fin 2 → Fin S30000x64.rank)
  reducesTo_S30000x64_S30000_d1 : S30000x64.ReducesTo [1] S30000
  h_S_ : 0 < S_.numel
  bcast_S30000_S30000x1_0 : S30000.BroadcastsInDim S30000x1 (![0] : Fin 1 → Fin S30000x1.rank)
  bcast_S_S30000x1 : S_.BroadcastsInDim S30000x1 (![] : Fin 0 → Fin S30000x1.rank)
  bcast_S30000x1_S30000x64_0_1 : S30000x1.BroadcastsInDim S30000x64 (![0, 1] : Fin 2 → Fin S30000x64.rank)
  concatenates_S50000x64_S30000x64_S80000x64_d0 : Shape.Concatenates [S50000x64, S30000x64] S80000x64 0
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S80000 : S_.BroadcastsInDim S80000 (![] : Fin 0 → Fin S80000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S80000x64 : S_.BroadcastsInDim S80000x64 (![] : Fin 0 → Fin S80000x64.rank)
  bcast_S80000x64_S1x80000x64_1_2 : S80000x64.BroadcastsInDim S1x80000x64 (![1, 2] : Fin 2 → Fin S1x80000x64.rank)
  concatenates_S1x80000x64_S1x80000x64_S1x80000x64_S1x80000x64_S4x80000x64_d0 : Shape.Concatenates [S1x80000x64, S1x80000x64, S1x80000x64, S1x80000x64] S4x80000x64 0
  reducesTo_S4x80000x64_S80000x64_d0 : S4x80000x64.ReducesTo [0] S80000x64
  slices_S80000x64_S50000x64_0_0 : S80000x64.Slices ![0, 0] S50000x64
  slices_S80000x64_S30000x64_50000_0 : S80000x64.Slices ![50000, 0] S30000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  dot_S30000x896_S896x64_S30000x64_1_0_0_1_n_n_wf : DotDims.WF S30000x896 S896x64 S30000x64 [1] [0] [0] [1] [] []
  scatter_S80000_S2000000x1_S2000000_n_0_0_1_wf : ScatterDims.WF S80000 S2000000x1 S2000000 [] [0] [0] 1
  gather_S80000_S2000000x1_S2000000_n_0_n_n_0_1_1_wf : GatherDims.WF S80000 S2000000x1 S2000000 [] [0] [] [0] [] 1 ![1]
  gather_S80000x64_S2000000x1_S2000000x64_1_0_n_n_0_1_164_wf : GatherDims.WF S80000x64 S2000000x1 S2000000x64 [1] [0] [] [0] [] 1 ![1, 64]
  scatter_S80000x64_S2000000x1_S2000000x64_1_0_0_1_wf : ScatterDims.WF S80000x64 S2000000x1 S2000000x64 [1] [0] [0] 1
  gather_S50000x64_S4096x1_S4096x64_1_0_n_n_0_1_164_wf : GatherDims.WF S50000x64 S4096x1 S4096x64 [1] [0] [] [0] [] 1 ![1, 64]
  gather_S30000x64_S4096x1_S4096x64_1_0_n_n_0_1_164_wf : GatherDims.WF S30000x64 S4096x1 S4096x64 [1] [0] [] [0] [] 1 ![1, 64]

variable [Facts₀]

def dot_S30000x896_S896x64_S30000x64_1_0_0_1_n_n : DotDims S30000x896 S896x64 S30000x64 where
  lhsContracting := [1]
  rhsContracting := [0]
  lhsNonContracting := [0]
  rhsNonContracting := [1]
  lhsBatch := []
  rhsBatch := []
  wf := dot_S30000x896_S896x64_S30000x64_1_0_0_1_n_n_wf
def scatter_S80000_S2000000x1_S2000000_n_0_0_1 : ScatterDims S80000 S2000000x1 S2000000 where
  updateWindowDims := []
  insertedWindowDims := [0]
  scatterDimsToOperandDims := [0]
  indexVectorDim := 1
  wf := scatter_S80000_S2000000x1_S2000000_n_0_0_1_wf
def gather_S80000_S2000000x1_S2000000_n_0_n_n_0_1_1 : GatherDims S80000 S2000000x1 S2000000 where
  offsetDims := []
  collapsedSliceDims := [0]
  operandBatchingDims := []
  startIndicesBatchingDims := []
  startIndexMap := [0]
  indexVectorDim := 1
  sliceSizes := ![1]
  wf := gather_S80000_S2000000x1_S2000000_n_0_n_n_0_1_1_wf
def gather_S80000x64_S2000000x1_S2000000x64_1_0_n_n_0_1_164 : GatherDims S80000x64 S2000000x1 S2000000x64 where
  offsetDims := [1]
  collapsedSliceDims := [0]
  operandBatchingDims := []
  startIndicesBatchingDims := []
  startIndexMap := [0]
  indexVectorDim := 1
  sliceSizes := ![1, 64]
  wf := gather_S80000x64_S2000000x1_S2000000x64_1_0_n_n_0_1_164_wf
def scatter_S80000x64_S2000000x1_S2000000x64_1_0_0_1 : ScatterDims S80000x64 S2000000x1 S2000000x64 where
  updateWindowDims := [1]
  insertedWindowDims := [0]
  scatterDimsToOperandDims := [0]
  indexVectorDim := 1
  wf := scatter_S80000x64_S2000000x1_S2000000x64_1_0_0_1_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf
def gather_S30000x64_S4096x1_S4096x64_1_0_n_n_0_1_164 : GatherDims S30000x64 S4096x1 S4096x64 where
  offsetDims := [1]
  collapsedSliceDims := [0]
  operandBatchingDims := []
  startIndicesBatchingDims := []
  startIndexMap := [0]
  indexVectorDim := 1
  sliceSizes := ![1, 64]
  wf := gather_S30000x64_S4096x1_S4096x64_1_0_n_n_0_1_164_wf

class Facts : Prop extends Facts₀ where

variable [Facts]
-- ==== Proof.KB.Reg0.lean ====
import proofs.«422603_j65833258713793_2_alg».proof.Proof.Gen.Kernel.Launch
import proofs.«422603_j65833258713793_2_alg».proof.Proof.Gen.Kernel.Skeleton
import proofs.«422603_j65833258713793_2_alg».proof.Proof.Gen.Kernel.Points
import Idealize.ShloMosaic.Lib.Pipeline.FrameBody
import Idealize.ShloMosaic.Lib.Ring
import Idealize.ShloMosaic.Lib.Tactic

/-!
# Region 0 of `@main`: the projection kernel's pipeline, at the contents `V` it is entered with

The first pallas_call streams the two feature matrices in row blocks of 2000 and keeps the two weight
slices and the bias resident (one block each, the same at every grid point).  Per grid point the body
reads the five input blocks whole and overwrites the output block whole with one store: the bias-shifted
sum of the two bf16 products, each row divided by its clamped Euclidean norm.

This file states, for any buffer contents `V` of the core at the region's entry:
* the block of every window at every grid point (`iblk0`);
* what the body leaves in the output block as a function of the five input blocks (`out0_5`);
* the body's separation-logic triple (`sound_kernel0`);
* the pipeline's proof data (`dat0`) and its body obligation (`body_obligation0`).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`: the slice of its array, as the region finds it, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a 2000-row block of the wide feature matrix, new at every point): whenever the body is called, the window's current buffer holds the block of
    that grid point, for any proof data over `V`'s array whose body leaves the block untouched.  At a point
    where the block is fetched this is the fetch; at a point where it is not, the block index equals the
    previous point's, and the previous point's block was left in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (a 2000-row block of the narrow feature matrix, new at every point): whenever the body is called, the window's current buffer holds the block of
    that grid point, for any proof data over `V`'s array whose body leaves the block untouched.  At a point
    where the block is fetched this is the fetch; at a point where it is not, the block index equals the
    previous point's, and the previous point's block was left in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the first weight slice, one resident block): whenever the body is called, the window's current buffer holds the block of
    that grid point, for any proof data over `V`'s array whose body leaves the block untouched.  At a point
    where the block is fetched this is the fetch; at a point where it is not, the block index equals the
    previous point's, and the previous point's block was left in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the second weight slice, one resident block): whenever the body is called, the window's current buffer holds the block of
    that grid point, for any proof data over `V`'s array whose body leaves the block untouched.  At a point
    where the block is fetched this is the fetch; at a point where it is not, the block index equals the
    previous point's, and the previous point's block was left in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the bias row, one resident block): whenever the body is called, the window's current buffer holds the block of
    that grid point, for any proof data over `V`'s array whose body leaves the block untouched.  At a point
    where the block is fetched this is the fetch; at a point where it is not, the block index equals the
    previous point's, and the previous point's block was left in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store span a whole block -/

abbrev rIn0_0 : Rect S2000x768 := Rect.unit (s := S2000x768) ![0, 0] S2000x768.size inb_S2000x768_S2000x768_0_0
abbrev rIn0_1 : Rect S2000x128 := Rect.unit (s := S2000x128) ![0, 0] S2000x128.size inb_S2000x128_S2000x128_0_0
abbrev rIn0_2 : Rect S768x64 := Rect.unit (s := S768x64) ![0, 0] S768x64.size inb_S768x64_S768x64_0_0
abbrev rIn0_3 : Rect S128x64 := Rect.unit (s := S128x64) ![0, 0] S128x64.size inb_S128x64_S128x64_0_0
abbrev rIn0_4 : Rect S1x64 := Rect.unit (s := S1x64) ![0, 0] S1x64.size inb_S1x64_S1x64_0_0
/-- The output block, whole: the rectangle of the body's one store. -/
abbrev r0_0 : Rect S2000x64 := Rect.unit (s := S2000x64) ![0, 0] S2000x64.size inb_S2000x64_S2000x64_0_0

/-! ## What the body leaves in the output block -/

/-- The output block after the body, from the five input blocks: the one store's payload (the normalised
    projection of the loaded blocks) laid over the whole block. -/
def out0_5 (x0 : Vec F S2000x768 .f32) (x1 : Vec F S2000x128 .f32) (x2 : Vec F S768x64 .f32) (x3 : Vec F S128x64 .f32) (x4 : Vec F S1x64 .f32) : Vec F S2000x64 .f32 :=
  View.canon [⟨r0_0, k0_pay1 (View.ld x0 rIn0_0) (View.ld x1 rIn0_1) (View.ld x2 rIn0_2) (View.ld x3 rIn0_3) (View.ld x4 rIn0_4)⟩]

/-- The store's rectangle is the whole block, so every index of the block lies in it. -/
theorem cover0_5 (p0 : Vec F S2000x64 .f32) (y : S2000x64.Idx) :
    ∃ pc ∈ ([⟨r0_0, p0⟩] : List (View.Piece (Elt F) S2000x64 .f32)), y ∈ pc.1.set :=
  View.cover_of_tiled [⟨r0_0, p0⟩] S2000x64.size (by rfl) y

/-! ## The body's triple -/

set_option maxHeartbeats 1000000 in
/-- The body on whole block buffers: given the five input buffers at contents `x0 … x4` and the output buffer at
    anything, it runs to any continuation that accepts the inputs unchanged and the output at `out0_5` of them.
    The five loads return the blocks, the load of the output buffer's old contents is dropped, and the one store
    overwrites the whole block, so what the buffer then reads is the piece list's canonical form. -/
theorem sound_kernel0 (c : Dev nD) (E : Set ℕ) (i : grid0.Coords) (arg1 : Memref sig .tc .vmem S2000x768 .f32) (harg1 : arg1.IsWhole) (arg2 : Memref sig .tc .vmem S2000x128 .f32) (harg2 : arg2.IsWhole) (arg3 : Memref sig .tc .vmem S768x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x768 .f32) (x1 : Vec F S2000x128 .f32) (x2 : Vec F S768x64 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: every window's array as the region finds it; after the body at
    point `t` each input buffer still at its block and the output buffer at `out0_5` of the five input blocks;
    the invariant is the untouched remainder of the core's state, nothing is owed, and all shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Every input buffer holds its block whenever the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The invariant at the region's entry is the untouched remainder, -/
theorem hin0 (c : Dev nD) : (Pipeline.ΦA spec0 c : sProp 𝕄) ⊢ (dat0 V c).Φ 0 := .rfl

/-- and so it is at the region's exit. -/
theorem hout0 (c : Dev nD) : (dat0 V c).Φ (Fin.last cfg0.N) ⊢ (Pipeline.ΦA spec0 c : sProp 𝕄) := .rfl

/-! ## The body obligation, at a generic grid point -/

/-- What the body is called with at point `t`: the invariant, the core's debts, and each window's current buffer
    at what the pipeline has put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any grid point: the input buffers hold their blocks, so the body's triple applies; the invariant
    and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation: the triple above at every grid point, with the windows' resources spelled out
    one by one. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.KB.Reg1.lean ====
/- Region 1 of @main, the layer-mean call (pipeline cfg1, kernel cc1__mean_kernel), at the contents V the
   TensorCore's buffers hold when the region is entered, for every float instance F.

   The call walks 20 row tiles of 4000 rows. At each tile it reads one 4000x64 block of each of the four stacked
   layers (windows 0..3) and writes one 4000x64 block of the pooled array (window 4): the sum of the four layer
   blocks, taken left to right, times one quarter. This module fixes what each window's block is as a function of
   V, what the output window's buffer holds after the body, the body's triple, and from these the pipeline's
   proof data and its body obligation. -/
import proofs.«422603_j65833258713793_2_alg».proof.Proof.Gen.Kernel.Launch
import proofs.«422603_j65833258713793_2_alg».proof.Proof.Gen.Kernel.Skeleton
import proofs.«422603_j65833258713793_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The 4000x64 block of window w at tile t: the rows 4000 t .. 4000 t + 3999 of the window's array, as V has it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each layer window is an input that the body only reads, that no tile cuts short and that is live at every
    tile. So whatever proof data has V's array for it and says the body leaves the block where it was, its buffer
    holds the tile's block when the body starts, whether the block was brought in at this tile or earlier. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes -/

/-- Every load and the one store of the body go through the whole 4000x64 buffer. -/
abbrev r1_0 : Rect S4000x64 := Rect.unit (s := S4000x64) ![0, 0] S4000x64.size inb_S4000x64_S4000x64_0_0

/-- The pooled block the body leaves in window 4's buffer, from the four layer blocks: a single store, of
    ((x0 + x1) + x2 + x3) * 1/4 entrywise, over the whole buffer. -/
def out1_4 (x0 : Vec F S4000x64 .f32) (x1 : Vec F S4000x64 .f32) (x2 : Vec F S4000x64 .f32) (x3 : Vec F S4000x64 .f32) : Vec F S4000x64 .f32 :=
  View.canon [⟨r1_0, k1_pay1 (View.ld x0 r1_0) (View.ld x1 r1_0) (View.ld x2 r1_0) (View.ld x3 r1_0)⟩]

/-- The store's rectangle is the whole buffer, so every index of the buffer lies in it. -/
theorem cover1_4 (p0 : Vec F S4000x64 .f32) (y : S4000x64.Idx) :
    ∃ pc ∈ ([⟨r1_0, p0⟩] : List (View.Piece (Elt F) S4000x64 .f32)), y ∈ pc.1.set :=
  View.cover_of_tiled [⟨r1_0, p0⟩] S4000x64.size (by rfl) y

/-! ## The body's triple -/

set_option maxHeartbeats 1000000 in
/-- Run on five whole buffers, the four layer buffers reading x0..x3 and the pooled one holding anything, the body
    ends with the layer buffers unchanged and the pooled one reading out1_4 x0 x1 x2 x3: four loads of the inputs, a
    load of the output that is not used, and the store. -/
theorem sound_kernel1 (c : Dev nD) (E : Set ℕ) (i : grid1.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x64 .f32) (harg4 : arg4.IsWhole)
    (arg5 : Memref sig .tc .vmem S4000x64 .f32) (harg5 : arg5.IsWhole)
    (x0 x1 x2 x3 : Vec F S4000x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__mean_kernel i arg1 harg1 arg2 harg2 arg3 harg3 arg4 harg4 arg5 harg5) K := by
  simp only [cc1__mean_kernel_eq_skeleton]; unfold cc1__mean_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data -/

/-- Pipeline cfg1's proof data on core c. The arrays are V's. After the body at tile t a layer window's buffer
    still holds its block and the pooled window's holds out1_4 of the four blocks. The invariant is the part of
    the core the call does not touch, the same at every tile; every share is whole; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The invariant when the region is entered, and when it is left, is the untouched part of the core. -/
theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

/-! ## The body obligation -/

/-- What the body is given at tile t: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At every tile the layer buffers hold their blocks, so the body's triple applies; the invariant and what is
    owed are the same before and after and are carried across. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation: the triple above at every tile, the windows' buffers written out one by one. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
import proofs.«422603_j65833258713793_2_alg».proof.Proof.Gen.Kernel.Launch
import proofs.«422603_j65833258713793_2_alg».proof.Proof.Gen.Kernel.Skeleton
import proofs.«422603_j65833258713793_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The third pallas_call (pipeline 2): the row gather through a one-hot product, at the entry contents `V`

The kernel keeps a running sum in its scratch operand: at the grid's first point the scratch is filled with zeros,
at every point the product of the one-hot selector with the table's block is added to it, and the output's staging
buffer receives a copy of the sum. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The branch on the grid coordinate -/

/-- The condition of the body's one conditional: the grid coordinate is zero. -/
abbrev cond2_0 (i : grid2.Coords) : Prop := (Scalar.cmpi .ne (Scalar.extui (Scalar.cmpi .eq (BitVec.ofNat 32 (i 0).val) 0#32)) 0#32) = 1#1

/-- It holds at the first point only: checked point by point over the fifty. -/
theorem hcond2_0 : ∀ t : Fin cfg2.N, cond2_0 (grid2.coords t) ↔ t.val = 0 :=
  (by decide +kernel : ∀ t : Fin grid2.N, cond2_0 (grid2.coords t) ↔ t.val = 0)

/-! ## The body's accesses: each a whole buffer -/

abbrev rT : Rect S1000x64 := Rect.unit (s := S1000x64) ![0, 0] S1000x64.size inb_S1000x64_S1000x64_0_0
abbrev rI : Rect S4096x1 := Rect.unit (s := S4096x1) ![0, 0] S4096x1.size inb_S4096x1_S4096x1_0_0
abbrev rA : Rect S4096x64 := Rect.unit (s := S4096x64) ![0, 0] S4096x64.size inb_S4096x64_S4096x64_0_0

theorem zeros2 : (![0, 0] : Fin 2 → Nat) = fun _ => 0 := by funext a; fin_cases a <;> rfl

/-! ## Loads and stores of a whole buffer -/

section Whole
variable {S : Shape} {e : EltTy} {κ : Kind} {sp : Space}

/-- A load of the whole buffer reads its contents. -/
theorem readAt_whole (v : View sig κ sp S e) {off : Fin S.rank → Nat} (h : off = fun _ => 0)
    (inb : ∀ a, off a + S.size a ≤ S.size a) (f : v.ty.Contents (Elt F)) :
    View.readAt (Elt F) v (Rect.unit off S.size inb).toLoadRect f = v.read (Elt F) f := by
  show View.ld (v.read (Elt F) f) (Rect.unit off S.size inb) = _
  exact View.ld_unit_zero h inb _

/-- After a store of the whole buffer, whatever was stored earlier, the buffer reads as that store's payload. -/
theorem read_writes_whole (v : View sig κ sp S e) {off : Fin S.rank → Nat} (h : off = fun _ => 0)
    (inb : ∀ a, off a + S.size a ≤ S.size a) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.Mem.head _, View.mem_set_unit_zero h inb y⟩)]
  exact View.canon_cons_unit_zero h inb w L

/-- A load of the whole buffer after such a store reads the payload. -/
theorem readCov_whole (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld v _ _ (fun y => ⟨_, List.Mem.head _, View.mem_set_unit_zero h inb y⟩),
    View.canon_cons_unit_zero h inb w L]
  exact View.ld_unit_zero h inb w

end Whole

/-! ## The body's triple, case by case -/

set_option maxHeartbeats 1000000 in
/-- At the first point the branch is taken: the scratch and the output's buffer may hold anything; the scratch is filled
    with zeros, the update is added to it, and both end at that sum. -/
theorem kernelRun2_A (c : Dev nD) (E : Set ℕ) (i : grid2.Coords)
    (arg1 : Memref sig .tc .vmem S1000x64 .f32) (harg1 : arg1.IsWhole) (arg2 : Memref sig .tc .vmem S4096x1 .i32) (harg2 : arg2.IsWhole)
    (arg3 : Memref sig .tc .vmem S4096x64 .f32) (harg3 : arg3.IsWhole) (arg4 : Memref sig .tc .vmem S4096x64 .f32) (harg4 : arg4.IsWhole)
    (hc0 : cond2_0 i) (x0 : Vec F S1000x64 .f32) (x1 : Vec F S4096x1 .i32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k2_pay2 i x1 x0 (k2_pay1 (F := F)))
            ∗ owns (c : Thread nD τ) arg4 fullShare (k2_pay2 i x1 x0 (k2_pay1 (F := F)))) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole arg3.view zeros2, readCov_whole arg4.view zeros2, readCov_whole arg4.view zeros2,
      readAt_whole arg2.view zeros2, readAt_whole arg1.view zeros2]
  iexists _; isplitr
  swap; · iexact H3
  ipureintro
  sl_unfold_run_names
  rw [read_writes_whole arg4.view zeros2, readCov_whole arg4.view zeros2,
    readAt_whole arg2.view zeros2, readAt_whole arg1.view zeros2]

set_option maxHeartbeats 1000000 in
/-- At a later point the branch is not taken: the scratch holds the sum so far, \`xs\`; the update is added to it, and the
    scratch and the output's buffer end at the new sum. -/
theorem kernelRun2_B (c : Dev nD) (E : Set ℕ) (i : grid2.Coords)
    (arg1 : Memref sig .tc .vmem S1000x64 .f32) (harg1 : arg1.IsWhole) (arg2 : Memref sig .tc .vmem S4096x1 .i32) (harg2 : arg2.IsWhole)
    (arg3 : Memref sig .tc .vmem S4096x64 .f32) (harg3 : arg3.IsWhole) (arg4 : Memref sig .tc .vmem S4096x64 .f32) (harg4 : arg4.IsWhole)
    (hc0 : ¬cond2_0 i) (x0 : Vec F S1000x64 .f32) (x1 : Vec F S4096x1 .i32) (xs : Vec F S4096x64 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k2_pay2 i x1 x0 xs)
            ∗ owns (c : Thread nD τ) arg4 fullShare (k2_pay2 i x1 x0 xs)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole arg3.view zeros2, readCov_whole arg4.view zeros2,
      readAt_whole arg2.view zeros2, readAt_whole arg1.view zeros2, readAt_whole arg4.view zeros2]
  iexists _; isplitr
  swap; · iexact H3
  ipureintro
  sl_unfold_run_names
  rw [read_writes_whole arg4.view zeros2,
    readAt_whole arg2.view zeros2, readAt_whole arg1.view zeros2, readAt_whole arg4.view zeros2]

/-! ## The running sum, point by point -/

/-- What the scratch (and the output's staging buffer) hold after the body at point `n`: the update of the zero fill at
    the first point, of what the point before left at a later one. -/
def accAt2 (c : Dev nD) : (n : ℕ) → n < cfg2.N → Vec F S4096x64 .f32
  | 0, hn => k2_pay2 (grid2.coords ⟨0, hn⟩) (iblk2 V c 1 ⟨0, hn⟩) (iblk2 V c 0 ⟨0, hn⟩) (k2_pay1 (F := F))
  | n + 1, hn => k2_pay2 (grid2.coords ⟨n + 1, hn⟩) (iblk2 V c 1 ⟨n + 1, hn⟩) (iblk2 V c 0 ⟨n + 1, hn⟩) (accAt2 c n (Nat.lt_of_succ_lt hn))

theorem accAt2_zero (c : Dev nD) (hn : 0 < cfg2.N) : accAt2 V c 0 hn = k2_pay2 (grid2.coords ⟨0, hn⟩) (iblk2 V c 1 ⟨0, hn⟩) (iblk2 V c 0 ⟨0, hn⟩) (k2_pay1 (F := F)) := rfl

theorem accAt2_succ (c : Dev nD) (n : ℕ) (hn : n + 1 < cfg2.N) : accAt2 V c (n + 1) hn = k2_pay2 (grid2.coords ⟨n + 1, hn⟩) (iblk2 V c 1 ⟨n + 1, hn⟩) (iblk2 V c 0 ⟨n + 1, hn⟩) (accAt2 V c n (Nat.lt_of_succ_lt hn)) := rfl

/-- The sum at the first point, stated at the point. -/
theorem accAt2_first (c : Dev nD) (t : Fin cfg2.N) (hz : t.val = 0) :
    accAt2 V c t.val t.isLt = k2_pay2 (grid2.coords t) (iblk2 V c 1 t) (iblk2 V c 0 t) (k2_pay1 (F := F)) := by
  obtain ⟨n, hn⟩ := t
  cases n with
  | zero => exact rfl
  | succ n => exact absurd hz (Nat.succ_ne_zero n)

/-- The sum at a later point, over what the point before left. -/
theorem accAt2_later (c : Dev nD) (t : Fin cfg2.N) (hz : t.val ≠ 0) :
    accAt2 V c t.val t.isLt = k2_pay2 (grid2.coords t) (iblk2 V c 1 t) (iblk2 V c 0 t)
      (accAt2 V c (t.val - 1) (Nat.lt_of_le_of_lt (Nat.sub_le _ _) t.isLt)) := by
  obtain ⟨n, hn⟩ := t
  cases n with
  | zero => exact absurd rfl hz
  | succ n => exact rfl

/-! ## The scratch operand and the invariant -/

/-- The scratch operand: a whole scoped buffer of the kernel's own, passed beside the windows. -/
abbrev scM2_0 : Memref sig .tc .vmem S4096x64 .f32 := Memref.whole cc2_scratch0

/-- The other scoped buffers of the core, which this call leaves alone. -/
abbrev rest2 (c : Dev nD) : sProp 𝕄 :=
  Pipeline.scopedRestBut (Ix := Unit) (Name := ℕ) (U := UR sig nD τ) (Lvl := ℕ) (Val := Elt F) spec2 c [cc2_scratch0]

/-- The region's invariant with the scratch operand as a memref owned at some contents. -/
theorem PhiA2_eq (c : Dev nD) :
    (Pipeline.ΦA spec2 c : sProp 𝕄)
      = iprop(iprop(iprop((∃ d, owns (c : Thread nD τ) scM2_0 fullShare d)) ∗ rest2 (F := F) c) ∗ (∃ r, prngReg c r)) := by
  unfold Pipeline.ΦA; rw [scopedRest2_split]; simp only [scM2_0, owns_whole]; try rfl

/-- The invariant before position `n`: before the first point the scratch holds anything; afterwards it holds the sum
    the point before left. The other scoped buffers and the generator register ride along. -/
def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (accAt2 V c n hn) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (accAt2 V c (n - 1) (by omega)) ∗ rest2 (F := F) c) ∗ (∃ r, prngReg c r)) := by
  cases n with
  | zero => exact absurd rfl hz
  | succ n => rfl

/-! ## The pipeline's proof data -/

/-- The proof data of this pipeline on core `c`: the arrays as the region finds them; after the body at point `t` each
    input's buffer at its block and the output's at the running sum; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]

/-- Each input's current staging buffer holds its block at every point, fetched there or not: an unfetched input's
    block index has not moved. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 4000000 in
/-- The body at any point. The inputs' buffers hold their blocks. At the first point the invariant hands over the
    scratch at anything and the first case's run applies; at a later point it hands it over at the sum the point before
    left and the second case's applies. Either way the scratch goes back at this point's sum, and the output's buffer,
    stored whole whatever it held, ends at the same. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2]
  by_cases hz : t.val = 0
  · rw [accAt2_first V c t hz, PhiS2_castSucc V c t, PhiS2_zero V c _ _ hz, PhiA2_eq]
    iintro ⟨⟨⟨HS0, HR⟩, Hg⟩, Ho, ⟨%d0, H0⟩, ⟨%d1, H1⟩, ⟨%d2, H2⟩⟩
    iapply (kernelRun2_A c Set.univ (grid2.coords t) _ _ _ _ _ _ _ _ ((hcond2_0 t).mpr hz) (iblk2 V c 0 t) (iblk2 V c 1 t) _)
    isplitl [H0]; · iexact H0
    isplitl [H1]; · iexact H1
    isplitl [H2]; · iexists _; iexact H2
    isplitl [HS0]; · iexact HS0
    iintro ⟨H0, H1, H2, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    iexact H2
  · rw [accAt2_later V c t hz, PhiS2_castSucc V c t, PhiS2_pos V c _ _ hz]
    iintro ⟨⟨⟨HS0, HR⟩, Hg⟩, Ho, ⟨%d0, H0⟩, ⟨%d1, H1⟩, ⟨%d2, H2⟩⟩
    iapply (kernelRun2_B c Set.univ (grid2.coords t) _ _ _ _ _ _ _ _ (fun h => hz ((hcond2_0 t).mp h)) (iblk2 V c 0 t) (iblk2 V c 1 t) _ _)
    isplitl [H0]; · iexact H0
    isplitl [H1]; · iexact H1
    isplitl [H2]; · iexists _; iexact H2
    isplitl [HS0]; · iexact HS0
    iintro ⟨H0, H1, H2, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Entering and leaving the region -/

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's form back: the scratch's named contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 50 := N_2; omega)

end Cert.Kernel.Hand

end
-- ==== Proof.KB.Reg3.lean ====
import proofs.«422603_j65833258713793_2_alg».proof.Proof.Gen.Kernel.Launch
import proofs.«422603_j65833258713793_2_alg».proof.Proof.Gen.Kernel.Skeleton
import proofs.«422603_j65833258713793_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3 of @main: the item-row gather fused with the final dot product, at the contents `V` it is entered with

The fourth pallas_call walks the item table in thirty blocks of 1000 rows. It keeps a running sum in its scratch
operand: at the grid's first point the scratch is filled with zeros; at every point the product of the one-hot selector
(the point's row numbers compared with the index column) with the table's block is added to it; and the output's
one-lane column receives, row by row, the sum over the 64 lanes of the user rows times the running sum. Stated here,
for any contents `V` of the core's buffers at the region's entry: each window's block at each point, the body's triple
at the first point and at a later one, the running sum point by point, the pipeline's proof data with its body
obligation, and that the invariant is what the launch hands over at entry and gives back at exit. -/

/-! ## Whole-buffer loads and stores -/

/-- The zero offsets of a rank-two buffer, as the constant function. -/
theorem zoff2 : (![0, 0] : Fin 2 → ℕ) = fun _ => 0 := by
  funext a; fin_cases a <;> rfl

/-- A store through the whole rectangle, made last, leaves its payload, whatever was there and whatever was stored before. -/
theorem read_writes_cons_unit_zero {S : Shape} {e : EltTy} {κ : Kind} {sp : Space} (v : View sig κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons.mpr (Or.inl rfl), View.mem_set_unit_zero h inb y⟩),
    View.canon_cons_unit_zero h inb w L]

/-- A load through the whole rectangle after such a store reads its payload. -/
theorem readCov_cons_unit_zero {S : Shape} {e : EltTy} {κ : Kind} {sp : Space} (v : View sig κ sp S e)
    {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons.mpr (Or.inl rfl), View.mem_set_unit_zero h inb y⟩),
    View.canon_cons_unit_zero h inb w L, View.ld_unit_zero h inb]

/-- A load through the whole rectangle reads the contents. -/
theorem readAt_unit_zero {S : Shape} {e : EltTy} {κ : Kind} {sp : Space} (v : View sig κ sp S e)
    (f : v.ty.Contents (Elt F)) {off : Fin S.rank → Nat} (h : off = fun _ => 0)
    (inb : ∀ a, off a + S.size a ≤ S.size a) :
    v.readAt (Elt F) (Rect.unit off S.size inb).toLoadRect f = v.read (Elt F) f := by
  rw [View.readAt_eq_ld, View.ld_unit_zero h inb]

/-! ## The body's branch -/

/-- The condition of the body's one conditional, from the grid coordinates: the first coordinate is zero. -/
abbrev cond3_0 (i : grid3.Coords) : Prop := (Scalar.cmpi .ne (Scalar.extui (Scalar.cmpi .eq (BitVec.ofNat 32 (i 0).val) 0#32)) 0#32) = 1#1

/-- It holds at the first point only: decided over the thirty points of the grid. -/
theorem hcond3_0 : ∀ t : Fin cfg3.N, cond3_0 (grid3.coords t) ↔ t.val = 0 :=
  (by decide +kernel : ∀ t : Fin grid3.N, cond3_0 (grid3.coords t) ↔ t.val = 0)

/-! ## The body's two runs

The body on whole staging memrefs and the whole scratch: the three inputs at their contents, the output's buffer at
anything (it is stored whole before the end and never read for a value), the scratch either at anything (first point:
the branch fills it with zeros before the first value load) or at what the point before left. It runs to the
continuation holding the inputs as they were, the scratch at the accumulator plus this point's update, and the output
at the row sums of the product of the user rows with that new accumulator. -/

set_option maxHeartbeats 1000000 in
/-- The first point: the branch is taken, so the accumulator starts from the zero fill. -/
theorem kernelRun3_A (c : Dev nD) (E : Set ℕ) (i : grid3.Coords)
    (arg1 : Memref sig .tc .vmem S1000x64 .f32) (harg1 : arg1.IsWhole) (arg2 : Memref sig .tc .vmem S4096x1 .i32) (harg2 : arg2.IsWhole)
    (arg3 : Memref sig .tc .vmem S4096x64 .f32) (harg3 : arg3.IsWhole) (arg4 : Memref sig .tc .vmem S4096x1 .f32) (harg4 : arg4.IsWhole)
    (arg5 : Memref sig .tc .vmem S4096x64 .f32) (harg5 : arg5.IsWhole) (hc : cond3_0 i)
    (x0 : Vec F S1000x64 .f32) (x1 : Vec F S4096x1 .i32) (x2 : Vec F S4096x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k3_pay3 x2 (k3_pay2 i x1 x0 (k3_pay1 (F := F))))
            ∗ owns (c : Thread nD τ) arg5 fullShare (k3_pay2 i x1 x0 (k3_pay1 (F := F)))) -∗ K ⟨⟩))
      ⊢ wp frame (wpE (defs₀ (F := F)) Variants.none c none) E (cc3_kernel i arg1 harg1 arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    simp only [read_writes_cons_unit_zero (S := S4096x1) _ _ zoff2, readAt_unit_zero (S := S4096x1) _ _ zoff2,
      readAt_unit_zero (S := S4096x64) _ _ zoff2, readAt_unit_zero (S := S1000x64) _ _ zoff2,
      readCov_cons_unit_zero (S := S4096x64) _ zoff2]
  iexists _; isplitr
  swap; · iexact HS
  ipureintro
  sl_unfold_words
  simp only [read_writes_cons_unit_zero (S := S4096x64) _ _ zoff2, readAt_unit_zero (S := S4096x1) _ _ zoff2,
      readAt_unit_zero (S := S4096x64) _ _ zoff2, readAt_unit_zero (S := S1000x64) _ _ zoff2,
      readCov_cons_unit_zero (S := S4096x64) _ zoff2]

set_option maxHeartbeats 1000000 in
/-- A later point: the branch is not taken, so the accumulator continues from what the point before left. -/
theorem kernelRun3_B (c : Dev nD) (E : Set ℕ) (i : grid3.Coords)
    (arg1 : Memref sig .tc .vmem S1000x64 .f32) (harg1 : arg1.IsWhole) (arg2 : Memref sig .tc .vmem S4096x1 .i32) (harg2 : arg2.IsWhole)
    (arg3 : Memref sig .tc .vmem S4096x64 .f32) (harg3 : arg3.IsWhole) (arg4 : Memref sig .tc .vmem S4096x1 .f32) (harg4 : arg4.IsWhole)
    (arg5 : Memref sig .tc .vmem S4096x64 .f32) (harg5 : arg5.IsWhole) (hc : ¬cond3_0 i)
    (x0 : Vec F S1000x64 .f32) (x1 : Vec F S4096x1 .i32) (x2 : Vec F S4096x64 .f32) (xs : Vec F S4096x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k3_pay3 x2 (k3_pay2 i x1 x0 xs)) ∗ owns (c : Thread nD τ) arg5 fullShare (k3_pay2 i x1 x0 xs)) -∗ K ⟨⟩))
      ⊢ wp frame (wpE (defs₀ (F := F)) Variants.none c none) E (cc3_kernel i arg1 harg1 arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    simp only [read_writes_cons_unit_zero (S := S4096x1) _ _ zoff2, readAt_unit_zero (S := S4096x1) _ _ zoff2,
      readAt_unit_zero (S := S4096x64) _ _ zoff2, readAt_unit_zero (S := S1000x64) _ _ zoff2,
      readCov_cons_unit_zero (S := S4096x64) _ zoff2]
  iexists _; isplitr
  swap; · iexact HS
  ipureintro
  sl_unfold_words
  simp only [read_writes_cons_unit_zero (S := S4096x64) _ _ zoff2, readAt_unit_zero (S := S4096x1) _ _ zoff2,
      readAt_unit_zero (S := S4096x64) _ _ zoff2, readAt_unit_zero (S := S1000x64) _ _ zoff2,
      readCov_cons_unit_zero (S := S4096x64) _ zoff2]

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is the entry contents and whose body leaves the block in place: an unfetched window's block
    index has not moved since the point before. One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator, point by point -/

/-- What the scratch holds after the body at position `n`: at the first point the zero fill plus that point's
    update; afterwards what the point before left plus this point's update. -/
def accAt3 (c : Dev nD) : (n : ℕ) → n < cfg3.N → Vec F S4096x64 .f32
  | 0, hn => k3_pay2 (grid3.coords ⟨0, hn⟩) (iblk3 V c 1 ⟨0, hn⟩) (iblk3 V c 0 ⟨0, hn⟩) (k3_pay1 (F := F))
  | n + 1, hn => k3_pay2 (grid3.coords ⟨n + 1, hn⟩) (iblk3 V c 1 ⟨n + 1, hn⟩) (iblk3 V c 0 ⟨n + 1, hn⟩) (accAt3 c n (Nat.lt_of_succ_lt hn))

theorem accAt3_zero (c : Dev nD) (hn : 0 < cfg3.N) : accAt3 V c 0 hn = k3_pay2 (grid3.coords ⟨0, hn⟩) (iblk3 V c 1 ⟨0, hn⟩) (iblk3 V c 0 ⟨0, hn⟩) (k3_pay1 (F := F)) := rfl

theorem accAt3_succ (c : Dev nD) (n : ℕ) (hn : n + 1 < cfg3.N) : accAt3 V c (n + 1) hn = k3_pay2 (grid3.coords ⟨n + 1, hn⟩) (iblk3 V c 1 ⟨n + 1, hn⟩) (iblk3 V c 0 ⟨n + 1, hn⟩) (accAt3 V c n (Nat.lt_of_succ_lt hn)) := rfl

/-- At the first point of the grid. -/
theorem accAt3_first (c : Dev nD) (t : Fin cfg3.N) (hz : t.val = 0) :
    accAt3 V c t.val t.isLt = k3_pay2 (grid3.coords t) (iblk3 V c 1 t) (iblk3 V c 0 t) (k3_pay1 (F := F)) := by
  obtain ⟨n, hn⟩ := t
  cases n with
  | zero => exact rfl
  | succ n => exact absurd hz (Nat.succ_ne_zero n)

/-- At a later point: over what the point before left. -/
theorem accAt3_later (c : Dev nD) (t : Fin cfg3.N) (hz : t.val ≠ 0) :
    accAt3 V c t.val t.isLt = k3_pay2 (grid3.coords t) (iblk3 V c 1 t) (iblk3 V c 0 t)
      (accAt3 V c (t.val - 1) (Nat.lt_of_le_of_lt (Nat.sub_le _ _) t.isLt)) := by
  obtain ⟨n, hn⟩ := t
  cases n with
  | zero => exact absurd rfl hz
  | succ n => exact rfl

/-! ## The region invariant -/

/-- The scratch operand: a whole scoped buffer of the kernel's own, passed beside the windows. -/
abbrev scM3_0 : Memref sig .tc .vmem S4096x64 .f32 := Memref.whole cc3_scratch0

/-- The invariant the launch hands the region, with the scratch split off as a memref owned at some contents; the
    other scoped buffers stay unopened. -/
theorem PhiA3_eq (c : Dev nD) :
    (Pipeline.ΦA spec3 c : sProp 𝕄)
      = iprop(iprop(iprop((∃ d, owns (c : Thread nD τ) scM3_0 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-- The invariant before position `n`: before the first point what the launch hands over (the scratch at anything);
    afterwards the scratch at what the point before left, the other scoped buffers unopened, and the generator
    register at some state. -/
def PhiS3 (c : Dev nD) : (n : ℕ) → n ≤ cfg3.N → sProp 𝕄
  | 0, _ => Pipeline.ΦA spec3 c
  | n + 1, hn => iprop(iprop(owns (c : Thread nD τ) scM3_0 fullShare (accAt3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (accAt3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (accAt3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of this pipeline on core `c`: the arrays as the region finds them; after the body at point `t`
    each input's buffer at its block and the output's at the row sums of the user rows times the accumulator after
    that point; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (iblk3 V c 2 t) (accAt3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = k3_pay3 (iblk3 V c 2 t) (accAt3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns: no window of this pipeline is ever idle, so each buffer is left at its stated contents. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

set_option maxHeartbeats 4000000 in
/-- The body at any point. The inputs' memrefs hold their blocks; the output's buffer is taken at anything. At the
    first point the invariant hands over the scratch at anything and the first run applies; at a later point it
    hands it over at what the point before left and the second run applies. Either way the scratch comes back at
    this point's accumulator, the unopened scoped buffers and the generator register pass through, and the core
    owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).Φ t.succ = PhiS3 V c (t.val + 1) t.isLt from rfl, PhiS3_succ,
    after3_0, after3_1, after3_2, after3_3, PhiS3_castSucc V c t]
  by_cases hz : t.val = 0
  · rw [PhiS3_zero V c _ _ hz, PhiA3_eq, accAt3_first V c t hz]
    iintro ⟨⟨⟨HS, HR⟩, Hg⟩, Ho, ⟨%d0, H0⟩, ⟨%d1, H1⟩, ⟨%d2, H2⟩, ⟨%d3, H3⟩⟩
    iapply (kernelRun3_A c Set.univ (grid3.coords t) _ _ _ _ _ _ _ _ _ _ ((hcond3_0 t).mpr hz) (iblk3 V c 0 t) (iblk3 V c 1 t) (iblk3 V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [PhiS3_pos V c _ _ hz, accAt3_later V c t hz]
    iintro ⟨⟨⟨HS, HR⟩, Hg⟩, Ho, ⟨%d0, H0⟩, ⟨%d1, H1⟩, ⟨%d2, H2⟩, ⟨%d3, H3⟩⟩
    iapply (kernelRun3_B c Set.univ (grid3.coords t) _ _ _ _ _ _ _ _ _ _ (fun h => hz ((hcond3_0 t).mp h)) (iblk3 V c 0 t) (iblk3 V c 1 t) (iblk3 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]

/-- After any point the invariant gives back what the launch handed over: the scratch's named contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

/-- The same after the last point. -/
theorem hout3 (c : Dev nD) : (dat3 V c).Φ (Fin.last cfg3.N) ⊢ (Pipeline.ΦA spec3 c : sProp 𝕄) :=
  Phi_out3 V c _ (by rw [Fin.val_last]; have : cfg3.N = 30 := N_3; omega)

end Cert.Kernel.Hand

end
-- ==== Proof.KB.Fold.lean ====
/-
  The buffer contents of the program between the items of @main. @main is eleven items: host stretches and four
  pipelined kernel regions. The contents a TensorCore's unscoped buffers hold at a boundary are a fold from the launch
  memory: a host stretch applies its operations; a region leaves each of its windows' arrays at what its write-backs
  fold to and every other buffer as it found it. Each region's proof data is taken at the contents its region is entered from.
-/
import proofs.«422603_j65833258713793_2_alg».proof.Proof.KB.Reg0
import proofs.«422603_j65833258713793_2_alg».proof.Proof.KB.Reg1
import proofs.«422603_j65833258713793_2_alg».proof.Proof.KB.Reg2
import proofs.«422603_j65833258713793_2_alg».proof.Proof.KB.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items of @main: a fold from the launch memory -/

/-- Core `c`'s buffers at launch. -/
abbrev W0 : Dev nD → Valuation τ sig (Elt F) := fun c b => (s₀ m ρ).mem ((c : Dev nD), b)

/-- After the host stretch `main_part0_ops0`. -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `main_part0_ops1`. -/
abbrev W3 : Dev nD → Valuation τ sig (Elt F) := fun c => StableHlo.after main_part0_ops1 (W2 m ρ c)
abbrev V3 : (c : Dev nD) → (b : Ref sig .tc) → Buf (Elt F) ((c : Thread nD τ).loc b) := fun c b => W3 m ρ c b

/-- After the host stretch `main_part0_ops2`. -/
abbrev W4 : Dev nD → Valuation τ sig (Elt F) := fun c => StableHlo.after main_part0_ops2 (W3 m ρ c)
abbrev V4 : (c : Dev nD) → (b : Ref sig .tc) → Buf (Elt F) ((c : Thread nD τ).loc b) := fun c b => W4 m ρ c b

/-- After the host stretch `main_part0_ops3`. -/
abbrev W5 : Dev nD → Valuation τ sig (Elt F) := fun c => StableHlo.after main_part0_ops3 (W4 m ρ c)
abbrev V5 : (c : Dev nD) → (b : Ref sig .tc) → Buf (Elt F) ((c : Thread nD τ).loc b) := fun c b => W5 m ρ c b

/-- After the host stretch `main_part1_ops0`. -/
abbrev W6 : Dev nD → Valuation τ sig (Elt F) := fun c => StableHlo.after main_part1_ops0 (W5 m ρ c)
abbrev V6 : (c : Dev nD) → (b : Ref sig .tc) → Buf (Elt F) ((c : Thread nD τ).loc b) := fun c b => W6 m ρ c b

/-- At region 1's exit: its arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After the host stretch `main_part1_ops1`. -/
abbrev W8 : Dev nD → Valuation τ sig (Elt F) := fun c => StableHlo.after main_part1_ops1 (W7 m ρ c)
abbrev V8 : (c : Dev nD) → (b : Ref sig .tc) → Buf (Elt F) ((c : Thread nD τ).loc b) := fun c b => W8 m ρ c b

/-- At region 2's exit: its arrays at what the pipeline leaves, every other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- At region 3's exit: its arrays at what the pipeline leaves, every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-- After the host stretch `main_part1_ops2`. -/
abbrev W11 : Dev nD → Valuation τ sig (Elt F) := fun c => StableHlo.after main_part1_ops2 (W10 m ρ c)
abbrev V11 : (c : Dev nD) → (b : Ref sig .tc) → Buf (Elt F) ((c : Thread nD τ).loc b) := fun c b => W11 m ρ c b

/-! ## The proof data family -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
  | ⟨2, _⟩ => fun c => dat2 (V8 m ρ) c
  | ⟨3, _⟩ => fun c => dat3 (V9 m ρ) c

end Cert.Kernel.Hand
end
-- ==== Proof.KB.Run.lean ====
/-
  The run of @main as a sequence of segments. Every host stretch is a segment that carries the unscoped buffers from one
  boundary's contents to the next; every kernel region is a segment whose arrays are split out of the unscoped buffers at
  entry and joined back at exit, with the body obligation of its proof data. Chained, they give: from any memory with
  zero semaphore counters every weakly fair execution terminates without a fault, and the final memory holds every unscoped
  buffer at the last boundary's contents.
-/
import proofs.«422603_j65833258713793_2_alg».proof.Proof.KB.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The thread state between items, and the items as segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem p0ops0_fresh : (main_part0_ops0 : List (HloOp τ sig (Elt F))).Forall fun op => op.fresh = ∅ := by
  simp only [List.Forall]; repeat' constructor
theorem p0ops1_fresh : (main_part0_ops1 : List (HloOp τ sig (Elt F))).Forall fun op => op.fresh = ∅ := by
  simp only [List.Forall]; repeat' constructor
theorem p0ops2_fresh : (main_part0_ops2 : List (HloOp τ sig (Elt F))).Forall fun op => op.fresh = ∅ := by
  simp only [List.Forall]; repeat' constructor
theorem p0ops3_fresh : (main_part0_ops3 : List (HloOp τ sig (Elt F))).Forall fun op => op.fresh = ∅ := by
  simp only [List.Forall]; repeat' constructor
theorem p1ops0_fresh : (main_part1_ops0 : List (HloOp τ sig (Elt F))).Forall fun op => op.fresh = ∅ := by
  simp only [List.Forall]; repeat' constructor
theorem p1ops1_fresh : (main_part1_ops1 : List (HloOp τ sig (Elt F))).Forall fun op => op.fresh = ∅ := by
  simp only [List.Forall]; repeat' constructor
theorem p1ops2_fresh : (main_part1_ops2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- REGION 0 over the thread state: entered from every unscoped buffer at `W1`, left at `W2`. Its arrays are split
    out of the unscoped buffers and put back at the exit contents; the generator register goes into the pipeline's invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W6`, left at `W7`. Its arrays are split
    out of the unscoped buffers and put back at the exit contents; the generator register goes into the pipeline's invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V6 m ρ) c)
    unfold Pipeline.ΦA
    iintro ⟨Hp, -, Hr⟩
    isplitl [Hr]; · iexact Hr
    iexact Hp
  hout c := by
    rw [Pipeline.ownSems0_none]
    refine (hout1 (V6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W8`, left at `W9`. Its arrays are split
    out of the unscoped buffers and put back at the exit contents; the generator register goes into the pipeline's invariant
    and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V8 m ρ) c)
    unfold Pipeline.ΦA
    iintro ⟨Hp, -, Hr⟩
    isplitl [Hr]; · iexact Hr
    iexact Hp
  hout c := by
    rw [Pipeline.ownSems0_none]
    refine (hout2 (V8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W9`, left at `W10`. Its arrays are split
    out of the unscoped buffers and put back at the exit contents; the generator register goes into the pipeline's invariant
    and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (V9 m ρ) c)
    unfold Pipeline.ΦA
    iintro ⟨Hp, -, Hr⟩
    isplitl [Hr]; · iexact Hr
    iexact Hp
  hout c := by
    rw [Pipeline.ownSems0_none]
    refine (hout3 (V9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without the debts. -/
abbrev Tₙ (c : Dev nD) : sProp 𝕄 := iprop(StableHlo.held (c : Thread nD τ) (Pipeline.ucRefs τ sig) (W11 m ρ c) ∗ ∃ r, prngReg c r)

/-- @main's eleven items in order. -/
abbrev segs : List (Pipeline.Seg (pcfgs (F := F)) adm (pdats m ρ) () defs₀ 𝒱₀ L lv) :=
  [ .host (hseg main_part0_ops0 main_part0_ops0_sub p0ops0_fresh (W0 m ρ)),
    .region (reg0 m ρ),
    .host (hseg main_part0_ops1 main_part0_ops1_sub p0ops1_fresh (W2 m ρ)),
    .host (hseg main_part0_ops2 main_part0_ops2_sub p0ops2_fresh (W3 m ρ)),
    .host (hseg main_part0_ops3 main_part0_ops3_sub p0ops3_fresh (W4 m ρ)),
    .host (hseg main_part1_ops0 main_part1_ops0_sub p1ops0_fresh (W5 m ρ)),
    .region (reg1 m ρ),
    .host (hseg main_part1_ops1 main_part1_ops1_sub p1ops1_fresh (W7 m ρ)),
    .region (reg2 m ρ),
    .region (reg3 m ρ),
    .host (hseg main_part1_ops2 main_part1_ops2_sub p1ops2_fresh (W10 m ρ)) ]
theorem main_run (c : Dev nD) : main (F := F) c = Pipeline.Seg.run (segs m ρ) := (main_chain_windows c).trans (by chain_rfl)

set_option backward.isDefEq.respectTransparency.types false in
/-- THE RUN: from any memory with zero counters every weakly fair execution of @main terminates, nothing faulting, and
    every final state holds every unscoped buffer at the last boundary's contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W11 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.Kernel.Hand
end
-- ==== Proof.KB.Args.lean ====
/-
  THE ARGUMENTS ARE NEVER WRITTEN. Along the fold of buffer contents W0 … W11 over the eleven items of the program, each
  of the eight argument arrays holds at the end what it held at launch. A host operation writes only its result buffer,
  and no result buffer is an argument; a region changes only its own arrays, and the only arguments among any region's
  arrays are arguments 1 and 2, which region 0 reads through input windows, whose arrays are never written back.
-/
import proofs.«422603_j65833258713793_2_alg».proof.Proof.KB.Fold

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-! ## What each host stretch writes

Every host operation writes exactly its result buffer; the list below a stretch names those results in order. -/

/-- The buffers the operations of `main_part0_ops0` write. -/
abbrev p0ops0_W : List (Ref sig .tc) :=
  [main_v0, main_v1, main_v2]
theorem p0ops0_writes : (main_part0_ops0 : List (HloOp τ sig (Elt F))).Forall fun op => op.writes ⊆ (p0ops0_W.map (Proc.devRef (τ := τ) .tc)).toFinset := by
  simp only [List.Forall]
  repeat' apply And.intro
  all_goals exact Finset.singleton_subset_iff.2 (List.mem_toFinset.2 (List.mem_map_of_mem (by decide)))

/-- The buffers the operations of `main_part0_ops1` write. -/
abbrev p0ops1_W : List (Ref sig .tc) :=
  [main_v4, main_v5, main_v6, main_v7, main_v8, main_cst, main_v9, main_cst_0, main_v10, main_v11, main_v12, main_cst_1, main_v13, main_v14, main_cst_2, main_v15, main_v16, main_v17, main_cst_3]
theorem p0ops1_writes : (main_part0_ops1 : List (HloOp τ sig (Elt F))).Forall fun op => op.writes ⊆ (p0ops1_W.map (Proc.devRef (τ := τ) .tc)).toFinset := by
  simp only [List.Forall]
  repeat' apply And.intro
  all_goals exact Finset.singleton_subset_iff.2 (List.mem_toFinset.2 (List.mem_map_of_mem (by decide)))

/-- The buffers the operations of `main_part0_ops2` write. -/
abbrev p0ops2_W : List (Ref sig .tc) :=
  [main_call0_v0, main_call0_v1, main_v18]
theorem p0ops2_writes : (main_part0_ops2 : List (HloOp τ sig (Elt F))).Forall fun op => op.writes ⊆ (p0ops2_W.map (Proc.devRef (τ := τ) .tc)).toFinset := by
  simp only [List.Forall]
  repeat' apply And.intro
  all_goals exact Finset.singleton_subset_iff.2 (List.mem_toFinset.2 (List.mem_map_of_mem (by decide)))

/-- The buffers the operations of `main_part0_ops3` write. -/
abbrev p0ops3_W : List (Ref sig .tc) :=
  [main_c, main_v19, main_v20, main_c_4, main_v21, main_v22, main_v23, main_v24, main_v25, main_c_5, main_v26, main_v27, main_c_6, main_v28, main_v29, main_v30, main_v31, main_v32, main_v33, main_c_7, main_v34, main_v35, main_c_8, main_v36, main_v37, main_v38, main_v39, main_v40, main_v41, main_v42, main_v43, main_cst_9, main_v44, main_v45, main_v46, main_c_10]
theorem p0ops3_writes : (main_part0_ops3 : List (HloOp τ sig (Elt F))).Forall fun op => op.writes ⊆ (p0ops3_W.map (Proc.devRef (τ := τ) .tc)).toFinset := by
  simp only [List.Forall]
  repeat' apply And.intro
  all_goals exact Finset.singleton_subset_iff.2 (List.mem_toFinset.2 (List.mem_map_of_mem (by decide)))

/-- The buffers the operations of `main_part1_ops0` write. -/
abbrev p1ops0_W : List (Ref sig .tc) :=
  [main_v47, main_v48, main_c_11, main_v49, main_v50, main_v51, main_v52, main_v53, main_v54, main_v55, main_v56, main_cst_12, main_v57, main_v58, main_v59, main_c_13, main_v60, main_v61, main_c_14, main_v62, main_v63, main_v64, main_v65, main_v66, main_v67, main_v68, main_v69, main_cst_15, main_v70, main_v71, main_v72]
theorem p1ops0_writes : (main_part1_ops0 : List (HloOp τ sig (Elt F))).Forall fun op => op.writes ⊆ (p1ops0_W.map (Proc.devRef (τ := τ) .tc)).toFinset := by
  simp only [List.Forall]
  repeat' apply And.intro
  all_goals exact Finset.singleton_subset_iff.2 (List.mem_toFinset.2 (List.mem_map_of_mem (by decide)))

/-- The buffers the operations of `main_part1_ops1` write. -/
abbrev p1ops1_W : List (Ref sig .tc) :=
  [main_v74, main_v75, main_v76, main_v77]
theorem p1ops1_writes : (main_part1_ops1 : List (HloOp τ sig (Elt F))).Forall fun op => op.writes ⊆ (p1ops1_W.map (Proc.devRef (τ := τ) .tc)).toFinset := by
  simp only [List.Forall]
  repeat' apply And.intro
  all_goals exact Finset.singleton_subset_iff.2 (List.mem_toFinset.2 (List.mem_map_of_mem (by decide)))

/-- The buffers the operations of `main_part1_ops2` write. -/
abbrev p1ops2_W : List (Ref sig .tc) :=
  [main_v80]
theorem p1ops2_writes : (main_part1_ops2 : List (HloOp τ sig (Elt F))).Forall fun op => op.writes ⊆ (p1ops2_W.map (Proc.devRef (τ := τ) .tc)).toFinset := by
  simp only [List.Forall]
  repeat' apply And.intro
  all_goals exact Finset.singleton_subset_iff.2 (List.mem_toFinset.2 (List.mem_map_of_mem (by decide)))

/-! ## A buffer a host stretch does not write keeps its contents across the stretch -/

theorem W1_of (c : Dev nD) (r : Ref sig .tc) (h : r ∉ (p0ops0_W : List (Ref sig .tc))) :
    W1 m ρ c (Proc.devRef .tc r) = W0 m ρ c (Proc.devRef .tc r) :=
  StableHlo.after_of_writes_sub main_part0_ops0 _ p0ops0_writes h
theorem W3_of (c : Dev nD) (r : Ref sig .tc) (h : r ∉ (p0ops1_W : List (Ref sig .tc))) :
    W3 m ρ c (Proc.devRef .tc r) = W2 m ρ c (Proc.devRef .tc r) :=
  StableHlo.after_of_writes_sub main_part0_ops1 _ p0ops1_writes h
theorem W4_of (c : Dev nD) (r : Ref sig .tc) (h : r ∉ (p0ops2_W : List (Ref sig .tc))) :
    W4 m ρ c (Proc.devRef .tc r) = W3 m ρ c (Proc.devRef .tc r) :=
  StableHlo.after_of_writes_sub main_part0_ops2 _ p0ops2_writes h
theorem W5_of (c : Dev nD) (r : Ref sig .tc) (h : r ∉ (p0ops3_W : List (Ref sig .tc))) :
    W5 m ρ c (Proc.devRef .tc r) = W4 m ρ c (Proc.devRef .tc r) :=
  StableHlo.after_of_writes_sub main_part0_ops3 _ p0ops3_writes h
theorem W6_of (c : Dev nD) (r : Ref sig .tc) (h : r ∉ (p1ops0_W : List (Ref sig .tc))) :
    W6 m ρ c (Proc.devRef .tc r) = W5 m ρ c (Proc.devRef .tc r) :=
  StableHlo.after_of_writes_sub main_part1_ops0 _ p1ops0_writes h
theorem W8_of (c : Dev nD) (r : Ref sig .tc) (h : r ∉ (p1ops1_W : List (Ref sig .tc))) :
    W8 m ρ c (Proc.devRef .tc r) = W7 m ρ c (Proc.devRef .tc r) :=
  StableHlo.after_of_writes_sub main_part1_ops1 _ p1ops1_writes h
theorem W11_of (c : Dev nD) (r : Ref sig .tc) (h : r ∉ (p1ops2_W : List (Ref sig .tc))) :
    W11 m ρ c (Proc.devRef .tc r) = W10 m ρ c (Proc.devRef .tc r) :=
  StableHlo.after_of_writes_sub main_part1_ops2 _ p1ops2_writes h

/-! ## Every argument array reaches the end as launched

No host operation writes an argument and no region has one among its output arrays: a region leaves a buffer that is
not one of its arrays untouched, and an input window's array (arguments 1 and 2 are read by region 0) is never written back. -/

theorem W11_main_arg0 (c : Dev nD) : W11 m ρ c (Proc.devRef .tc main_arg0) = m ((c : Thread nD τ).loc main_arg0) :=
  (W11_of m ρ c main_arg0 (by decide)).trans <|
  (W10_of_ne m ρ c main_arg0 (by decide)).trans <|
  (W9_of_ne m ρ c main_arg0 (by decide)).trans <|
  (W8_of m ρ c main_arg0 (by decide)).trans <|
  (W7_of_ne m ρ c main_arg0 (by decide)).trans <|
  (W6_of m ρ c main_arg0 (by decide)).trans <|
  (W5_of m ρ c main_arg0 (by decide)).trans <|
  (W4_of m ρ c main_arg0 (by decide)).trans <|
  (W3_of m ρ c main_arg0 (by decide)).trans <|
  (W2_of_ne m ρ c main_arg0 (by decide)).trans <|
  (W1_of m ρ c main_arg0 (by decide)).trans <|
  rfl

theorem W11_main_arg1 (c : Dev nD) : W11 m ρ c (Proc.devRef .tc main_arg1) = m ((c : Thread nD τ).loc main_arg1) :=
  (W11_of m ρ c main_arg1 (by decide)).trans <|
  (W10_of_ne m ρ c main_arg1 (by decide)).trans <|
  (W9_of_ne m ρ c main_arg1 (by decide)).trans <|
  (W8_of m ρ c main_arg1 (by decide)).trans <|
  (W7_of_ne m ρ c main_arg1 (by decide)).trans <|
  (W6_of m ρ c main_arg1 (by decide)).trans <|
  (W5_of m ρ c main_arg1 (by decide)).trans <|
  (W4_of m ρ c main_arg1 (by decide)).trans <|
  (W3_of m ρ c main_arg1 (by decide)).trans <|
  ((W2_arr m ρ c 0).trans (((dat0 (V1 m ρ) c).arrAt_in 0 rfl _).trans (A_eq0 (V1 m ρ) c 0))).trans <|
  (W1_of m ρ c main_arg1 (by decide)).trans <|
  rfl

theorem W11_main_arg2 (c : Dev nD) : W11 m ρ c (Proc.devRef .tc main_arg2) = m ((c : Thread nD τ).loc main_arg2) :=
  (W11_of m ρ c main_arg2 (by decide)).trans <|
  (W10_of_ne m ρ c main_arg2 (by decide)).trans <|
  (W9_of_ne m ρ c main_arg2 (by decide)).trans <|
  (W8_of m ρ c main_arg2 (by decide)).trans <|
  (W7_of_ne m ρ c main_arg2 (by decide)).trans <|
  (W6_of m ρ c main_arg2 (by decide)).trans <|
  (W5_of m ρ c main_arg2 (by decide)).trans <|
  (W4_of m ρ c main_arg2 (by decide)).trans <|
  (W3_of m ρ c main_arg2 (by decide)).trans <|
  ((W2_arr m ρ c 1).trans (((dat0 (V1 m ρ) c).arrAt_in 1 rfl _).trans (A_eq0 (V1 m ρ) c 1))).trans <|
  (W1_of m ρ c main_arg2 (by decide)).trans <|
  rfl

theorem W11_main_arg3 (c : Dev nD) : W11 m ρ c (Proc.devRef .tc main_arg3) = m ((c : Thread nD τ).loc main_arg3) :=
  (W11_of m ρ c main_arg3 (by decide)).trans <|
  (W10_of_ne m ρ c main_arg3 (by decide)).trans <|
  (W9_of_ne m ρ c main_arg3 (by decide)).trans <|
  (W8_of m ρ c main_arg3 (by decide)).trans <|
  (W7_of_ne m ρ c main_arg3 (by decide)).trans <|
  (W6_of m ρ c main_arg3 (by decide)).trans <|
  (W5_of m ρ c main_arg3 (by decide)).trans <|
  (W4_of m ρ c main_arg3 (by decide)).trans <|
  (W3_of m ρ c main_arg3 (by decide)).trans <|
  (W2_of_ne m ρ c main_arg3 (by decide)).trans <|
  (W1_of m ρ c main_arg3 (by decide)).trans <|
  rfl

theorem W11_main_arg4 (c : Dev nD) : W11 m ρ c (Proc.devRef .tc main_arg4) = m ((c : Thread nD τ).loc main_arg4) :=
  (W11_of m ρ c main_arg4 (by decide)).trans <|
  (W10_of_ne m ρ c main_arg4 (by decide)).trans <|
  (W9_of_ne m ρ c main_arg4 (by decide)).trans <|
  (W8_of m ρ c main_arg4 (by decide)).trans <|
  (W7_of_ne m ρ c main_arg4 (by decide)).trans <|
  (W6_of m ρ c main_arg4 (by decide)).trans <|
  (W5_of m ρ c main_arg4 (by decide)).trans <|
  (W4_of m ρ c main_arg4 (by decide)).trans <|
  (W3_of m ρ c main_arg4 (by decide)).trans <|
  (W2_of_ne m ρ c main_arg4 (by decide)).trans <|
  (W1_of m ρ c main_arg4 (by decide)).trans <|
  rfl

theorem W11_main_arg5 (c : Dev nD) : W11 m ρ c (Proc.devRef .tc main_arg5) = m ((c : Thread nD τ).loc main_arg5) :=
  (W11_of m ρ c main_arg5 (by decide)).trans <|
  (W10_of_ne m ρ c main_arg5 (by decide)).trans <|
  (W9_of_ne m ρ c main_arg5 (by decide)).trans <|
  (W8_of m ρ c main_arg5 (by decide)).trans <|
  (W7_of_ne m ρ c main_arg5 (by decide)).trans <|
  (W6_of m ρ c main_arg5 (by decide)).trans <|
  (W5_of m ρ c main_arg5 (by decide)).trans <|
  (W4_of m ρ c main_arg5 (by decide)).trans <|
  (W3_of m ρ c main_arg5 (by decide)).trans <|
  (W2_of_ne m ρ c main_arg5 (by decide)).trans <|
  (W1_of m ρ c main_arg5 (by decide)).trans <|
  rfl

theorem W11_main_arg6 (c : Dev nD) : W11 m ρ c (Proc.devRef .tc main_arg6) = m ((c : Thread nD τ).loc main_arg6) :=
  (W11_of m ρ c main_arg6 (by decide)).trans <|
  (W10_of_ne m ρ c main_arg6 (by decide)).trans <|
  (W9_of_ne m ρ c main_arg6 (by decide)).trans <|
  (W8_of m ρ c main_arg6 (by decide)).trans <|
  (W7_of_ne m ρ c main_arg6 (by decide)).trans <|
  (W6_of m ρ c main_arg6 (by decide)).trans <|
  (W5_of m ρ c main_arg6 (by decide)).trans <|
  (W4_of m ρ c main_arg6 (by decide)).trans <|
  (W3_of m ρ c main_arg6 (by decide)).trans <|
  (W2_of_ne m ρ c main_arg6 (by decide)).trans <|
  (W1_of m ρ c main_arg6 (by decide)).trans <|
  rfl

theorem W11_main_arg7 (c : Dev nD) : W11 m ρ c (Proc.devRef .tc main_arg7) = m ((c : Thread nD τ).loc main_arg7) :=
  (W11_of m ρ c main_arg7 (by decide)).trans <|
  (W10_of_ne m ρ c main_arg7 (by decide)).trans <|
  (W9_of_ne m ρ c main_arg7 (by decide)).trans <|
  (W8_of m ρ c main_arg7 (by decide)).trans <|
  (W7_of_ne m ρ c main_arg7 (by decide)).trans <|
  (W6_of m ρ c main_arg7 (by decide)).trans <|
  (W5_of m ρ c main_arg7 (by decide)).trans <|
  (W4_of m ρ c main_arg7 (by decide)).trans <|
  (W3_of m ρ c main_arg7 (by decide)).trans <|
  (W2_of_ne m ρ c main_arg7 (by decide)).trans <|
  (W1_of m ρ c main_arg7 (by decide)).trans <|
  rfl

/-! ## The same walk stopped earlier, and two buffers carried through region 2 unchanged

The contents of an argument at an intermediate boundary are again the launch contents, by the part of the walk below
that boundary. Buffers `main_v75` and `main_v77` are not among region 2's arrays, so region 2 leaves them as entered. -/

theorem W1_main_arg1 (c : Dev nD) : W1 m ρ c (Proc.devRef .tc main_arg1) = m ((c : Thread nD τ).loc main_arg1) :=
  (W1_of m ρ c main_arg1 (by decide)).trans <|
  rfl

theorem W1_main_arg2 (c : Dev nD) : W1 m ρ c (Proc.devRef .tc main_arg2) = m ((c : Thread nD τ).loc main_arg2) :=
  (W1_of m ρ c main_arg2 (by decide)).trans <|
  rfl

theorem W2_main_arg0 (c : Dev nD) : W2 m ρ c (Proc.devRef .tc main_arg0) = m ((c : Thread nD τ).loc main_arg0) :=
  (W2_of_ne m ρ c main_arg0 (by decide)).trans <|
  (W1_of m ρ c main_arg0 (by decide)).trans <|
  rfl

theorem W2_main_arg5 (c : Dev nD) : W2 m ρ c (Proc.devRef .tc main_arg5) = m ((c : Thread nD τ).loc main_arg5) :=
  (W2_of_ne m ρ c main_arg5 (by decide)).trans <|
  (W1_of m ρ c main_arg5 (by decide)).trans <|
  rfl

theorem W7_main_arg6 (c : Dev nD) : W7 m ρ c (Proc.devRef .tc main_arg6) = m ((c : Thread nD τ).loc main_arg6) :=
  (W7_of_ne m ρ c main_arg6 (by decide)).trans <|
  (W6_of m ρ c main_arg6 (by decide)).trans <|
  (W5_of m ρ c main_arg6 (by decide)).trans <|
  (W4_of m ρ c main_arg6 (by decide)).trans <|
  (W3_of m ρ c main_arg6 (by decide)).trans <|
  (W2_of_ne m ρ c main_arg6 (by decide)).trans <|
  (W1_of m ρ c main_arg6 (by decide)).trans <|
  rfl

theorem W7_main_arg7 (c : Dev nD) : W7 m ρ c (Proc.devRef .tc main_arg7) = m ((c : Thread nD τ).loc main_arg7) :=
  (W7_of_ne m ρ c main_arg7 (by decide)).trans <|
  (W6_of m ρ c main_arg7 (by decide)).trans <|
  (W5_of m ρ c main_arg7 (by decide)).trans <|
  (W4_of m ρ c main_arg7 (by decide)).trans <|
  (W3_of m ρ c main_arg7 (by decide)).trans <|
  (W2_of_ne m ρ c main_arg7 (by decide)).trans <|
  (W1_of m ρ c main_arg7 (by decide)).trans <|
  rfl

theorem W9_main_v75 (c : Dev nD) : W9 m ρ c (Proc.devRef .tc main_v75) = W8 m ρ c (Proc.devRef .tc main_v75) :=
  W9_of_ne m ρ c main_v75 (by decide)

theorem W9_main_v77 (c : Dev nD) : W9 m ρ c (Proc.devRef .tc main_v77) = W8 m ρ c (Proc.devRef .tc main_v77) :=
  W9_of_ne m ρ c main_v77 (by decide)

end Cert.Kernel.Hand

end
-- ==== Proof.KB.Frame.lean ====
/-
  THE FRAME CLAIMS READ OFF THE RUN. The run of the whole program ends with every unscoped buffer at the last boundary's
  contents. Each of the eight argument arrays is an unscoped buffer whose contents at the last boundary are its launch
  contents, so each ends as launched; the result array is an unscoped buffer too, so it ends at the last boundary's
  contents of it.
-/
import proofs.«422603_j65833258713793_2_alg».proof.Proof.KB.Run
import proofs.«422603_j65833258713793_2_alg».proof.Proof.KB.Args

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The frame: from any memory with zero semaphore counters every weakly fair execution of the program on the TensorCores
    terminates without a fault, and every final state holds each of the eight argument arrays as launched. Every
    argument is an unscoped buffer, so the final state holds it at the last boundary's contents, which for an argument
    are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c)⟩) (run_all m ρ)

/-- The same run, read also at the result array: the final state holds it at the last boundary's contents, and the
    eight argument arrays as launched. -/
theorem run_value : θ_run defs (onTc (τ := τ) (main (F := F))) ⟨m, fun _ => 0, ρ⟩ (fun r => ∀ c : Dev nD,
      r.2.mem ((c.tc : Thread nD τ).loc main_v80) = W11 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v80 (by decide)),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c)⟩) (run_all m ρ)

end Cert.Kernel.Hand

end
-- ==== Proof.KI.Reg0.lean ====
import proofs.«422603_j65833258713793_2_alg».proof.Proof.Gen.KernelIdeal.Launch
import proofs.«422603_j65833258713793_2_alg».proof.Proof.Gen.KernelIdeal.Skeleton
import proofs.«422603_j65833258713793_2_alg».proof.Proof.Gen.KernelIdeal.Points
import Idealize.ShloMosaic.Lib.Pipeline.FrameBody
import Idealize.ShloMosaic.Lib.Ring
import Idealize.ShloMosaic.Lib.Tactic

/-!
# Region 0 of `@main`: the projection kernel's pipeline, at the contents `V` it is entered with

The first pallas_call streams the two feature matrices in row blocks of 2000 and keeps the two weight
slices and the bias resident (one block each, the same at every grid point).  Per grid point the body
reads the five input blocks whole and overwrites the output block whole with one store: the bias-shifted
sum of the two bf16 products, each row divided by its clamped Euclidean norm.

This file states, for any buffer contents `V` of the core at the region's entry:
* the block of every window at every grid point (`iblk0`);
* what the body leaves in the output block as a function of the five input blocks (`out0_5`);
* the body's separation-logic triple (`sound_kernel0`);
* the pipeline's proof data (`dat0`) and its body obligation (`body_obligation0`).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`: the slice of its array, as the region finds it, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a 2000-row block of the wide feature matrix, new at every point): whenever the body is called, the window's current buffer holds the block of
    that grid point, for any proof data over `V`'s array whose body leaves the block untouched.  At a point
    where the block is fetched this is the fetch; at a point where it is not, the block index equals the
    previous point's, and the previous point's block was left in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (a 2000-row block of the narrow feature matrix, new at every point): whenever the body is called, the window's current buffer holds the block of
    that grid point, for any proof data over `V`'s array whose body leaves the block untouched.  At a point
    where the block is fetched this is the fetch; at a point where it is not, the block index equals the
    previous point's, and the previous point's block was left in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the first weight slice, one resident block): whenever the body is called, the window's current buffer holds the block of
    that grid point, for any proof data over `V`'s array whose body leaves the block untouched.  At a point
    where the block is fetched this is the fetch; at a point where it is not, the block index equals the
    previous point's, and the previous point's block was left in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the second weight slice, one resident block): whenever the body is called, the window's current buffer holds the block of
    that grid point, for any proof data over `V`'s array whose body leaves the block untouched.  At a point
    where the block is fetched this is the fetch; at a point where it is not, the block index equals the
    previous point's, and the previous point's block was left in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the bias row, one resident block): whenever the body is called, the window's current buffer holds the block of
    that grid point, for any proof data over `V`'s array whose body leaves the block untouched.  At a point
    where the block is fetched this is the fetch; at a point where it is not, the block index equals the
    previous point's, and the previous point's block was left in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store span a whole block -/

abbrev rIn0_0 : Rect S2000x768 := Rect.unit (s := S2000x768) ![0, 0] S2000x768.size inb_S2000x768_S2000x768_0_0
abbrev rIn0_1 : Rect S2000x128 := Rect.unit (s := S2000x128) ![0, 0] S2000x128.size inb_S2000x128_S2000x128_0_0
abbrev rIn0_2 : Rect S768x64 := Rect.unit (s := S768x64) ![0, 0] S768x64.size inb_S768x64_S768x64_0_0
abbrev rIn0_3 : Rect S128x64 := Rect.unit (s := S128x64) ![0, 0] S128x64.size inb_S128x64_S128x64_0_0
abbrev rIn0_4 : Rect S1x64 := Rect.unit (s := S1x64) ![0, 0] S1x64.size inb_S1x64_S1x64_0_0
/-- The output block, whole: the rectangle of the body's one store. -/
abbrev r0_0 : Rect S2000x64 := Rect.unit (s := S2000x64) ![0, 0] S2000x64.size inb_S2000x64_S2000x64_0_0

/-! ## What the body leaves in the output block -/

/-- The output block after the body, from the five input blocks: the one store's payload (the normalised
    projection of the loaded blocks) laid over the whole block. -/
def out0_5 (x0 : Vec F S2000x768 .f32) (x1 : Vec F S2000x128 .f32) (x2 : Vec F S768x64 .f32) (x3 : Vec F S128x64 .f32) (x4 : Vec F S1x64 .f32) : Vec F S2000x64 .f32 :=
  View.canon [⟨r0_0, k0_pay1 (View.ld x0 rIn0_0) (View.ld x1 rIn0_1) (View.ld x2 rIn0_2) (View.ld x3 rIn0_3) (View.ld x4 rIn0_4)⟩]

/-- The store's rectangle is the whole block, so every index of the block lies in it. -/
theorem cover0_5 (p0 : Vec F S2000x64 .f32) (y : S2000x64.Idx) :
    ∃ pc ∈ ([⟨r0_0, p0⟩] : List (View.Piece (Elt F) S2000x64 .f32)), y ∈ pc.1.set :=
  View.cover_of_tiled [⟨r0_0, p0⟩] S2000x64.size (by rfl) y

/-! ## The body's triple -/

set_option maxHeartbeats 1000000 in
/-- The body on whole block buffers: given the five input buffers at contents `x0 … x4` and the output buffer at
    anything, it runs to any continuation that accepts the inputs unchanged and the output at `out0_5` of them.
    The five loads return the blocks, the load of the output buffer's old contents is dropped, and the one store
    overwrites the whole block, so what the buffer then reads is the piece list's canonical form. -/
theorem sound_kernel0 (c : Dev nD) (E : Set ℕ) (i : grid0.Coords) (arg1 : Memref sig .tc .vmem S2000x768 .f32) (harg1 : arg1.IsWhole) (arg2 : Memref sig .tc .vmem S2000x128 .f32) (harg2 : arg2.IsWhole) (arg3 : Memref sig .tc .vmem S768x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x768 .f32) (x1 : Vec F S2000x128 .f32) (x2 : Vec F S768x64 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: every window's array as the region finds it; after the body at
    point `t` each input buffer still at its block and the output buffer at `out0_5` of the five input blocks;
    the invariant is the untouched remainder of the core's state, nothing is owed, and all shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Every input buffer holds its block whenever the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The invariant at the region's entry is the untouched remainder, -/
theorem hin0 (c : Dev nD) : (Pipeline.ΦA spec0 c : sProp 𝕄) ⊢ (dat0 V c).Φ 0 := .rfl

/-- and so it is at the region's exit. -/
theorem hout0 (c : Dev nD) : (dat0 V c).Φ (Fin.last cfg0.N) ⊢ (Pipeline.ΦA spec0 c : sProp 𝕄) := .rfl

/-! ## The body obligation, at a generic grid point -/

/-- What the body is called with at point `t`: the invariant, the core's debts, and each window's current buffer
    at what the pipeline has put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any grid point: the input buffers hold their blocks, so the body's triple applies; the invariant
    and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation: the triple above at every grid point, with the windows' resources spelled out
    one by one. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Reg1.lean ====
/- Region 1 of @main, the layer-mean call (pipeline cfg1, kernel cc1__mean_kernel), at the contents V the
   TensorCore's buffers hold when the region is entered, for every float instance F.

   The call walks 20 row tiles of 4000 rows. At each tile it reads one 4000x64 block of each of the four stacked
   layers (windows 0..3) and writes one 4000x64 block of the pooled array (window 4): the sum of the four layer
   blocks, taken left to right, times one quarter. This module fixes what each window's block is as a function of
   V, what the output window's buffer holds after the body, the body's triple, and from these the pipeline's
   proof data and its body obligation. -/
import proofs.«422603_j65833258713793_2_alg».proof.Proof.Gen.KernelIdeal.Launch
import proofs.«422603_j65833258713793_2_alg».proof.Proof.Gen.KernelIdeal.Skeleton
import proofs.«422603_j65833258713793_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The 4000x64 block of window w at tile t: the rows 4000 t .. 4000 t + 3999 of the window's array, as V has it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each layer window is an input that the body only reads, that no tile cuts short and that is live at every
    tile. So whatever proof data has V's array for it and says the body leaves the block where it was, its buffer
    holds the tile's block when the body starts, whether the block was brought in at this tile or earlier. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes -/

/-- Every load and the one store of the body go through the whole 4000x64 buffer. -/
abbrev r1_0 : Rect S4000x64 := Rect.unit (s := S4000x64) ![0, 0] S4000x64.size inb_S4000x64_S4000x64_0_0

/-- The pooled block the body leaves in window 4's buffer, from the four layer blocks: a single store, of
    ((x0 + x1) + x2 + x3) * 1/4 entrywise, over the whole buffer. -/
def out1_4 (x0 : Vec F S4000x64 .f32) (x1 : Vec F S4000x64 .f32) (x2 : Vec F S4000x64 .f32) (x3 : Vec F S4000x64 .f32) : Vec F S4000x64 .f32 :=
  View.canon [⟨r1_0, k1_pay1 (View.ld x0 r1_0) (View.ld x1 r1_0) (View.ld x2 r1_0) (View.ld x3 r1_0)⟩]

/-- The store's rectangle is the whole buffer, so every index of the buffer lies in it. -/
theorem cover1_4 (p0 : Vec F S4000x64 .f32) (y : S4000x64.Idx) :
    ∃ pc ∈ ([⟨r1_0, p0⟩] : List (View.Piece (Elt F) S4000x64 .f32)), y ∈ pc.1.set :=
  View.cover_of_tiled [⟨r1_0, p0⟩] S4000x64.size (by rfl) y

/-! ## The body's triple -/

set_option maxHeartbeats 1000000 in
/-- Run on five whole buffers, the four layer buffers reading x0..x3 and the pooled one holding anything, the body
    ends with the layer buffers unchanged and the pooled one reading out1_4 x0 x1 x2 x3: four loads of the inputs, a
    load of the output that is not used, and the store. -/
theorem sound_kernel1 (c : Dev nD) (E : Set ℕ) (i : grid1.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S4000x64 .f32) (harg4 : arg4.IsWhole)
    (arg5 : Memref sig .tc .vmem S4000x64 .f32) (harg5 : arg5.IsWhole)
    (x0 x1 x2 x3 : Vec F S4000x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__mean_kernel i arg1 harg1 arg2 harg2 arg3 harg3 arg4 harg4 arg5 harg5) K := by
  simp only [cc1__mean_kernel_eq_skeleton]; unfold cc1__mean_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data -/

/-- Pipeline cfg1's proof data on core c. The arrays are V's. After the body at tile t a layer window's buffer
    still holds its block and the pooled window's holds out1_4 of the four blocks. The invariant is the part of
    the core the call does not touch, the same at every tile; every share is whole; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The invariant when the region is entered, and when it is left, is the untouched part of the core. -/
theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

/-! ## The body obligation -/

/-- What the body is given at tile t: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At every tile the layer buffers hold their blocks, so the body's triple applies; the invariant and what is
    owed are the same before and after and are carried across. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation: the triple above at every tile, the windows' buffers written out one by one. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«422603_j65833258713793_2_alg».proof.Proof.Gen.KernelIdeal.Launch
import proofs.«422603_j65833258713793_2_alg».proof.Proof.Gen.KernelIdeal.Skeleton
import proofs.«422603_j65833258713793_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The third pallas_call (pipeline 2): the row gather through a one-hot product, at the entry contents `V`

The kernel keeps a running sum in its scratch operand: at the grid's first point the scratch is filled with zeros,
at every point the product of the one-hot selector with the table's block is added to it, and the output's staging
buffer receives a copy of the sum. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The branch on the grid coordinate -/

/-- The condition of the body's one conditional: the grid coordinate is zero. -/
abbrev cond2_0 (i : grid2.Coords) : Prop := (Scalar.cmpi .ne (Scalar.extui (Scalar.cmpi .eq (BitVec.ofNat 32 (i 0).val) 0#32)) 0#32) = 1#1

/-- It holds at the first point only: checked point by point over the fifty. -/
theorem hcond2_0 : ∀ t : Fin cfg2.N, cond2_0 (grid2.coords t) ↔ t.val = 0 :=
  (by decide +kernel : ∀ t : Fin grid2.N, cond2_0 (grid2.coords t) ↔ t.val = 0)

/-! ## The body's accesses: each a whole buffer -/

abbrev rT : Rect S1000x64 := Rect.unit (s := S1000x64) ![0, 0] S1000x64.size inb_S1000x64_S1000x64_0_0
abbrev rI : Rect S4096x1 := Rect.unit (s := S4096x1) ![0, 0] S4096x1.size inb_S4096x1_S4096x1_0_0
abbrev rA : Rect S4096x64 := Rect.unit (s := S4096x64) ![0, 0] S4096x64.size inb_S4096x64_S4096x64_0_0

theorem zeros2 : (![0, 0] : Fin 2 → Nat) = fun _ => 0 := by funext a; fin_cases a <;> rfl

/-! ## Loads and stores of a whole buffer -/

section Whole
variable {S : Shape} {e : EltTy} {κ : Kind} {sp : Space}

/-- A load of the whole buffer reads its contents. -/
theorem readAt_whole (v : View sig κ sp S e) {off : Fin S.rank → Nat} (h : off = fun _ => 0)
    (inb : ∀ a, off a + S.size a ≤ S.size a) (f : v.ty.Contents (Elt F)) :
    View.readAt (Elt F) v (Rect.unit off S.size inb).toLoadRect f = v.read (Elt F) f := by
  show View.ld (v.read (Elt F) f) (Rect.unit off S.size inb) = _
  exact View.ld_unit_zero h inb _

/-- After a store of the whole buffer, whatever was stored earlier, the buffer reads as that store's payload. -/
theorem read_writes_whole (v : View sig κ sp S e) {off : Fin S.rank → Nat} (h : off = fun _ => 0)
    (inb : ∀ a, off a + S.size a ≤ S.size a) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.Mem.head _, View.mem_set_unit_zero h inb y⟩)]
  exact View.canon_cons_unit_zero h inb w L

/-- A load of the whole buffer after such a store reads the payload. -/
theorem readCov_whole (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld v _ _ (fun y => ⟨_, List.Mem.head _, View.mem_set_unit_zero h inb y⟩),
    View.canon_cons_unit_zero h inb w L]
  exact View.ld_unit_zero h inb w

end Whole

/-! ## The body's triple, case by case -/

set_option maxHeartbeats 1000000 in
/-- At the first point the branch is taken: the scratch and the output's buffer may hold anything; the scratch is filled
    with zeros, the update is added to it, and both end at that sum. -/
theorem kernelRun2_A (c : Dev nD) (E : Set ℕ) (i : grid2.Coords)
    (arg1 : Memref sig .tc .vmem S1000x64 .f32) (harg1 : arg1.IsWhole) (arg2 : Memref sig .tc .vmem S4096x1 .i32) (harg2 : arg2.IsWhole)
    (arg3 : Memref sig .tc .vmem S4096x64 .f32) (harg3 : arg3.IsWhole) (arg4 : Memref sig .tc .vmem S4096x64 .f32) (harg4 : arg4.IsWhole)
    (hc0 : cond2_0 i) (x0 : Vec F S1000x64 .f32) (x1 : Vec F S4096x1 .i32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k2_pay2 i x1 x0 (k2_pay1 (F := F)))
            ∗ owns (c : Thread nD τ) arg4 fullShare (k2_pay2 i x1 x0 (k2_pay1 (F := F)))) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole arg3.view zeros2, readCov_whole arg4.view zeros2, readCov_whole arg4.view zeros2,
      readAt_whole arg2.view zeros2, readAt_whole arg1.view zeros2]
  iexists _; isplitr
  swap; · iexact H3
  ipureintro
  sl_unfold_run_names
  rw [read_writes_whole arg4.view zeros2, readCov_whole arg4.view zeros2,
    readAt_whole arg2.view zeros2, readAt_whole arg1.view zeros2]

set_option maxHeartbeats 1000000 in
/-- At a later point the branch is not taken: the scratch holds the sum so far, \`xs\`; the update is added to it, and the
    scratch and the output's buffer end at the new sum. -/
theorem kernelRun2_B (c : Dev nD) (E : Set ℕ) (i : grid2.Coords)
    (arg1 : Memref sig .tc .vmem S1000x64 .f32) (harg1 : arg1.IsWhole) (arg2 : Memref sig .tc .vmem S4096x1 .i32) (harg2 : arg2.IsWhole)
    (arg3 : Memref sig .tc .vmem S4096x64 .f32) (harg3 : arg3.IsWhole) (arg4 : Memref sig .tc .vmem S4096x64 .f32) (harg4 : arg4.IsWhole)
    (hc0 : ¬cond2_0 i) (x0 : Vec F S1000x64 .f32) (x1 : Vec F S4096x1 .i32) (xs : Vec F S4096x64 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k2_pay2 i x1 x0 xs)
            ∗ owns (c : Thread nD τ) arg4 fullShare (k2_pay2 i x1 x0 xs)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole arg3.view zeros2, readCov_whole arg4.view zeros2,
      readAt_whole arg2.view zeros2, readAt_whole arg1.view zeros2, readAt_whole arg4.view zeros2]
  iexists _; isplitr
  swap; · iexact H3
  ipureintro
  sl_unfold_run_names
  rw [read_writes_whole arg4.view zeros2,
    readAt_whole arg2.view zeros2, readAt_whole arg1.view zeros2, readAt_whole arg4.view zeros2]

/-! ## The running sum, point by point -/

/-- What the scratch (and the output's staging buffer) hold after the body at point `n`: the update of the zero fill at
    the first point, of what the point before left at a later one. -/
def accAt2 (c : Dev nD) : (n : ℕ) → n < cfg2.N → Vec F S4096x64 .f32
  | 0, hn => k2_pay2 (grid2.coords ⟨0, hn⟩) (iblk2 V c 1 ⟨0, hn⟩) (iblk2 V c 0 ⟨0, hn⟩) (k2_pay1 (F := F))
  | n + 1, hn => k2_pay2 (grid2.coords ⟨n + 1, hn⟩) (iblk2 V c 1 ⟨n + 1, hn⟩) (iblk2 V c 0 ⟨n + 1, hn⟩) (accAt2 c n (Nat.lt_of_succ_lt hn))

theorem accAt2_zero (c : Dev nD) (hn : 0 < cfg2.N) : accAt2 V c 0 hn = k2_pay2 (grid2.coords ⟨0, hn⟩) (iblk2 V c 1 ⟨0, hn⟩) (iblk2 V c 0 ⟨0, hn⟩) (k2_pay1 (F := F)) := rfl

theorem accAt2_succ (c : Dev nD) (n : ℕ) (hn : n + 1 < cfg2.N) : accAt2 V c (n + 1) hn = k2_pay2 (grid2.coords ⟨n + 1, hn⟩) (iblk2 V c 1 ⟨n + 1, hn⟩) (iblk2 V c 0 ⟨n + 1, hn⟩) (accAt2 V c n (Nat.lt_of_succ_lt hn)) := rfl

/-- The sum at the first point, stated at the point. -/
theorem accAt2_first (c : Dev nD) (t : Fin cfg2.N) (hz : t.val = 0) :
    accAt2 V c t.val t.isLt = k2_pay2 (grid2.coords t) (iblk2 V c 1 t) (iblk2 V c 0 t) (k2_pay1 (F := F)) := by
  obtain ⟨n, hn⟩ := t
  cases n with
  | zero => exact rfl
  | succ n => exact absurd hz (Nat.succ_ne_zero n)

/-- The sum at a later point, over what the point before left. -/
theorem accAt2_later (c : Dev nD) (t : Fin cfg2.N) (hz : t.val ≠ 0) :
    accAt2 V c t.val t.isLt = k2_pay2 (grid2.coords t) (iblk2 V c 1 t) (iblk2 V c 0 t)
      (accAt2 V c (t.val - 1) (Nat.lt_of_le_of_lt (Nat.sub_le _ _) t.isLt)) := by
  obtain ⟨n, hn⟩ := t
  cases n with
  | zero => exact absurd rfl hz
  | succ n => exact rfl

/-! ## The scratch operand and the invariant -/

/-- The scratch operand: a whole scoped buffer of the kernel's own, passed beside the windows. -/
abbrev scM2_0 : Memref sig .tc .vmem S4096x64 .f32 := Memref.whole cc2_scratch0

/-- The other scoped buffers of the core, which this call leaves alone. -/
abbrev rest2 (c : Dev nD) : sProp 𝕄 :=
  Pipeline.scopedRestBut (Ix := Unit) (Name := ℕ) (U := UR sig nD τ) (Lvl := ℕ) (Val := Elt F) spec2 c [cc2_scratch0]

/-- The region's invariant with the scratch operand as a memref owned at some contents. -/
theorem PhiA2_eq (c : Dev nD) :
    (Pipeline.ΦA spec2 c : sProp 𝕄)
      = iprop(iprop(iprop((∃ d, owns (c : Thread nD τ) scM2_0 fullShare d)) ∗ rest2 (F := F) c) ∗ (∃ r, prngReg c r)) := by
  unfold Pipeline.ΦA; rw [scopedRest2_split]; simp only [scM2_0, owns_whole]; try rfl

/-- The invariant before position `n`: before the first point the scratch holds anything; afterwards it holds the sum
    the point before left. The other scoped buffers and the generator register ride along. -/
def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (accAt2 V c n hn) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (accAt2 V c (n - 1) (by omega)) ∗ rest2 (F := F) c) ∗ (∃ r, prngReg c r)) := by
  cases n with
  | zero => exact absurd rfl hz
  | succ n => rfl

/-! ## The pipeline's proof data -/

/-- The proof data of this pipeline on core `c`: the arrays as the region finds them; after the body at point `t` each
    input's buffer at its block and the output's at the running sum; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]

/-- Each input's current staging buffer holds its block at every point, fetched there or not: an unfetched input's
    block index has not moved. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 4000000 in
/-- The body at any point. The inputs' buffers hold their blocks. At the first point the invariant hands over the
    scratch at anything and the first case's run applies; at a later point it hands it over at the sum the point before
    left and the second case's applies. Either way the scratch goes back at this point's sum, and the output's buffer,
    stored whole whatever it held, ends at the same. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2]
  by_cases hz : t.val = 0
  · rw [accAt2_first V c t hz, PhiS2_castSucc V c t, PhiS2_zero V c _ _ hz, PhiA2_eq]
    iintro ⟨⟨⟨HS0, HR⟩, Hg⟩, Ho, ⟨%d0, H0⟩, ⟨%d1, H1⟩, ⟨%d2, H2⟩⟩
    iapply (kernelRun2_A c Set.univ (grid2.coords t) _ _ _ _ _ _ _ _ ((hcond2_0 t).mpr hz) (iblk2 V c 0 t) (iblk2 V c 1 t) _)
    isplitl [H0]; · iexact H0
    isplitl [H1]; · iexact H1
    isplitl [H2]; · iexists _; iexact H2
    isplitl [HS0]; · iexact HS0
    iintro ⟨H0, H1, H2, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    iexact H2
  · rw [accAt2_later V c t hz, PhiS2_castSucc V c t, PhiS2_pos V c _ _ hz]
    iintro ⟨⟨⟨HS0, HR⟩, Hg⟩, Ho, ⟨%d0, H0⟩, ⟨%d1, H1⟩, ⟨%d2, H2⟩⟩
    iapply (kernelRun2_B c Set.univ (grid2.coords t) _ _ _ _ _ _ _ _ (fun h => hz ((hcond2_0 t).mp h)) (iblk2 V c 0 t) (iblk2 V c 1 t) _ _)
    isplitl [H0]; · iexact H0
    isplitl [H1]; · iexact H1
    isplitl [H2]; · iexists _; iexact H2
    isplitl [HS0]; · iexact HS0
    iintro ⟨H0, H1, H2, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Entering and leaving the region -/

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's form back: the scratch's named contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 50 := N_2; omega)

end Cert.KernelIdeal.Hand

end
-- ==== Proof.KI.Reg3.lean ====
import proofs.«422603_j65833258713793_2_alg».proof.Proof.Gen.KernelIdeal.Launch
import proofs.«422603_j65833258713793_2_alg».proof.Proof.Gen.KernelIdeal.Skeleton
import proofs.«422603_j65833258713793_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3 of @main: the item-row gather fused with the final dot product, at the contents `V` it is entered with

The fourth pallas_call walks the item table in thirty blocks of 1000 rows. It keeps a running sum in its scratch
operand: at the grid's first point the scratch is filled with zeros; at every point the product of the one-hot selector
(the point's row numbers compared with the index column) with the table's block is added to it; and the output's
one-lane column receives, row by row, the sum over the 64 lanes of the user rows times the running sum. Stated here,
for any contents `V` of the core's buffers at the region's entry: each window's block at each point, the body's triple
at the first point and at a later one, the running sum point by point, the pipeline's proof data with its body
obligation, and that the invariant is what the launch hands over at entry and gives back at exit. -/

/-! ## Whole-buffer loads and stores -/

/-- The zero offsets of a rank-two buffer, as the constant function. -/
theorem zoff2 : (![0, 0] : Fin 2 → ℕ) = fun _ => 0 := by
  funext a; fin_cases a <;> rfl

/-- A store through the whole rectangle, made last, leaves its payload, whatever was there and whatever was stored before. -/
theorem read_writes_cons_unit_zero {S : Shape} {e : EltTy} {κ : Kind} {sp : Space} (v : View sig κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons.mpr (Or.inl rfl), View.mem_set_unit_zero h inb y⟩),
    View.canon_cons_unit_zero h inb w L]

/-- A load through the whole rectangle after such a store reads its payload. -/
theorem readCov_cons_unit_zero {S : Shape} {e : EltTy} {κ : Kind} {sp : Space} (v : View sig κ sp S e)
    {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons.mpr (Or.inl rfl), View.mem_set_unit_zero h inb y⟩),
    View.canon_cons_unit_zero h inb w L, View.ld_unit_zero h inb]

/-- A load through the whole rectangle reads the contents. -/
theorem readAt_unit_zero {S : Shape} {e : EltTy} {κ : Kind} {sp : Space} (v : View sig κ sp S e)
    (f : v.ty.Contents (Elt F)) {off : Fin S.rank → Nat} (h : off = fun _ => 0)
    (inb : ∀ a, off a + S.size a ≤ S.size a) :
    v.readAt (Elt F) (Rect.unit off S.size inb).toLoadRect f = v.read (Elt F) f := by
  rw [View.readAt_eq_ld, View.ld_unit_zero h inb]

/-! ## The body's branch -/

/-- The condition of the body's one conditional, from the grid coordinates: the first coordinate is zero. -/
abbrev cond3_0 (i : grid3.Coords) : Prop := (Scalar.cmpi .ne (Scalar.extui (Scalar.cmpi .eq (BitVec.ofNat 32 (i 0).val) 0#32)) 0#32) = 1#1

/-- It holds at the first point only: decided over the thirty points of the grid. -/
theorem hcond3_0 : ∀ t : Fin cfg3.N, cond3_0 (grid3.coords t) ↔ t.val = 0 :=
  (by decide +kernel : ∀ t : Fin grid3.N, cond3_0 (grid3.coords t) ↔ t.val = 0)

/-! ## The body's two runs

The body on whole staging memrefs and the whole scratch: the three inputs at their contents, the output's buffer at
anything (it is stored whole before the end and never read for a value), the scratch either at anything (first point:
the branch fills it with zeros before the first value load) or at what the point before left. It runs to the
continuation holding the inputs as they were, the scratch at the accumulator plus this point's update, and the output
at the row sums of the product of the user rows with that new accumulator. -/

set_option maxHeartbeats 1000000 in
/-- The first point: the branch is taken, so the accumulator starts from the zero fill. -/
theorem kernelRun3_A (c : Dev nD) (E : Set ℕ) (i : grid3.Coords)
    (arg1 : Memref sig .tc .vmem S1000x64 .f32) (harg1 : arg1.IsWhole) (arg2 : Memref sig .tc .vmem S4096x1 .i32) (harg2 : arg2.IsWhole)
    (arg3 : Memref sig .tc .vmem S4096x64 .f32) (harg3 : arg3.IsWhole) (arg4 : Memref sig .tc .vmem S4096x1 .f32) (harg4 : arg4.IsWhole)
    (arg5 : Memref sig .tc .vmem S4096x64 .f32) (harg5 : arg5.IsWhole) (hc : cond3_0 i)
    (x0 : Vec F S1000x64 .f32) (x1 : Vec F S4096x1 .i32) (x2 : Vec F S4096x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k3_pay3 x2 (k3_pay2 i x1 x0 (k3_pay1 (F := F))))
            ∗ owns (c : Thread nD τ) arg5 fullShare (k3_pay2 i x1 x0 (k3_pay1 (F := F)))) -∗ K ⟨⟩))
      ⊢ wp frame (wpE (defs₀ (F := F)) Variants.none c none) E (cc3_kernel i arg1 harg1 arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    simp only [read_writes_cons_unit_zero (S := S4096x1) _ _ zoff2, readAt_unit_zero (S := S4096x1) _ _ zoff2,
      readAt_unit_zero (S := S4096x64) _ _ zoff2, readAt_unit_zero (S := S1000x64) _ _ zoff2,
      readCov_cons_unit_zero (S := S4096x64) _ zoff2]
  iexists _; isplitr
  swap; · iexact HS
  ipureintro
  sl_unfold_words
  simp only [read_writes_cons_unit_zero (S := S4096x64) _ _ zoff2, readAt_unit_zero (S := S4096x1) _ _ zoff2,
      readAt_unit_zero (S := S4096x64) _ _ zoff2, readAt_unit_zero (S := S1000x64) _ _ zoff2,
      readCov_cons_unit_zero (S := S4096x64) _ zoff2]

set_option maxHeartbeats 1000000 in
/-- A later point: the branch is not taken, so the accumulator continues from what the point before left. -/
theorem kernelRun3_B (c : Dev nD) (E : Set ℕ) (i : grid3.Coords)
    (arg1 : Memref sig .tc .vmem S1000x64 .f32) (harg1 : arg1.IsWhole) (arg2 : Memref sig .tc .vmem S4096x1 .i32) (harg2 : arg2.IsWhole)
    (arg3 : Memref sig .tc .vmem S4096x64 .f32) (harg3 : arg3.IsWhole) (arg4 : Memref sig .tc .vmem S4096x1 .f32) (harg4 : arg4.IsWhole)
    (arg5 : Memref sig .tc .vmem S4096x64 .f32) (harg5 : arg5.IsWhole) (hc : ¬cond3_0 i)
    (x0 : Vec F S1000x64 .f32) (x1 : Vec F S4096x1 .i32) (x2 : Vec F S4096x64 .f32) (xs : Vec F S4096x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k3_pay3 x2 (k3_pay2 i x1 x0 xs)) ∗ owns (c : Thread nD τ) arg5 fullShare (k3_pay2 i x1 x0 xs)) -∗ K ⟨⟩))
      ⊢ wp frame (wpE (defs₀ (F := F)) Variants.none c none) E (cc3_kernel i arg1 harg1 arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    simp only [read_writes_cons_unit_zero (S := S4096x1) _ _ zoff2, readAt_unit_zero (S := S4096x1) _ _ zoff2,
      readAt_unit_zero (S := S4096x64) _ _ zoff2, readAt_unit_zero (S := S1000x64) _ _ zoff2,
      readCov_cons_unit_zero (S := S4096x64) _ zoff2]
  iexists _; isplitr
  swap; · iexact HS
  ipureintro
  sl_unfold_words
  simp only [read_writes_cons_unit_zero (S := S4096x64) _ _ zoff2, readAt_unit_zero (S := S4096x1) _ _ zoff2,
      readAt_unit_zero (S := S4096x64) _ _ zoff2, readAt_unit_zero (S := S1000x64) _ _ zoff2,
      readCov_cons_unit_zero (S := S4096x64) _ zoff2]

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is the entry contents and whose body leaves the block in place: an unfetched window's block
    index has not moved since the point before. One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator, point by point -/

/-- What the scratch holds after the body at position `n`: at the first point the zero fill plus that point's
    update; afterwards what the point before left plus this point's update. -/
def accAt3 (c : Dev nD) : (n : ℕ) → n < cfg3.N → Vec F S4096x64 .f32
  | 0, hn => k3_pay2 (grid3.coords ⟨0, hn⟩) (iblk3 V c 1 ⟨0, hn⟩) (iblk3 V c 0 ⟨0, hn⟩) (k3_pay1 (F := F))
  | n + 1, hn => k3_pay2 (grid3.coords ⟨n + 1, hn⟩) (iblk3 V c 1 ⟨n + 1, hn⟩) (iblk3 V c 0 ⟨n + 1, hn⟩) (accAt3 c n (Nat.lt_of_succ_lt hn))

theorem accAt3_zero (c : Dev nD) (hn : 0 < cfg3.N) : accAt3 V c 0 hn = k3_pay2 (grid3.coords ⟨0, hn⟩) (iblk3 V c 1 ⟨0, hn⟩) (iblk3 V c 0 ⟨0, hn⟩) (k3_pay1 (F := F)) := rfl

theorem accAt3_succ (c : Dev nD) (n : ℕ) (hn : n + 1 < cfg3.N) : accAt3 V c (n + 1) hn = k3_pay2 (grid3.coords ⟨n + 1, hn⟩) (iblk3 V c 1 ⟨n + 1, hn⟩) (iblk3 V c 0 ⟨n + 1, hn⟩) (accAt3 V c n (Nat.lt_of_succ_lt hn)) := rfl

/-- At the first point of the grid. -/
theorem accAt3_first (c : Dev nD) (t : Fin cfg3.N) (hz : t.val = 0) :
    accAt3 V c t.val t.isLt = k3_pay2 (grid3.coords t) (iblk3 V c 1 t) (iblk3 V c 0 t) (k3_pay1 (F := F)) := by
  obtain ⟨n, hn⟩ := t
  cases n with
  | zero => exact rfl
  | succ n => exact absurd hz (Nat.succ_ne_zero n)

/-- At a later point: over what the point before left. -/
theorem accAt3_later (c : Dev nD) (t : Fin cfg3.N) (hz : t.val ≠ 0) :
    accAt3 V c t.val t.isLt = k3_pay2 (grid3.coords t) (iblk3 V c 1 t) (iblk3 V c 0 t)
      (accAt3 V c (t.val - 1) (Nat.lt_of_le_of_lt (Nat.sub_le _ _) t.isLt)) := by
  obtain ⟨n, hn⟩ := t
  cases n with
  | zero => exact absurd rfl hz
  | succ n => exact rfl

/-! ## The region invariant -/

/-- The scratch operand: a whole scoped buffer of the kernel's own, passed beside the windows. -/
abbrev scM3_0 : Memref sig .tc .vmem S4096x64 .f32 := Memref.whole cc3_scratch0

/-- The invariant the launch hands the region, with the scratch split off as a memref owned at some contents; the
    other scoped buffers stay unopened. -/
theorem PhiA3_eq (c : Dev nD) :
    (Pipeline.ΦA spec3 c : sProp 𝕄)
      = iprop(iprop(iprop((∃ d, owns (c : Thread nD τ) scM3_0 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-- The invariant before position `n`: before the first point what the launch hands over (the scratch at anything);
    afterwards the scratch at what the point before left, the other scoped buffers unopened, and the generator
    register at some state. -/
def PhiS3 (c : Dev nD) : (n : ℕ) → n ≤ cfg3.N → sProp 𝕄
  | 0, _ => Pipeline.ΦA spec3 c
  | n + 1, hn => iprop(iprop(owns (c : Thread nD τ) scM3_0 fullShare (accAt3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (accAt3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (accAt3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of this pipeline on core `c`: the arrays as the region finds them; after the body at point `t`
    each input's buffer at its block and the output's at the row sums of the user rows times the accumulator after
    that point; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (iblk3 V c 2 t) (accAt3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = k3_pay3 (iblk3 V c 2 t) (accAt3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns: no window of this pipeline is ever idle, so each buffer is left at its stated contents. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

set_option maxHeartbeats 4000000 in
/-- The body at any point. The inputs' memrefs hold their blocks; the output's buffer is taken at anything. At the
    first point the invariant hands over the scratch at anything and the first run applies; at a later point it
    hands it over at what the point before left and the second run applies. Either way the scratch comes back at
    this point's accumulator, the unopened scoped buffers and the generator register pass through, and the core
    owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).Φ t.succ = PhiS3 V c (t.val + 1) t.isLt from rfl, PhiS3_succ,
    after3_0, after3_1, after3_2, after3_3, PhiS3_castSucc V c t]
  by_cases hz : t.val = 0
  · rw [PhiS3_zero V c _ _ hz, PhiA3_eq, accAt3_first V c t hz]
    iintro ⟨⟨⟨HS, HR⟩, Hg⟩, Ho, ⟨%d0, H0⟩, ⟨%d1, H1⟩, ⟨%d2, H2⟩, ⟨%d3, H3⟩⟩
    iapply (kernelRun3_A c Set.univ (grid3.coords t) _ _ _ _ _ _ _ _ _ _ ((hcond3_0 t).mpr hz) (iblk3 V c 0 t) (iblk3 V c 1 t) (iblk3 V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [PhiS3_pos V c _ _ hz, accAt3_later V c t hz]
    iintro ⟨⟨⟨HS, HR⟩, Hg⟩, Ho, ⟨%d0, H0⟩, ⟨%d1, H1⟩, ⟨%d2, H2⟩, ⟨%d3, H3⟩⟩
    iapply (kernelRun3_B c Set.univ (grid3.coords t) _ _ _ _ _ _ _ _ _ _ (fun h => hz ((hcond3_0 t).mp h)) (iblk3 V c 0 t) (iblk3 V c 1 t) (iblk3 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]

/-- After any point the invariant gives back what the launch handed over: the scratch's named contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

/-- The same after the last point. -/
theorem hout3 (c : Dev nD) : (dat3 V c).Φ (Fin.last cfg3.N) ⊢ (Pipeline.ΦA spec3 c : sProp 𝕄) :=
  Phi_out3 V c _ (by rw [Fin.val_last]; have : cfg3.N = 30 := N_3; omega)

end Cert.KernelIdeal.Hand

end
-- ==== Proof.KI.Fold.lean ====
/-
  The buffer contents of the program between the items of @main. @main is eleven items: host stretches and four
  pipelined kernel regions. The contents a TensorCore's unscoped buffers hold at a boundary are a fold from the launch
  memory: a host stretch applies its operations; a region leaves each of its windows' arrays at what its write-backs
  fold to and every other buffer as it found it. Each region's proof data is taken at the contents its region is entered from.
-/
import proofs.«422603_j65833258713793_2_alg».proof.Proof.KI.Reg0
import proofs.«422603_j65833258713793_2_alg».proof.Proof.KI.Reg1
import proofs.«422603_j65833258713793_2_alg».proof.Proof.KI.Reg2
import proofs.«422603_j65833258713793_2_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items of @main: a fold from the launch memory -/

/-- Core `c`'s buffers at launch. -/
abbrev W0 : Dev nD → Valuation τ sig (Elt F) := fun c b => (s₀ m ρ).mem ((c : Dev nD), b)

/-- After the host stretch `main_part0_ops0`. -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `main_part0_ops1`. -/
abbrev W3 : Dev nD → Valuation τ sig (Elt F) := fun c => StableHlo.after main_part0_ops1 (W2 m ρ c)
abbrev V3 : (c : Dev nD) → (b : Ref sig .tc) → Buf (Elt F) ((c : Thread nD τ).loc b) := fun c b => W3 m ρ c b

/-- After the host stretch `main_part0_ops2`. -/
abbrev W4 : Dev nD → Valuation τ sig (Elt F) := fun c => StableHlo.after main_part0_ops2 (W3 m ρ c)
abbrev V4 : (c : Dev nD) → (b : Ref sig .tc) → Buf (Elt F) ((c : Thread nD τ).loc b) := fun c b => W4 m ρ c b

/-- After the host stretch `main_part0_ops3`. -/
abbrev W5 : Dev nD → Valuation τ sig (Elt F) := fun c => StableHlo.after main_part0_ops3 (W4 m ρ c)
abbrev V5 : (c : Dev nD) → (b : Ref sig .tc) → Buf (Elt F) ((c : Thread nD τ).loc b) := fun c b => W5 m ρ c b

/-- After the host stretch `main_part1_ops0`. -/
abbrev W6 : Dev nD → Valuation τ sig (Elt F) := fun c => StableHlo.after main_part1_ops0 (W5 m ρ c)
abbrev V6 : (c : Dev nD) → (b : Ref sig .tc) → Buf (Elt F) ((c : Thread nD τ).loc b) := fun c b => W6 m ρ c b

/-- At region 1's exit: its arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After the host stretch `main_part1_ops1`. -/
abbrev W8 : Dev nD → Valuation τ sig (Elt F) := fun c => StableHlo.after main_part1_ops1 (W7 m ρ c)
abbrev V8 : (c : Dev nD) → (b : Ref sig .tc) → Buf (Elt F) ((c : Thread nD τ).loc b) := fun c b => W8 m ρ c b

/-- At region 2's exit: its arrays at what the pipeline leaves, every other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- At region 3's exit: its arrays at what the pipeline leaves, every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-- After the host stretch `main_part1_ops2`. -/
abbrev W11 : Dev nD → Valuation τ sig (Elt F) := fun c => StableHlo.after main_part1_ops2 (W10 m ρ c)
abbrev V11 : (c : Dev nD) → (b : Ref sig .tc) → Buf (Elt F) ((c : Thread nD τ).loc b) := fun c b => W11 m ρ c b

/-! ## The proof data family -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
  | ⟨2, _⟩ => fun c => dat2 (V8 m ρ) c
  | ⟨3, _⟩ => fun c => dat3 (V9 m ρ) c

end Cert.KernelIdeal.Hand
end
-- ==== Proof.KI.Run.lean ====
/-
  The run of @main as a sequence of segments. Every host stretch is a segment that carries the unscoped buffers from one
  boundary's contents to the next; every kernel region is a segment whose arrays are split out of the unscoped buffers at
  entry and joined back at exit, with the body obligation of its proof data. Chained, they give: from any memory with
  zero semaphore counters every weakly fair execution terminates without a fault, and the final memory holds every unscoped
  buffer at the last boundary's contents.
-/
import proofs.«422603_j65833258713793_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The thread state between items, and the items as segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem p0ops0_fresh : (main_part0_ops0 : List (HloOp τ sig (Elt F))).Forall fun op => op.fresh = ∅ := by
  simp only [List.Forall]; repeat' constructor
theorem p0ops1_fresh : (main_part0_ops1 : List (HloOp τ sig (Elt F))).Forall fun op => op.fresh = ∅ := by
  simp only [List.Forall]; repeat' constructor
theorem p0ops2_fresh : (main_part0_ops2 : List (HloOp τ sig (Elt F))).Forall fun op => op.fresh = ∅ := by
  simp only [List.Forall]; repeat' constructor
theorem p0ops3_fresh : (main_part0_ops3 : List (HloOp τ sig (Elt F))).Forall fun op => op.fresh = ∅ := by
  simp only [List.Forall]; repeat' constructor
theorem p1ops0_fresh : (main_part1_ops0 : List (HloOp τ sig (Elt F))).Forall fun op => op.fresh = ∅ := by
  simp only [List.Forall]; repeat' constructor
theorem p1ops1_fresh : (main_part1_ops1 : List (HloOp τ sig (Elt F))).Forall fun op => op.fresh = ∅ := by
  simp only [List.Forall]; repeat' constructor
theorem p1ops2_fresh : (main_part1_ops2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- REGION 0 over the thread state: entered from every unscoped buffer at `W1`, left at `W2`. Its arrays are split
    out of the unscoped buffers and put back at the exit contents; the generator register goes into the pipeline's invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W6`, left at `W7`. Its arrays are split
    out of the unscoped buffers and put back at the exit contents; the generator register goes into the pipeline's invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V6 m ρ) c)
    unfold Pipeline.ΦA
    iintro ⟨Hp, -, Hr⟩
    isplitl [Hr]; · iexact Hr
    iexact Hp
  hout c := by
    rw [Pipeline.ownSems0_none]
    refine (hout1 (V6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W8`, left at `W9`. Its arrays are split
    out of the unscoped buffers and put back at the exit contents; the generator register goes into the pipeline's invariant
    and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V8 m ρ) c)
    unfold Pipeline.ΦA
    iintro ⟨Hp, -, Hr⟩
    isplitl [Hr]; · iexact Hr
    iexact Hp
  hout c := by
    rw [Pipeline.ownSems0_none]
    refine (hout2 (V8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W9`, left at `W10`. Its arrays are split
    out of the unscoped buffers and put back at the exit contents; the generator register goes into the pipeline's invariant
    and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (V9 m ρ) c)
    unfold Pipeline.ΦA
    iintro ⟨Hp, -, Hr⟩
    isplitl [Hr]; · iexact Hr
    iexact Hp
  hout c := by
    rw [Pipeline.ownSems0_none]
    refine (hout3 (V9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without the debts. -/
abbrev Tₙ (c : Dev nD) : sProp 𝕄 := iprop(StableHlo.held (c : Thread nD τ) (Pipeline.ucRefs τ sig) (W11 m ρ c) ∗ ∃ r, prngReg c r)

/-- @main's eleven items in order. -/
abbrev segs : List (Pipeline.Seg (pcfgs (F := F)) adm (pdats m ρ) () defs₀ 𝒱₀ L lv) :=
  [ .host (hseg main_part0_ops0 main_part0_ops0_sub p0ops0_fresh (W0 m ρ)),
    .region (reg0 m ρ),
    .host (hseg main_part0_ops1 main_part0_ops1_sub p0ops1_fresh (W2 m ρ)),
    .host (hseg main_part0_ops2 main_part0_ops2_sub p0ops2_fresh (W3 m ρ)),
    .host (hseg main_part0_ops3 main_part0_ops3_sub p0ops3_fresh (W4 m ρ)),
    .host (hseg main_part1_ops0 main_part1_ops0_sub p1ops0_fresh (W5 m ρ)),
    .region (reg1 m ρ),
    .host (hseg main_part1_ops1 main_part1_ops1_sub p1ops1_fresh (W7 m ρ)),
    .region (reg2 m ρ),
    .region (reg3 m ρ),
    .host (hseg main_part1_ops2 main_part1_ops2_sub p1ops2_fresh (W10 m ρ)) ]
theorem main_run (c : Dev nD) : main (F := F) c = Pipeline.Seg.run (segs m ρ) := (main_chain_windows c).trans (by chain_rfl)

set_option backward.isDefEq.respectTransparency.types false in
/-- THE RUN: from any memory with zero counters every weakly fair execution of @main terminates, nothing faulting, and
    every final state holds every unscoped buffer at the last boundary's contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W11 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.KernelIdeal.Hand
end
-- ==== Proof.KI.Args.lean ====
/-
  THE ARGUMENTS ARE NEVER WRITTEN. Along the fold of buffer contents W0 … W11 over the eleven items of the program, each
  of the eight argument arrays holds at the end what it held at launch. A host operation writes only its result buffer,
  and no result buffer is an argument; a region changes only its own arrays, and the only arguments among any region's
  arrays are arguments 1 and 2, which region 0 reads through input windows, whose arrays are never written back.
-/
import proofs.«422603_j65833258713793_2_alg».proof.Proof.KI.Fold

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-! ## What each host stretch writes

Every host operation writes exactly its result buffer; the list below a stretch names those results in order. -/

/-- The buffers the operations of `main_part0_ops0` write. -/
abbrev p0ops0_W : List (Ref sig .tc) :=
  [main_v0, main_v1, main_v2]
theorem p0ops0_writes : (main_part0_ops0 : List (HloOp τ sig (Elt F))).Forall fun op => op.writes ⊆ (p0ops0_W.map (Proc.devRef (τ := τ) .tc)).toFinset := by
  simp only [List.Forall]
  repeat' apply And.intro
  all_goals exact Finset.singleton_subset_iff.2 (List.mem_toFinset.2 (List.mem_map_of_mem (by decide)))

/-- The buffers the operations of `main_part0_ops1` write. -/
abbrev p0ops1_W : List (Ref sig .tc) :=
  [main_v4, main_v5, main_v6, main_v7, main_v8, main_cst, main_v9, main_cst_0, main_v10, main_v11, main_v12, main_cst_1, main_v13, main_v14, main_cst_2, main_v15, main_v16, main_v17, main_cst_3]
theorem p0ops1_writes : (main_part0_ops1 : List (HloOp τ sig (Elt F))).Forall fun op => op.writes ⊆ (p0ops1_W.map (Proc.devRef (τ := τ) .tc)).toFinset := by
  simp only [List.Forall]
  repeat' apply And.intro
  all_goals exact Finset.singleton_subset_iff.2 (List.mem_toFinset.2 (List.mem_map_of_mem (by decide)))

/-- The buffers the operations of `main_part0_ops2` write. -/
abbrev p0ops2_W : List (Ref sig .tc) :=
  [main_call0_v0, main_call0_v1, main_v18]
theorem p0ops2_writes : (main_part0_ops2 : List (HloOp τ sig (Elt F))).Forall fun op => op.writes ⊆ (p0ops2_W.map (Proc.devRef (τ := τ) .tc)).toFinset := by
  simp only [List.Forall]
  repeat' apply And.intro
  all_goals exact Finset.singleton_subset_iff.2 (List.mem_toFinset.2 (List.mem_map_of_mem (by decide)))

/-- The buffers the operations of `main_part0_ops3` write. -/
abbrev p0ops3_W : List (Ref sig .tc) :=
  [main_c, main_v19, main_v20, main_c_4, main_v21, main_v22, main_v23, main_v24, main_v25, main_c_5, main_v26, main_v27, main_c_6, main_v28, main_v29, main_v30, main_v31, main_v32, main_v33, main_c_7, main_v34, main_v35, main_c_8, main_v36, main_v37, main_v38, main_v39, main_v40, main_v41, main_v42, main_v43, main_cst_9, main_v44, main_v45, main_v46, main_c_10]
theorem p0ops3_writes : (main_part0_ops3 : List (HloOp τ sig (Elt F))).Forall fun op => op.writes ⊆ (p0ops3_W.map (Proc.devRef (τ := τ) .tc)).toFinset := by
  simp only [List.Forall]
  repeat' apply And.intro
  all_goals exact Finset.singleton_subset_iff.2 (List.mem_toFinset.2 (List.mem_map_of_mem (by decide)))

/-- The buffers the operations of `main_part1_ops0` write. -/
abbrev p1ops0_W : List (Ref sig .tc) :=
  [main_v47, main_v48, main_c_11, main_v49, main_v50, main_v51, main_v52, main_v53, main_v54, main_v55, main_v56, main_cst_12, main_v57, main_v58, main_v59, main_c_13, main_v60, main_v61, main_c_14, main_v62, main_v63, main_v64, main_v65, main_v66, main_v67, main_v68, main_v69, main_cst_15, main_v70, main_v71, main_v72]
theorem p1ops0_writes : (main_part1_ops0 : List (HloOp τ sig (Elt F))).Forall fun op => op.writes ⊆ (p1ops0_W.map (Proc.devRef (τ := τ) .tc)).toFinset := by
  simp only [List.Forall]
  repeat' apply And.intro
  all_goals exact Finset.singleton_subset_iff.2 (List.mem_toFinset.2 (List.mem_map_of_mem (by decide)))

/-- The buffers the operations of `main_part1_ops1` write. -/
abbrev p1ops1_W : List (Ref sig .tc) :=
  [main_v74, main_v75, main_v76, main_v77]
theorem p1ops1_writes : (main_part1_ops1 : List (HloOp τ sig (Elt F))).Forall fun op => op.writes ⊆ (p1ops1_W.map (Proc.devRef (τ := τ) .tc)).toFinset := by
  simp only [List.Forall]
  repeat' apply And.intro
  all_goals exact Finset.singleton_subset_iff.2 (List.mem_toFinset.2 (List.mem_map_of_mem (by decide)))

/-- The buffers the operations of `main_part1_ops2` write. -/
abbrev p1ops2_W : List (Ref sig .tc) :=
  [main_v80]
theorem p1ops2_writes : (main_part1_ops2 : List (HloOp τ sig (Elt F))).Forall fun op => op.writes ⊆ (p1ops2_W.map (Proc.devRef (τ := τ) .tc)).toFinset := by
  simp only [List.Forall]
  repeat' apply And.intro
  all_goals exact Finset.singleton_subset_iff.2 (List.mem_toFinset.2 (List.mem_map_of_mem (by decide)))

/-! ## A buffer a host stretch does not write keeps its contents across the stretch -/

theorem W1_of (c : Dev nD) (r : Ref sig .tc) (h : r ∉ (p0ops0_W : List (Ref sig .tc))) :
    W1 m ρ c (Proc.devRef .tc r) = W0 m ρ c (Proc.devRef .tc r) :=
  StableHlo.after_of_writes_sub main_part0_ops0 _ p0ops0_writes h
theorem W3_of (c : Dev nD) (r : Ref sig .tc) (h : r ∉ (p0ops1_W : List (Ref sig .tc))) :
    W3 m ρ c (Proc.devRef .tc r) = W2 m ρ c (Proc.devRef .tc r) :=
  StableHlo.after_of_writes_sub main_part0_ops1 _ p0ops1_writes h
theorem W4_of (c : Dev nD) (r : Ref sig .tc) (h : r ∉ (p0ops2_W : List (Ref sig .tc))) :
    W4 m ρ c (Proc.devRef .tc r) = W3 m ρ c (Proc.devRef .tc r) :=
  StableHlo.after_of_writes_sub main_part0_ops2 _ p0ops2_writes h
theorem W5_of (c : Dev nD) (r : Ref sig .tc) (h : r ∉ (p0ops3_W : List (Ref sig .tc))) :
    W5 m ρ c (Proc.devRef .tc r) = W4 m ρ c (Proc.devRef .tc r) :=
  StableHlo.after_of_writes_sub main_part0_ops3 _ p0ops3_writes h
theorem W6_of (c : Dev nD) (r : Ref sig .tc) (h : r ∉ (p1ops0_W : List (Ref sig .tc))) :
    W6 m ρ c (Proc.devRef .tc r) = W5 m ρ c (Proc.devRef .tc r) :=
  StableHlo.after_of_writes_sub main_part1_ops0 _ p1ops0_writes h
theorem W8_of (c : Dev nD) (r : Ref sig .tc) (h : r ∉ (p1ops1_W : List (Ref sig .tc))) :
    W8 m ρ c (Proc.devRef .tc r) = W7 m ρ c (Proc.devRef .tc r) :=
  StableHlo.after_of_writes_sub main_part1_ops1 _ p1ops1_writes h
theorem W11_of (c : Dev nD) (r : Ref sig .tc) (h : r ∉ (p1ops2_W : List (Ref sig .tc))) :
    W11 m ρ c (Proc.devRef .tc r) = W10 m ρ c (Proc.devRef .tc r) :=
  StableHlo.after_of_writes_sub main_part1_ops2 _ p1ops2_writes h

/-! ## Every argument array reaches the end as launched

No host operation writes an argument and no region has one among its output arrays: a region leaves a buffer that is
not one of its arrays untouched, and an input window's array (arguments 1 and 2 are read by region 0) is never written back. -/

theorem W11_main_arg0 (c : Dev nD) : W11 m ρ c (Proc.devRef .tc main_arg0) = m ((c : Thread nD τ).loc main_arg0) :=
  (W11_of m ρ c main_arg0 (by decide)).trans <|
  (W10_of_ne m ρ c main_arg0 (by decide)).trans <|
  (W9_of_ne m ρ c main_arg0 (by decide)).trans <|
  (W8_of m ρ c main_arg0 (by decide)).trans <|
  (W7_of_ne m ρ c main_arg0 (by decide)).trans <|
  (W6_of m ρ c main_arg0 (by decide)).trans <|
  (W5_of m ρ c main_arg0 (by decide)).trans <|
  (W4_of m ρ c main_arg0 (by decide)).trans <|
  (W3_of m ρ c main_arg0 (by decide)).trans <|
  (W2_of_ne m ρ c main_arg0 (by decide)).trans <|
  (W1_of m ρ c main_arg0 (by decide)).trans <|
  rfl

theorem W11_main_arg1 (c : Dev nD) : W11 m ρ c (Proc.devRef .tc main_arg1) = m ((c : Thread nD τ).loc main_arg1) :=
  (W11_of m ρ c main_arg1 (by decide)).trans <|
  (W10_of_ne m ρ c main_arg1 (by decide)).trans <|
  (W9_of_ne m ρ c main_arg1 (by decide)).trans <|
  (W8_of m ρ c main_arg1 (by decide)).trans <|
  (W7_of_ne m ρ c main_arg1 (by decide)).trans <|
  (W6_of m ρ c main_arg1 (by decide)).trans <|
  (W5_of m ρ c main_arg1 (by decide)).trans <|
  (W4_of m ρ c main_arg1 (by decide)).trans <|
  (W3_of m ρ c main_arg1 (by decide)).trans <|
  ((W2_arr m ρ c 0).trans (((dat0 (V1 m ρ) c).arrAt_in 0 rfl _).trans (A_eq0 (V1 m ρ) c 0))).trans <|
  (W1_of m ρ c main_arg1 (by decide)).trans <|
  rfl

theorem W11_main_arg2 (c : Dev nD) : W11 m ρ c (Proc.devRef .tc main_arg2) = m ((c : Thread nD τ).loc main_arg2) :=
  (W11_of m ρ c main_arg2 (by decide)).trans <|
  (W10_of_ne m ρ c main_arg2 (by decide)).trans <|
  (W9_of_ne m ρ c main_arg2 (by decide)).trans <|
  (W8_of m ρ c main_arg2 (by decide)).trans <|
  (W7_of_ne m ρ c main_arg2 (by decide)).trans <|
  (W6_of m ρ c main_arg2 (by decide)).trans <|
  (W5_of m ρ c main_arg2 (by decide)).trans <|
  (W4_of m ρ c main_arg2 (by decide)).trans <|
  (W3_of m ρ c main_arg2 (by decide)).trans <|
  ((W2_arr m ρ c 1).trans (((dat0 (V1 m ρ) c).arrAt_in 1 rfl _).trans (A_eq0 (V1 m ρ) c 1))).trans <|
  (W1_of m ρ c main_arg2 (by decide)).trans <|
  rfl

theorem W11_main_arg3 (c : Dev nD) : W11 m ρ c (Proc.devRef .tc main_arg3) = m ((c : Thread nD τ).loc main_arg3) :=
  (W11_of m ρ c main_arg3 (by decide)).trans <|
  (W10_of_ne m ρ c main_arg3 (by decide)).trans <|
  (W9_of_ne m ρ c main_arg3 (by decide)).trans <|
  (W8_of m ρ c main_arg3 (by decide)).trans <|
  (W7_of_ne m ρ c main_arg3 (by decide)).trans <|
  (W6_of m ρ c main_arg3 (by decide)).trans <|
  (W5_of m ρ c main_arg3 (by decide)).trans <|
  (W4_of m ρ c main_arg3 (by decide)).trans <|
  (W3_of m ρ c main_arg3 (by decide)).trans <|
  (W2_of_ne m ρ c main_arg3 (by decide)).trans <|
  (W1_of m ρ c main_arg3 (by decide)).trans <|
  rfl

theorem W11_main_arg4 (c : Dev nD) : W11 m ρ c (Proc.devRef .tc main_arg4) = m ((c : Thread nD τ).loc main_arg4) :=
  (W11_of m ρ c main_arg4 (by decide)).trans <|
  (W10_of_ne m ρ c main_arg4 (by decide)).trans <|
  (W9_of_ne m ρ c main_arg4 (by decide)).trans <|
  (W8_of m ρ c main_arg4 (by decide)).trans <|
  (W7_of_ne m ρ c main_arg4 (by decide)).trans <|
  (W6_of m ρ c main_arg4 (by decide)).trans <|
  (W5_of m ρ c main_arg4 (by decide)).trans <|
  (W4_of m ρ c main_arg4 (by decide)).trans <|
  (W3_of m ρ c main_arg4 (by decide)).trans <|
  (W2_of_ne m ρ c main_arg4 (by decide)).trans <|
  (W1_of m ρ c main_arg4 (by decide)).trans <|
  rfl

theorem W11_main_arg5 (c : Dev nD) : W11 m ρ c (Proc.devRef .tc main_arg5) = m ((c : Thread nD τ).loc main_arg5) :=
  (W11_of m ρ c main_arg5 (by decide)).trans <|
  (W10_of_ne m ρ c main_arg5 (by decide)).trans <|
  (W9_of_ne m ρ c main_arg5 (by decide)).trans <|
  (W8_of m ρ c main_arg5 (by decide)).trans <|
  (W7_of_ne m ρ c main_arg5 (by decide)).trans <|
  (W6_of m ρ c main_arg5 (by decide)).trans <|
  (W5_of m ρ c main_arg5 (by decide)).trans <|
  (W4_of m ρ c main_arg5 (by decide)).trans <|
  (W3_of m ρ c main_arg5 (by decide)).trans <|
  (W2_of_ne m ρ c main_arg5 (by decide)).trans <|
  (W1_of m ρ c main_arg5 (by decide)).trans <|
  rfl

theorem W11_main_arg6 (c : Dev nD) : W11 m ρ c (Proc.devRef .tc main_arg6) = m ((c : Thread nD τ).loc main_arg6) :=
  (W11_of m ρ c main_arg6 (by decide)).trans <|
  (W10_of_ne m ρ c main_arg6 (by decide)).trans <|
  (W9_of_ne m ρ c main_arg6 (by decide)).trans <|
  (W8_of m ρ c main_arg6 (by decide)).trans <|
  (W7_of_ne m ρ c main_arg6 (by decide)).trans <|
  (W6_of m ρ c main_arg6 (by decide)).trans <|
  (W5_of m ρ c main_arg6 (by decide)).trans <|
  (W4_of m ρ c main_arg6 (by decide)).trans <|
  (W3_of m ρ c main_arg6 (by decide)).trans <|
  (W2_of_ne m ρ c main_arg6 (by decide)).trans <|
  (W1_of m ρ c main_arg6 (by decide)).trans <|
  rfl

theorem W11_main_arg7 (c : Dev nD) : W11 m ρ c (Proc.devRef .tc main_arg7) = m ((c : Thread nD τ).loc main_arg7) :=
  (W11_of m ρ c main_arg7 (by decide)).trans <|
  (W10_of_ne m ρ c main_arg7 (by decide)).trans <|
  (W9_of_ne m ρ c main_arg7 (by decide)).trans <|
  (W8_of m ρ c main_arg7 (by decide)).trans <|
  (W7_of_ne m ρ c main_arg7 (by decide)).trans <|
  (W6_of m ρ c main_arg7 (by decide)).trans <|
  (W5_of m ρ c main_arg7 (by decide)).trans <|
  (W4_of m ρ c main_arg7 (by decide)).trans <|
  (W3_of m ρ c main_arg7 (by decide)).trans <|
  (W2_of_ne m ρ c main_arg7 (by decide)).trans <|
  (W1_of m ρ c main_arg7 (by decide)).trans <|
  rfl

/-! ## The same walk stopped earlier, and two buffers carried through region 2 unchanged

The contents of an argument at an intermediate boundary are again the launch contents, by the part of the walk below
that boundary. Buffers `main_v75` and `main_v77` are not among region 2's arrays, so region 2 leaves them as entered. -/

theorem W1_main_arg1 (c : Dev nD) : W1 m ρ c (Proc.devRef .tc main_arg1) = m ((c : Thread nD τ).loc main_arg1) :=
  (W1_of m ρ c main_arg1 (by decide)).trans <|
  rfl

theorem W1_main_arg2 (c : Dev nD) : W1 m ρ c (Proc.devRef .tc main_arg2) = m ((c : Thread nD τ).loc main_arg2) :=
  (W1_of m ρ c main_arg2 (by decide)).trans <|
  rfl

theorem W2_main_arg0 (c : Dev nD) : W2 m ρ c (Proc.devRef .tc main_arg0) = m ((c : Thread nD τ).loc main_arg0) :=
  (W2_of_ne m ρ c main_arg0 (by decide)).trans <|
  (W1_of m ρ c main_arg0 (by decide)).trans <|
  rfl

theorem W2_main_arg5 (c : Dev nD) : W2 m ρ c (Proc.devRef .tc main_arg5) = m ((c : Thread nD τ).loc main_arg5) :=
  (W2_of_ne m ρ c main_arg5 (by decide)).trans <|
  (W1_of m ρ c main_arg5 (by decide)).trans <|
  rfl

theorem W7_main_arg6 (c : Dev nD) : W7 m ρ c (Proc.devRef .tc main_arg6) = m ((c : Thread nD τ).loc main_arg6) :=
  (W7_of_ne m ρ c main_arg6 (by decide)).trans <|
  (W6_of m ρ c main_arg6 (by decide)).trans <|
  (W5_of m ρ c main_arg6 (by decide)).trans <|
  (W4_of m ρ c main_arg6 (by decide)).trans <|
  (W3_of m ρ c main_arg6 (by decide)).trans <|
  (W2_of_ne m ρ c main_arg6 (by decide)).trans <|
  (W1_of m ρ c main_arg6 (by decide)).trans <|
  rfl

theorem W7_main_arg7 (c : Dev nD) : W7 m ρ c (Proc.devRef .tc main_arg7) = m ((c : Thread nD τ).loc main_arg7) :=
  (W7_of_ne m ρ c main_arg7 (by decide)).trans <|
  (W6_of m ρ c main_arg7 (by decide)).trans <|
  (W5_of m ρ c main_arg7 (by decide)).trans <|
  (W4_of m ρ c main_arg7 (by decide)).trans <|
  (W3_of m ρ c main_arg7 (by decide)).trans <|
  (W2_of_ne m ρ c main_arg7 (by decide)).trans <|
  (W1_of m ρ c main_arg7 (by decide)).trans <|
  rfl

theorem W9_main_v75 (c : Dev nD) : W9 m ρ c (Proc.devRef .tc main_v75) = W8 m ρ c (Proc.devRef .tc main_v75) :=
  W9_of_ne m ρ c main_v75 (by decide)

theorem W9_main_v77 (c : Dev nD) : W9 m ρ c (Proc.devRef .tc main_v77) = W8 m ρ c (Proc.devRef .tc main_v77) :=
  W9_of_ne m ρ c main_v77 (by decide)

end Cert.KernelIdeal.Hand

end
-- ==== Proof.KI.Frame.lean ====
/-
  THE FRAME CLAIMS READ OFF THE RUN. The run of the whole program ends with every unscoped buffer at the last boundary's
  contents. Each of the eight argument arrays is an unscoped buffer whose contents at the last boundary are its launch
  contents, so each ends as launched; the result array is an unscoped buffer too, so it ends at the last boundary's
  contents of it.
-/
import proofs.«422603_j65833258713793_2_alg».proof.Proof.KI.Run
import proofs.«422603_j65833258713793_2_alg».proof.Proof.KI.Args

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The frame: from any memory with zero semaphore counters every weakly fair execution of the program on the TensorCores
    terminates without a fault, and every final state holds each of the eight argument arrays as launched. Every
    argument is an unscoped buffer, so the final state holds it at the last boundary's contents, which for an argument
    are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c)⟩) (run_all m ρ)

/-- The same run, read also at the result array: the final state holds it at the last boundary's contents, and the
    eight argument arrays as launched. -/
theorem run_value : θ_run defs (onTc (τ := τ) (main (F := F))) ⟨m, fun _ => 0, ρ⟩ (fun r => ∀ c : Dev nD,
      r.2.mem ((c.tc : Thread nD τ).loc main_v80) = W11 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v80 (by decide)),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c)⟩) (run_all m ρ)

end Cert.KernelIdeal.Hand

end
-- ==== Proof.Math.ProjSpec.lean ====
/-
  The projected, L2-normalised item feature of one row, as a function of plain index types.

  A row of the item features comes in two pieces, `a` (768 entries) and `a'` (128 entries); the projection matrix in the two
  matching row groups `w` and `w'`; `b` is the bias. The un-normalised feature is
      y q = (∑ k, a k · w k q) + (∑ k, a' k · w' k q) + b q ,
  and the normalised one divides it by the larger of the row's Euclidean length `√(∑ j, y j · y j)` and a small floor
  (the float word `0x2B8CBCCC`, about 1e-12, never evaluated). All arithmetic is the extended reals'.
-/
import Idealize.ShloMosaic.PureOps.Ideal

noncomputable section

namespace Cert.Hand

open Idealize.ShloMosaic

/-- The un-normalised projected feature: both partial products, then the bias. -/
def projY (a : Fin 768 → EReal) (a' : Fin 128 → EReal) (w : Fin 768 → Fin 64 → EReal) (w' : Fin 128 → Fin 64 → EReal)
    (b : Fin 64 → EReal) (q : Fin 64) : EReal :=
  (∑ k, a k * w k q) + (∑ k, a' k * w' k q) + b q

/-- The normalised feature: `y q` over the floored Euclidean length of `y`. -/
def projSpec (a : Fin 768 → EReal) (a' : Fin 128 → EReal) (w : Fin 768 → Fin 64 → EReal) (w' : Fin 128 → Fin 64 → EReal)
    (b : Fin 64 → EReal) (q : Fin 64) : EReal :=
  Ideal.div (projY a a' w w' b q)
    (max (Ideal.sqrt (∑ j, projY a a' w w' b j * projY a a' w w' b j)) (Ideal.ofBits .f32 0x2B8CBCCC#32))

end Cert.Hand

end
-- ==== Proof.Math.Proj.lean ====
/-
  The projection kernel's stored block, read at an index: row `p`, column `q` of the block is the normalised projected
  feature `projSpec` of row `p` of the two feature blocks, the two row groups of the projection matrix and the bias.

  The block is computed as two matrix products into zero accumulators (each a sum over its contraction index), their sum
  plus the bias row broadcast down the rows; then each row is divided by the larger of its Euclidean length (a lane sum of
  squares, then a square root) and a small floor. At the ideal values the changes of float format are the identity.
-/
import proofs.«422603_j65833258713793_2_alg».proof.Proof.Gen.KernelIdeal.Skeleton
import proofs.«422603_j65833258713793_2_alg».proof.Proof.Math.ProjSpec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx Cert.Hand

/-! ## The two matrix products at an index -/

theorem lhsA_0 (i : S2000x64.Idx) (c : dot_S2000x768_S768x64_S2000x64_1_0_0_1_n_n.contr.Idx) :
    (dot_S2000x768_S768x64_S2000x64_1_0_0_1_n_n.lhsIdx i c 0).val = (i 0).val := by
  unfold DotDims.lhsIdx
  rw [dif_neg (show ¬(0 : Fin S2000x768.rank) ∈ dot_S2000x768_S768x64_S2000x64_1_0_0_1_n_n.lhsBatch by decide),
    dif_pos (show (0 : Fin S2000x768.rank) ∈ dot_S2000x768_S768x64_S2000x64_1_0_0_1_n_n.lhsNonContracting by decide)]
  rfl
theorem lhsA_1 (i : S2000x64.Idx) (c : dot_S2000x768_S768x64_S2000x64_1_0_0_1_n_n.contr.Idx) :
    (dot_S2000x768_S768x64_S2000x64_1_0_0_1_n_n.lhsIdx i c 1).val = (c ⟨0, by decide⟩).val :=
  dot_S2000x768_S768x64_S2000x64_1_0_0_1_n_n.lhsIdx_val_of_single rfl i c
theorem rhsA_0 (i : S2000x64.Idx) (c : dot_S2000x768_S768x64_S2000x64_1_0_0_1_n_n.contr.Idx) :
    (dot_S2000x768_S768x64_S2000x64_1_0_0_1_n_n.rhsIdx i c 0).val = (c ⟨0, by decide⟩).val :=
  dot_S2000x768_S768x64_S2000x64_1_0_0_1_n_n.rhsIdx_val_of_single rfl i c
theorem rhsA_1 (i : S2000x64.Idx) (c : dot_S2000x768_S768x64_S2000x64_1_0_0_1_n_n.contr.Idx) :
    (dot_S2000x768_S768x64_S2000x64_1_0_0_1_n_n.rhsIdx i c 1).val = (i 1).val := by
  unfold DotDims.rhsIdx
  rw [dif_neg (show ¬(1 : Fin S768x64.rank) ∈ dot_S2000x768_S768x64_S2000x64_1_0_0_1_n_n.rhsBatch by decide),
    dif_pos (show (1 : Fin S768x64.rank) ∈ dot_S2000x768_S768x64_S2000x64_1_0_0_1_n_n.rhsNonContracting by decide)]
  rfl

/-- The 768-deep product into a zero accumulator, at (p, q): the sum over the contraction coordinate. -/
theorem mmA_apply {φ₁ φ₂ : FTy} (x : FVec Ideal S2000x768 φ₁) (w : FVec Ideal S768x64 φ₂) (p : Fin 2000) (q : Fin 64) :
    matmul dot_S2000x768_S768x64_S2000x64_1_0_0_1_n_n none x w (constant S2000x64 .f32 0x00000000#32) (ix2 p q)
      = ∑ k : Fin 768, x (ix2 p k) * w (ix2 k q) := by
  simp only [matmul]
  rw [Ideal.matmul_constant_zero_apply,
    ← Equiv.sum_comp (contrEquiv1 dot_S2000x768_S768x64_S2000x64_1_0_0_1_n_n 768 rfl rfl).symm]
  refine Finset.sum_congr rfl fun k _ => ?_
  have hk := contrEquiv1_symm_val dot_S2000x768_S768x64_S2000x64_1_0_0_1_n_n 768 rfl rfl k
  have el : dot_S2000x768_S768x64_S2000x64_1_0_0_1_n_n.lhsIdx (ix2 p q)
      ((contrEquiv1 dot_S2000x768_S768x64_S2000x64_1_0_0_1_n_n 768 rfl rfl).symm k) = ix2 p k :=
    funext fun a => Fin.ext (by
      match a with
      | ⟨0, _⟩ => exact lhsA_0 _ _
      | ⟨1, _⟩ => exact (lhsA_1 _ _).trans hk)
  have er : dot_S2000x768_S768x64_S2000x64_1_0_0_1_n_n.rhsIdx (ix2 p q)
      ((contrEquiv1 dot_S2000x768_S768x64_S2000x64_1_0_0_1_n_n 768 rfl rfl).symm k) = ix2 k q :=
    funext fun a => Fin.ext (by
      match a with
      | ⟨0, _⟩ => exact (rhsA_0 _ _).trans hk
      | ⟨1, _⟩ => exact rhsA_1 _ _)
  rw [el, er]

theorem lhsB_0 (i : S2000x64.Idx) (c : dot_S2000x128_S128x64_S2000x64_1_0_0_1_n_n.contr.Idx) :
    (dot_S2000x128_S128x64_S2000x64_1_0_0_1_n_n.lhsIdx i c 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl
theorem lhsB_1 (i : S2000x64.Idx) (c : dot_S2000x128_S128x64_S2000x64_1_0_0_1_n_n.contr.Idx) :
    (dot_S2000x128_S128x64_S2000x64_1_0_0_1_n_n.lhsIdx i c 1).val = (c ⟨0, by decide⟩).val :=
  dot_S2000x128_S128x64_S2000x64_1_0_0_1_n_n.lhsIdx_val_of_single rfl i c
theorem rhsB_0 (i : S2000x64.Idx) (c : dot_S2000x128_S128x64_S2000x64_1_0_0_1_n_n.contr.Idx) :
    (dot_S2000x128_S128x64_S2000x64_1_0_0_1_n_n.rhsIdx i c 0).val = (c ⟨0, by decide⟩).val :=
  dot_S2000x128_S128x64_S2000x64_1_0_0_1_n_n.rhsIdx_val_of_single rfl i c
theorem rhsB_1 (i : S2000x64.Idx) (c : dot_S2000x128_S128x64_S2000x64_1_0_0_1_n_n.contr.Idx) :
    (dot_S2000x128_S128x64_S2000x64_1_0_0_1_n_n.rhsIdx i c 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The 128-deep product into a zero accumulator, at (p, q). -/
theorem mmB_apply {φ₁ φ₂ : FTy} (x : FVec Ideal S2000x128 φ₁) (w : FVec Ideal S128x64 φ₂) (p : Fin 2000) (q : Fin 64) :
    matmul dot_S2000x128_S128x64_S2000x64_1_0_0_1_n_n none x w (constant S2000x64 .f32 0x00000000#32) (ix2 p q)
      = ∑ k : Fin 128, x (ix2 p k) * w (ix2 k q) := by
  simp only [matmul]
  rw [Ideal.matmul_constant_zero_apply,
    ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q)
      ((contrEquiv1 dot_S2000x128_S128x64_S2000x64_1_0_0_1_n_n 128 rfl rfl).symm k) = ix2 p k :=
    funext fun a => Fin.ext (by
      match a with
      | ⟨0, _⟩ => exact lhsB_0 _ _
      | ⟨1, _⟩ => exact (lhsB_1 _ _).trans hk)
  have er : dot_S2000x128_S128x64_S2000x64_1_0_0_1_n_n.rhsIdx (ix2 p q)
      ((contrEquiv1 dot_S2000x128_S128x64_S2000x64_1_0_0_1_n_n 128 rfl rfl).symm k) = ix2 k q :=
    funext fun a => Fin.ext (by
      match a with
      | ⟨0, _⟩ => exact (rhsB_0 _ _).trans hk
      | ⟨1, _⟩ => exact rhsB_1 _ _)
  rw [el, er]

/-! ## The layout steps at an index -/

/-- The bias row broadcast down the rows: row 0 of the bias at the same column. -/
theorem biasRows_apply {α : Type} (b : S1x64.Idx → α) (p : Fin 2000) (q : Fin 64) :
    broadcastTo S2000x64 b broadcasts_S1x64_S2000x64 (ix2 p q) = b (ix2 0 q) :=
  broadcastTo_apply b broadcasts_S1x64_S2000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-- A column of row values broadcast along the lanes: the row's value. -/
theorem rowCols_apply {α : Type} (c : S2000x1.Idx → α) (p : Fin 2000) (q : Fin 64) :
    broadcastTo S2000x64 c broadcasts_S2000x1_S2000x64 (ix2 p q) = c (ix2 p 0) :=
  broadcastTo_apply c broadcasts_S2000x1_S2000x64 (ix2 p q) (ix2 p 0) (fun a => match a with
    | ⟨0, _⟩ => by show p.val = if (2000 : Nat) = 1 then 0 else p.val; rw [if_neg (by decide)]
    | ⟨1, _⟩ => by show 0 = if (1 : Nat) = 1 then 0 else q.val; rw [if_pos rfl])

/-- The row values recast as a one-lane column: the same value. -/
theorem colOfRows_apply {α : Type} (r : S2000.Idx → α) (p : Fin 2000) :
    shapeCast S2000x1 r shapeCasts_S2000_S2000x1 (ix2 p 0) = r (ix1 p) :=
  shapeCast_apply r shapeCasts_S2000_S2000x1 (ix2 p 0) (ix1 p)
    (by rewrite [Shape.rowMajor_val_two, Shape.rowMajor_val_one]; show p.val = p.val * 1 + 0; omega)

/-- The lane sum of a block at row `p`: the sum over the 64 columns. -/
theorem laneSum_apply (x : FVec Ideal S2000x64 .f32) (p : Fin 2000) :
    multiReduction (F := Ideal) .add [1] S2000 x 0x00000000#32 reduces_S2000x64_S2000 (.inl rfl) rfl (ix1 p)
      = ∑ j : Fin 64, x (ix2 p j) := by
  refine (Ideal.multiReduction_add_single x _ reduces_S2000x64_S2000 (.inl rfl) rfl (ix1 p)).trans ?_
  refine Finset.sum_congr rfl fun k _ => congrArg x (funext fun a => Fin.ext (by
    match a with
    | ⟨0, _⟩ => rfl
    | ⟨1, _⟩ => rfl))

/-! ## The payload -/

/-- The un-normalised block: the two products, summed, plus the bias rows. -/
def yBlock (v0 : Vec Ideal S2000x768 .f32) (v2 : Vec Ideal S2000x128 .f32) (v4 : Vec Ideal S768x64 .f32)
    (v7 : Vec Ideal S128x64 .f32) (v13 : Vec Ideal S1x64 .f32) : FVec Ideal S2000x64 .f32 :=
  addf (addf
      (matmul dot_S2000x768_S768x64_S2000x64_1_0_0_1_n_n none (truncf .bf16 v0 bitsLt_bf16_f32) (truncf .bf16 v4 bitsLt_bf16_f32)
        (constant S2000x64 .f32 0x00000000#32))
      (matmul dot_S2000x128_S128x64_S2000x64_1_0_0_1_n_n none (truncf .bf16 v2 bitsLt_bf16_f32) (truncf .bf16 v7 bitsLt_bf16_f32)
        (constant S2000x64 .f32 0x00000000#32)))
    (broadcastTo S2000x64 v13 broadcasts_S1x64_S2000x64)

theorem yBlock_apply (v0 : Vec Ideal S2000x768 .f32) (v2 : Vec Ideal S2000x128 .f32) (v4 : Vec Ideal S768x64 .f32)
    (v7 : Vec Ideal S128x64 .f32) (v13 : Vec Ideal S1x64 .f32) (p : Fin 2000) (q : Fin 64) :
    yBlock v0 v2 v4 v7 v13 (ix2 p q)
      = projY (fun k => v0 (ix2 p k)) (fun k => v2 (ix2 p k)) (fun k j => v4 (ix2 k j)) (fun k j => v7 (ix2 k j))
          (fun j => v13 (ix2 0 j)) q := by
  unfold yBlock projY
  rw [addf_apply, addf_apply, mmA_apply, mmB_apply, biasRows_apply]
  rfl

/-- The payload is the un-normalised block over its floored row lengths (the identity shape casts dropped). -/
theorem k0_pay1_eq (v0 : Vec Ideal S2000x768 .f32) (v2 : Vec Ideal S2000x128 .f32) (v4 : Vec Ideal S768x64 .f32)
    (v7 : Vec Ideal S128x64 .f32) (v13 : Vec Ideal S1x64 .f32) :
    k0_pay1 (F := Ideal) v0 v2 v4 v7 v13
      = divf (yBlock v0 v2 v4 v7 v13)
          (broadcastTo S2000x64
            (maximumf
              (sqrt (shapeCast S2000x1
                (multiReduction (F := Ideal) .add [1] S2000 (mulf (yBlock v0 v2 v4 v7 v13) (yBlock v0 v2 v4 v7 v13)) 0x00000000#32
                  reduces_S2000x64_S2000 (.inl rfl) rfl) shapeCasts_S2000_S2000x1))
              (broadcast S2000x1 (Scalar.ofBits .f32 0x2B8CBCCC#32)))
            broadcasts_S2000x1_S2000x64) := by
  unfold k0_pay1 yBlock
  simp only [shapeCast_self]

/-- Row `p`, column `q` of the stored block is the normalised projected feature of row `p`. -/
theorem k0_pay1_apply (v0 : Vec Ideal S2000x768 .f32) (v2 : Vec Ideal S2000x128 .f32) (v4 : Vec Ideal S768x64 .f32)
    (v7 : Vec Ideal S128x64 .f32) (v13 : Vec Ideal S1x64 .f32) (p : Fin 2000) (q : Fin 64) :
    k0_pay1 (F := Ideal) v0 v2 v4 v7 v13 (ix2 p q)
      = projSpec (fun k => v0 (ix2 p k)) (fun k => v2 (ix2 p k)) (fun k j => v4 (ix2 k j)) (fun k j => v7 (ix2 k j))
          (fun j => v13 (ix2 0 j)) q := by
  rw [k0_pay1_eq, divf_apply, rowCols_apply, maximumf_apply]
  show Ideal.div _ (max (Ideal.sqrt (shapeCast S2000x1 _ shapeCasts_S2000_S2000x1 (ix2 p 0))) _) = _
  rw [colOfRows_apply, laneSum_apply]
  simp only [mulf_apply, yBlock_apply]
  rfl

end Cert.KernelIdeal.Hand

end
-- ==== Proof.KI.Val0.lean ====
import proofs.«422603_j65833258713793_2_alg».proof.Proof.KI.Reg0
import proofs.«422603_j65833258713793_2_alg».proof.Proof.Math.Proj
import Idealize.ShloMosaic.Lib.Pipeline.Value
import Idealize.ShloMosaic.Lib.ValueIdx

/-!
# Region 0, from blocks to the array: the projected item features, row by row

When the first pipeline has run, its output array (30000 rows of 64) holds in row `r` the normalised projection
`projSpec` of row `r` of the two feature matrices, of the two weight slices and of the bias, all as the region
found them (`V`).

The argument: grid point `t` works on rows `2000·t … 2000·t + 1999`.  Its output block, row `p`, is `projSpec` of
row `p` of its two feature blocks; the feature blocks are rows `2000·t + p` of the matrices (their block index
follows the output's), and the weight and bias blocks are the whole arrays (block index zero).  So what point `t`
writes back is block `t` of one function `proj0` of the whole arrays, and the fifteen blocks tile the 30000 rows.
-/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.Hand
open Idealize.ShloMosaic.Pipeline (Dat)

/-- The offset of every whole-block access: the origin. -/
theorem origin2 : (![0, 0] : Fin 2 → Nat) = fun _ => 0 := funext fun a => by fin_cases a <;> rfl

/-! ## One grid point: the output block from the five input blocks -/

/-- Row `p`, column `q` of what the body leaves in the output block is the normalised projection of row `p` of the
    two feature blocks against the two weight blocks and the bias block: every access spans its whole block, so
    the stored payload is read at the blocks themselves. -/
theorem out0_5_apply (x0 : Vec Ideal S2000x768 .f32) (x1 : Vec Ideal S2000x128 .f32) (x2 : Vec Ideal S768x64 .f32)
    (x3 : Vec Ideal S128x64 .f32) (x4 : Vec Ideal S1x64 .f32) (p : Fin 2000) (q : Fin 64) :
    out0_5 (F := Ideal) x0 x1 x2 x3 x4 (ix2 p q)
      = projSpec (fun k => x0 (ix2 p k)) (fun k => x1 (ix2 p k)) (fun k j => x2 (ix2 k j)) (fun k j => x3 (ix2 k j))
          (fun j => x4 (ix2 0 j)) q := by
  unfold out0_5
  rw [View.canon_unit_zero origin2]
  simp only [View.ld_unit_zero (S := S2000x768) origin2, View.ld_unit_zero (S := S2000x128) origin2,
    View.ld_unit_zero (S := S768x64) origin2, View.ld_unit_zero (S := S128x64) origin2,
    View.ld_unit_zero (S := S1x64) origin2]
  exact k0_pay1_apply x0 x1 x2 x3 x4 p q

/-! ## The whole array -/

/-- The projected features as one function of the whole arrays: entry `(r, q)` is `projSpec` of row `r` of the two
    feature matrices, the two weight slices and the bias row, at column `q`. -/
abbrev proj0 (a1 : S30000x768.Idx → Elt Ideal .f32) (a2 : S30000x128.Idx → Elt Ideal .f32) (w0 : S768x64.Idx → Elt Ideal .f32)
    (w1 : S128x64.Idx → Elt Ideal .f32) (b : S1x64.Idx → Elt Ideal .f32) : S30000x64.Idx → Elt Ideal .f32 := fun i =>
  projSpec (fun k => a1 (ix2 (i 0) k)) (fun k => a2 (ix2 (i 0) k)) (fun k j => w0 (ix2 k j)) (fun k j => w1 (ix2 k j))
    (fun j => b (ix2 0 j)) (i 1)

/-- The block indices, decided over the fifteen grid points: the two feature windows move down the rows with the
    output window and never sideways; the weight and bias windows stay at block zero; the output's row block is one
    of the fifteen. -/
theorem index_facts0 : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 14 ∧ win0_5.index t (1 : Fin 2) = 0 :=
  (by decide +kernel : ∀ t : Fin grid0.N, _)

/-- Every one of the fifteen row blocks is some grid point's. -/
theorem index_onto0 : ∀ q0 : Fin 15, ∃ t : Fin cfg0.N, win0_5.index t = ![q0.val, 0] :=
  (by decide +kernel : ∀ q0 : Fin 15, ∃ t : Fin grid0.N, win0_5.index t = ![q0.val, 0])

variable (V : (c : Dev nD) → (b : Ref sig .tc) → Buf (Elt Ideal) ((c : Thread nD τ).loc b))

/-- What grid point `t` writes back is block `t` of `proj0` of the arrays as the region finds them. -/
theorem flushed0_5_eq (c : Dev nD) (t : Fin cfg0.N) :
    (dat0 (F := Ideal) V c).flushed 5 t
      = ((cfg0.win 5).blk t).view.read (Elt Ideal) (proj0 (V c main_arg1) (V c main_arg2) (V c main_v0) (V c main_v1) (V c main_v2)) := by
  show (cfg0.win 5).cut (grid0.coords t) ((dat0 (F := Ideal) V c).after 5 t) = _
  rw [after0_5]
  obtain ⟨e00, e01, e10, e11, e20, e21, e30, e31, e40, e41, -, e51⟩ := index_facts0 t
  funext j
  obtain ⟨p, q, rfl⟩ : ∃ (p : Fin 2000) (q : Fin 64), j = ix2 p q := ⟨j 0, j 1, eq_ix2 j⟩
  refine (out0_5_apply _ _ _ _ _ p q).trans ?_
  show projSpec (fun k => V c main_arg1 (((cfg0.win 0).blk t).view.emb (ix2 p k)))
      (fun k => V c main_arg2 (((cfg0.win 1).blk t).view.emb (ix2 p k)))
      (fun k j => V c main_v0 (((cfg0.win 2).blk t).view.emb (ix2 k j)))
      (fun k j => V c main_v1 (((cfg0.win 3).blk t).view.emb (ix2 k j)))
      (fun j => V c main_v2 (((cfg0.win 4).blk t).view.emb (ix2 0 j))) q
    = projSpec (fun k => V c main_arg1 (ix2 ((((cfg0.win 5).blk t).view.emb (ix2 p q)) 0) k))
      (fun k => V c main_arg2 (ix2 ((((cfg0.win 5).blk t).view.emb (ix2 p q)) 0) k))
      (fun k j => V c main_v0 (ix2 k j)) (fun k j => V c main_v1 (ix2 k j)) (fun j => V c main_v2 (ix2 0 j))
      ((((cfg0.win 5).blk t).view.emb (ix2 p q)) 1)
  have h0 : ∀ k : Fin 768, ((cfg0.win 0).blk t).view.emb (ix2 p k) = ix2 ((((cfg0.win 5).blk t).view.emb (ix2 p q)) 0) k := fun k => by
    funext a; apply Fin.ext
    match a with
    | ⟨0, _⟩ => show win0_0.index t (0 : Fin 2) * 2000 + 1 * p.val = win0_5.index t (0 : Fin 2) * 2000 + 1 * p.val; omega
    | ⟨1, _⟩ => show win0_0.index t (1 : Fin 2) * 768 + 1 * k.val = k.val; omega
  have h1 : ∀ k : Fin 128, ((cfg0.win 1).blk t).view.emb (ix2 p k) = ix2 ((((cfg0.win 5).blk t).view.emb (ix2 p q)) 0) k := fun k => by
    funext a; apply Fin.ext
    match a with
    | ⟨0, _⟩ => show win0_1.index t (0 : Fin 2) * 2000 + 1 * p.val = win0_5.index t (0 : Fin 2) * 2000 + 1 * p.val; omega
    | ⟨1, _⟩ => show win0_1.index t (1 : Fin 2) * 128 + 1 * k.val = k.val; omega
  have h2 : ∀ (k : Fin 768) (j : Fin 64), ((cfg0.win 2).blk t).view.emb (ix2 k j) = ix2 k j := fun k j => by
    funext a; apply Fin.ext
    match a with
    | ⟨0, _⟩ => show win0_2.index t (0 : Fin 2) * 768 + 1 * k.val = k.val; omega
    | ⟨1, _⟩ => show win0_2.index t (1 : Fin 2) * 64 + 1 * j.val = j.val; omega
  have h3 : ∀ (k : Fin 128) (j : Fin 64), ((cfg0.win 3).blk t).view.emb (ix2 k j) = ix2 k j := fun k j => by
    funext a; apply Fin.ext
    match a with
    | ⟨0, _⟩ => show win0_3.index t (0 : Fin 2) * 128 + 1 * k.val = k.val; omega
    | ⟨1, _⟩ => show win0_3.index t (1 : Fin 2) * 64 + 1 * j.val = j.val; omega
  have h4 : ∀ j : Fin 64, ((cfg0.win 4).blk t).view.emb (ix2 (0 : Fin 1) j) = ix2 (0 : Fin 1) j := fun j => by
    funext a; apply Fin.ext
    match a with
    | ⟨0, _⟩ => show win0_4.index t (0 : Fin 2) * 1 + 1 * 0 = 0; omega
    | ⟨1, _⟩ => show win0_4.index t (1 : Fin 2) * 64 + 1 * j.val = j.val; omega
  have h5 : (((cfg0.win 5).blk t).view.emb (ix2 p q)) 1 = q := by
    apply Fin.ext
    show win0_5.index t (1 : Fin 2) * 64 + 1 * q.val = q.val; omega
  simp only [h0, h1, h2, h3, h4, h5] <;> rfl

/-- An index of the output array lies in point `t`'s block iff each coordinate lies in the block's range. -/
theorem mem_blk0_5 (t : Fin cfg0.N) (i : S30000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v3).slice (win0_5.rect t)).set ↔ _
  rw [View.set_slice_whole, Rect.mem_set_unit]
  exact Iff.rfl

/-- The fifteen output blocks cover the array: row `r` lies in the block of the point whose row block is `r / 2000`,
    and every point writes its block back. -/
theorem cover0_out (i : S30000x64.Idx) :
    ∃ t : Fin cfg0.N, (cfg0.win 5).flush t = true ∧ i ∈ ((cfg0.win 5).blk t).view.set := by
  have hi0 : (i 0).val < 30000 := (i 0).isLt
  have hi1 : (i 1).val < 64 := (i 1).isLt
  obtain ⟨t, ht⟩ := index_onto0 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk0_5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 64 ≤ (i 1).val ∧ (i 1).val < win0_5.index t (1 : Fin 2) * 64 + 64; omega

/-- The output array after the region: `proj0` of the arrays as the region found them. -/
theorem arr0_final (c : Dev nD) :
    (dat0 (F := Ideal) V c).arrAt 5 cfg0.N = proj0 (V c main_arg1) (V c main_arg2) (V c main_v0) (V c main_v1) (V c main_v2) :=
  (dat0 (F := Ideal) V c).arrAt_eq_of_cover 5 (proj0 (V c main_arg1) (V c main_arg2) (V c main_v0) (V c main_v1) (V c main_v2))
    (fun t _ => flushed0_5_eq V c t) cover0_out

/-- Entry `(r, q)` of the output array after the region: the normalised projection of row `r`. -/
theorem arr0_out (V : (c : Dev nD) → (b : Ref sig .tc) → Buf (Elt Ideal) ((c : Thread nD τ).loc b)) (c : Dev nD) (r : Fin 30000) (q : Fin 64) :
    (dat0 (F := Ideal) V c).arrAt 5 cfg0.N (ValueIdx.ix2 r q)
      = projSpec (fun k => V c main_arg1 (ValueIdx.ix2 r k)) (fun k => V c main_arg2 (ValueIdx.ix2 r k))
          (fun k j => V c main_v0 (ValueIdx.ix2 k j)) (fun k j => V c main_v1 (ValueIdx.ix2 k j))
          (fun j => V c main_v2 (ValueIdx.ix2 0 j)) q :=
  congrFun (arr0_final V c) (ix2 r q)

end Cert.KernelIdeal.Hand
-- ==== Proof.Math.Mean.lean ====
/-
  The layer-wise mean and the final row dot product, each as one function of plain extended reals, and the kernel's
  two payloads that compute them read at an index.

  * the mean of four layers at one position: `(l0 + l1 + l2 + l3) · ¼`. The kernel multiplies the running sum
    `((a + b) + c) + d` by the constant `0.25`; a reference that divides the same sum by `4.0` computes the same
    extended real, since dividing by a nonzero real is multiplying by its reciprocal at the infinities too;
  * the dot product of two rows of length 64: `∑ j, g j · a j`. The kernel multiplies the two row blocks pointwise,
    sums each row over its 64 lanes, and casts the resulting column to a one-lane block.

  The two constants `0.25` and `4.0` are read here once, as the reals their bit patterns denote.
-/
import proofs.«422603_j65833258713793_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx Idealize.SL.Sem
open scoped BigOperators

/-! ## The two constants -/

/-- The pattern `0x3E800000` (sign 0, exponent 125, significand 0) denotes `2⁻²`, the real `1/4`. -/
theorem ofBits_quarter : Ideal.ofBits .f32 0x3E800000#32 = (((1 : ℝ) / 4 : ℝ) : EReal) := by
  simp [Ideal.ofBits, Ideal.ieee, -EReal.coe_mul]; norm_num

/-- The pattern `0x40800000` (sign 0, exponent 129, significand 0) denotes `2²`, the real `4`. -/
theorem ofBits_four : Ideal.ofBits .f32 0x40800000#32 = ((4 : ℝ) : EReal) := by
  simp [Ideal.ofBits, Ideal.ieee, -EReal.coe_mul]; norm_num

/-! ## The specifications -/

/-- The mean of four layers at one position: their sum, taken left to right, times a quarter. -/
def meanSpec (l0 l1 l2 l3 : EReal) : EReal := (l0 + l1 + l2 + l3) * (((1 : ℝ) / 4 : ℝ) : EReal)

/-- The dot product of two rows of 64 extended reals. -/
def dotSpec (g a : Fin 64 → EReal) : EReal := ∑ j : Fin 64, g j * a j

/-- Dividing the four layers' sum, started from zero, by `4` is `meanSpec`: `0 + x = x`, and a quotient by the nonzero
    real `4` is the product with `1/4`, whatever extended real the sum is. -/
theorem div_four_eq_meanSpec (l0 l1 l2 l3 : EReal) :
    Ideal.div (0 + (l0 + l1 + l2 + l3)) ((4 : ℝ) : EReal) = meanSpec l0 l1 l2 l3 := by
  rw [zero_add, Ideal.div_coe (by norm_num : (4 : ℝ) ≠ 0)]
  rfl

/-! ## The mean kernel's payload at a position -/

/-- The stored block of the mean kernel at `(p, q)`: the four loaded blocks there, summed left to right, times `0.25`. -/
theorem k1_pay1_apply (a b c d : Vec Ideal S4000x64 .f32) (p : Fin 4000) (q : Fin 64) :
    k1_pay1 (F := Ideal) a b c d (ix2 p q)
      = meanSpec (a (ix2 p q)) (b (ix2 p q)) (c (ix2 p q)) (d (ix2 p q)) := by
  unfold k1_pay1
  simp only [shapeCast_self]
  show (a (ix2 p q) + b (ix2 p q) + c (ix2 p q) + d (ix2 p q)) * Ideal.ofBits .f32 0x3E800000#32 = _
  rw [ofBits_quarter]
  rfl

/-! ## The dot kernel's last payload at a row -/

/-- The index a lane sum of a `[4096, 64]` block reads at row `b`, lane `k`, is `(b, k)`. -/
theorem lift_row (b : Fin 4096) (k : Fin 64) :
    reduces_S4096x64_S4096.lift (ix1 b) k = (ix2 b k : S4096x64.Idx) :=
  funext fun c => Fin.ext (match c with | ⟨0, _⟩ => rfl | ⟨1, _⟩ => rfl)

/-- The column `[4096]` cast to `[4096, 1]` reads, at `(b, 0)`, the column at `b`: both have row-major position `b`. -/
theorem cast_col_apply (x : S4096.Idx → EReal) (b : Fin 4096) :
    shapeCast S4096x1 x shapeCasts_S4096_S4096x1 (ix2 b (0 : Fin 1)) = x (ix1 b) :=
  shapeCast_apply x shapeCasts_S4096_S4096x1 _ _ (by
    rw [Shape.rowMajor_val_one, Shape.rowMajor_val_two]
    show b.val = b.val * 1 + 0
    omega)

/-- The stored column of the dot kernel at row `b`: the sum over the 64 lanes of the two gathered rows' products. -/
theorem k3_pay3_apply (g a : Vec Ideal S4096x64 .f32) (b : Fin 4096) :
    k3_pay3 (F := Ideal) g a (ix2 b (0 : Fin 1))
      = dotSpec (fun j => g (ix2 b j)) (fun j => a (ix2 b j)) := by
  unfold k3_pay3
  simp only [shapeCast_self]
  rw [cast_col_apply]
  refine (Ideal.multiReduction_add_single (mulf g a) _ reduces_S4096x64_S4096 _ _ (ix1 b)).trans ?_
  unfold dotSpec
  refine Finset.sum_congr rfl fun k _ => ?_
  exact congrArg (fun i : S4096x64.Idx => g i * a i) (lift_row b k)

end Cert.KernelIdeal.Hand

end
-- ==== Proof.KI.Val1.lean ====
/- Region 1 of @main, the layer-mean call: from the blocks it writes back to the whole pooled array, at the
   ideal reals.

   The call's 20 tiles write the pooled array 4000 rows at a time; tile t writes rows 4000 t .. 4000 t + 3999 and
   reads the same rows of each of the four layers. Entry (p, q) of the block tile t writes is the mean of the four
   layer blocks at (p, q), and those are the layers at row 4000 t + p, column q. So every tile writes a block of
   ONE function of the whole arrays: at (r, q), the mean of the four layers at (r, q). The 20 blocks fill all
   80000 rows (row r lies in tile r / 4000), so when the region has run the pooled array is that function. -/
import proofs.«422603_j65833258713793_2_alg».proof.Proof.KI.Reg1
import proofs.«422603_j65833258713793_2_alg».proof.Proof.Math.Mean
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The pooled array as one function of the four layers -/

theorem origin2 : (![0, 0] : Fin 2 → Nat) = fun _ => 0 := funext fun a => by fin_cases a <;> rfl

/-- The mean of the four layers, position by position. -/
def pooled (a0 a1 a2 a3 : S80000x64.Idx → EReal) : S80000x64.Idx → EReal :=
  fun i => meanSpec (a0 i) (a1 i) (a2 i) (a3 i)

/-- The stored block at ANY position j of a 4000x64 block is the mean of the four loaded blocks at j: j is the pair
    of its two coordinates. -/
theorem k1_pay1_at (x0 x1 x2 x3 : Vec Ideal S4000x64 .f32) (j : S4000x64.Idx) :
    k1_pay1 (F := Ideal) x0 x1 x2 x3 j = meanSpec (x0 j) (x1 j) (x2 j) (x3 j) := by
  have key : ∀ i : S4000x64.Idx, j = i →
      k1_pay1 (F := Ideal) x0 x1 x2 x3 i = meanSpec (x0 i) (x1 i) (x2 i) (x3 i) →
      k1_pay1 (F := Ideal) x0 x1 x2 x3 j = meanSpec (x0 j) (x1 j) (x2 j) (x3 j) := by
    intro i e h; subst e; exact h
  exact key _ (eq_ix2 j) (k1_pay1_apply x0 x1 x2 x3 (j 0) (j 1))

/-! ## The tiles -/

/-- At every tile the four layer windows sit on the same block of rows as the pooled window, which is block t of
    rows and the only block of columns. -/
theorem tile_rows : ∀ t : Fin cfg1.N,
    win1_0.index t (0 : Fin 2) = win1_4.index t (0 : Fin 2) ∧ win1_0.index t (1 : Fin 2) = win1_4.index t (1 : Fin 2)
    ∧ win1_1.index t (0 : Fin 2) = win1_4.index t (0 : Fin 2) ∧ win1_1.index t (1 : Fin 2) = win1_4.index t (1 : Fin 2)
    ∧ win1_2.index t (0 : Fin 2) = win1_4.index t (0 : Fin 2) ∧ win1_2.index t (1 : Fin 2) = win1_4.index t (1 : Fin 2)
    ∧ win1_3.index t (0 : Fin 2) = win1_4.index t (0 : Fin 2) ∧ win1_3.index t (1 : Fin 2) = win1_4.index t (1 : Fin 2)
    ∧ win1_4.index t (0 : Fin 2) ≤ 19 ∧ win1_4.index t (1 : Fin 2) = 0 :=
  (by decide +kernel : ∀ t : Fin grid1.N, _)

/-- Each of the 20 blocks of rows is some tile's. -/
theorem tile_onto : ∀ b : Fin 20, ∃ t : Fin cfg1.N, win1_4.index t (0 : Fin 2) = b.val ∧ win1_4.index t (1 : Fin 2) = 0 :=
  (by decide +kernel : ∀ b : Fin 20, ∃ t : Fin grid1.N, win1_4.index t (0 : Fin 2) = b.val ∧ win1_4.index t (1 : Fin 2) = 0)

/-- What tile t writes back is block t of the pooled function of the layers as the region finds them: position j
    of a layer's block at tile t and position j of the pooled window's block at tile t are the same position of
    the 80000x64 arrays, row (block of rows) * 4000 + (j 0), column (j 1). -/
theorem flushed1_4_eq (c : Dev nD) (t : Fin cfg1.N) :
    (dat1 (F := Ideal) V c).flushed 4 t
      = ((cfg1.win 4).blk t).view.read (Elt Ideal) (pooled (V c main_v4) (V c main_v46) (V c main_v59) (V c main_v72)) := by
  show (cfg1.win 4).cut (grid1.coords t) ((dat1 (F := Ideal) V c).after 4 t) = _
  rw [after1_4]
  unfold out1_4
  rw [View.canon_unit_zero origin2]
  simp only [View.ld_unit_zero (S := S4000x64) origin2]
  obtain ⟨e00, e01, e10, e11, e20, e21, e30, e31, -, -⟩ := tile_rows t
  funext j
  show k1_pay1 (F := Ideal) (iblk1 V c 0 t) (iblk1 V c 1 t) (iblk1 V c 2 t) (iblk1 V c 3 t) j
    = pooled (V c main_v4) (V c main_v46) (V c main_v59) (V c main_v72) (((cfg1.win 4).blk t).view.emb j)
  rw [k1_pay1_at]
  show meanSpec (V c main_v4 (((cfg1.win 0).blk t).view.emb j)) (V c main_v46 (((cfg1.win 1).blk t).view.emb j))
        (V c main_v59 (((cfg1.win 2).blk t).view.emb j)) (V c main_v72 (((cfg1.win 3).blk t).view.emb j))
    = meanSpec (V c main_v4 (((cfg1.win 4).blk t).view.emb j)) (V c main_v46 (((cfg1.win 4).blk t).view.emb j))
        (V c main_v59 (((cfg1.win 4).blk t).view.emb j)) (V c main_v72 (((cfg1.win 4).blk t).view.emb j))
  have h0 : ((cfg1.win 0).blk t).view.emb j = ((cfg1.win 4).blk t).view.emb j := by
    funext a; apply Fin.ext
    match a with
    | ⟨0, _⟩ => show win1_0.index t (0 : Fin 2) * 4000 + 1 * (j 0).val = win1_4.index t (0 : Fin 2) * 4000 + 1 * (j 0).val; omega
    | ⟨1, _⟩ => show win1_0.index t (1 : Fin 2) * 64 + 1 * (j 1).val = win1_4.index t (1 : Fin 2) * 64 + 1 * (j 1).val; omega
  have h1 : ((cfg1.win 1).blk t).view.emb j = ((cfg1.win 4).blk t).view.emb j := by
    funext a; apply Fin.ext
    match a with
    | ⟨0, _⟩ => show win1_1.index t (0 : Fin 2) * 4000 + 1 * (j 0).val = win1_4.index t (0 : Fin 2) * 4000 + 1 * (j 0).val; omega
    | ⟨1, _⟩ => show win1_1.index t (1 : Fin 2) * 64 + 1 * (j 1).val = win1_4.index t (1 : Fin 2) * 64 + 1 * (j 1).val; omega
  have h2 : ((cfg1.win 2).blk t).view.emb j = ((cfg1.win 4).blk t).view.emb j := by
    funext a; apply Fin.ext
    match a with
    | ⟨0, _⟩ => show win1_2.index t (0 : Fin 2) * 4000 + 1 * (j 0).val = win1_4.index t (0 : Fin 2) * 4000 + 1 * (j 0).val; omega
    | ⟨1, _⟩ => show win1_2.index t (1 : Fin 2) * 64 + 1 * (j 1).val = win1_4.index t (1 : Fin 2) * 64 + 1 * (j 1).val; omega
  have h3 : ((cfg1.win 3).blk t).view.emb j = ((cfg1.win 4).blk t).view.emb j := by
    funext a; apply Fin.ext
    match a with
    | ⟨0, _⟩ => show win1_3.index t (0 : Fin 2) * 4000 + 1 * (j 0).val = win1_4.index t (0 : Fin 2) * 4000 + 1 * (j 0).val; omega
    | ⟨1, _⟩ => show win1_3.index t (1 : Fin 2) * 64 + 1 * (j 1).val = win1_4.index t (1 : Fin 2) * 64 + 1 * (j 1).val; omega
  rw [h0, h1, h2, h3]

/-- A position of the pooled array is in tile t's block iff each coordinate is in the block's range on its axis. -/
theorem mem_blk1_4 (t : Fin cfg1.N) (i : S80000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v73).slice (win1_4.rect t)).set ↔ _
  rw [View.set_slice_whole, Rect.mem_set_unit]
  exact Iff.rfl

/-- Every position of the pooled array is written: row r by the tile whose block of rows is r / 4000. -/
theorem covered1_4 (i : S80000x64.Idx) :
    ∃ t : Fin cfg1.N, (cfg1.win 4).flush t = true ∧ i ∈ ((cfg1.win 4).blk t).view.set := by
  have hi0 : (i 0).val < 80000 := idx2_lt0 i
  have hi1 : (i 1).val < 64 := idx2_lt1 i
  obtain ⟨t, q0, q1⟩ := tile_onto ⟨(i 0).val / 4000, by omega⟩
  have q0' : win1_4.index t (0 : Fin 2) = (i 0).val / 4000 := q0
  refine ⟨t, flush1_4 t, ?_⟩
  rw [mem_blk1_4]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 64 ≤ (i 1).val ∧ (i 1).val < win1_4.index t (1 : Fin 2) * 64 + 64; omega

/-- The pooled array when the region has run: the mean of the four layers as the region found them, everywhere. -/
theorem arr1_out_eq (c : Dev nD) :
    (dat1 (F := Ideal) V c).arrAt 4 cfg1.N = pooled (V c main_v4) (V c main_v46) (V c main_v59) (V c main_v72) :=
  (dat1 (F := Ideal) V c).arrAt_eq_of_cover 4 _ (fun t _ => flushed1_4_eq V c t) covered1_4

/-- The same, at a row and a column. -/
theorem arr1_out (V : (c : Dev nD) → (b : Ref sig .tc) → Buf (Elt Ideal) ((c : Thread nD τ).loc b)) (c : Dev nD) (r : Fin 80000) (q : Fin 64) :
    (dat1 (F := Ideal) V c).arrAt 4 cfg1.N (ValueIdx.ix2 r q)
      = meanSpec (V c main_v4 (ValueIdx.ix2 r q)) (V c main_v46 (ValueIdx.ix2 r q)) (V c main_v59 (ValueIdx.ix2 r q)) (V c main_v72 (ValueIdx.ix2 r q)) :=
  congrFun (arr1_out_eq V c) (ValueIdx.ix2 r q)

end Cert.KernelIdeal.Hand

end
-- ==== Proof.Math.Gather.lean ====
/-
  A row gather done as a streamed one-hot product, read at the exact (extended-real) values.

  The two gather kernels walk a table in blocks of 1000 rows. At block t the kernel compares, for every
  batch row b and every lane k < 1000, the 32-bit word k + 1000 * t with the index word of row b,
  turns the outcome into the real 0 or 1, multiplies that [4096, 1000] matrix by the block
  [1000, 64], and adds the product to an accumulator that the first grid point zeroes.
  On the extended reals 0 * x = 0 and 1 * x = x for every x, the infinities included, so the product
  at (b, j) is the block's row r at column j when the index of row b is 1000 * t + r with r < 1000, and 0
  when the index lies in no row of the block. Over the whole grid exactly one block contributes, so
  the final accumulator holds the table's row numbered by the index; no finiteness of the table is used.
-/
import proofs.«422603_j65833258713793_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Idealize.SL.Sem
open scoped BigOperators

/-! ## The specification: one block's contribution, and one step of the accumulator -/

/-- The weight lane k of block t gives to a row whose index word is w: 1 when the word denotes the
    row 1000 * t + k of the table, else 0. -/
def hot (t : ℕ) (w : BitVec 32) (k : Fin 1000) : EReal :=
  if w.toNat = 1000 * t + k.val then 1 else 0

/-- What block t adds at column j to a row whose index word is w. -/
def blockTerm (t : ℕ) (w : BitVec 32) (tbl : Vec Ideal S1000x64 .f32) (j : Fin 64) : EReal :=
  ∑ k : Fin 1000, hot t w k * tbl (ix2 k j)

/-- A block that holds the indexed row contributes that row. -/
theorem blockTerm_hit (t : ℕ) (w : BitVec 32) (tbl : Vec Ideal S1000x64 .f32) (j : Fin 64) (r : ℕ) (hr : r < 1000)
    (hw : w.toNat = 1000 * t + r) : blockTerm t w tbl j = tbl (ix2 ⟨r, hr⟩ j) := by
  unfold blockTerm
  rw [Finset.sum_eq_single (⟨r, hr⟩ : Fin 1000)]
  · unfold hot
    rw [if_pos hw, one_mul]
  · intro k _ hk
    unfold hot
    rw [if_neg, zero_mul]
    intro h
    exact hk (Fin.ext (by have : k.val = r := by omega
                          exact this))
  · intro h
    exact absurd (Finset.mem_univ _) h

/-- A block that does not hold the indexed row contributes nothing. -/
theorem blockTerm_miss (t : ℕ) (w : BitVec 32) (tbl : Vec Ideal S1000x64 .f32) (j : Fin 64)
    (hw : ∀ k : ℕ, k < 1000 → w.toNat ≠ 1000 * t + k) : blockTerm t w tbl j = 0 := by
  unfold blockTerm
  refine Finset.sum_eq_zero fun k _ => ?_
  unfold hot
  rw [if_neg (hw k.val k.isLt), zero_mul]

/-! ## The accumulator over the blocks, as a sequence of extended reals -/

/-- A sequence that starts at the first block's term added to 0 and adds one block's term per step is,
    after step n, the indexed row once its block s has been passed and 0 before. -/
theorem fold_blocks (N : ℕ) (w : BitVec 32) (T : ℕ → Vec Ideal S1000x64 .f32) (j : Fin 64) (a : ℕ → EReal)
    (h0 : a 0 = 0 + blockTerm 0 w (T 0) j)
    (hstep : ∀ n, n + 1 < N → a (n + 1) = a n + blockTerm (n + 1) w (T (n + 1)) j)
    (s r : ℕ) (hr : r < 1000) (hw : w.toNat = 1000 * s + r) :
    ∀ n, n < N → a n = if s ≤ n then T s (ix2 ⟨r, hr⟩ j) else 0 := by
  intro n
  induction n with
  | zero =>
    intro _
    rw [h0, zero_add]
    by_cases hs : s = 0
    · subst hs
      rw [if_pos (le_refl _)]
      exact blockTerm_hit 0 w (T 0) j r hr hw
    · rw [if_neg (by omega)]
      exact blockTerm_miss 0 w (T 0) j (fun k hk => by omega)
  | succ n ih =>
    intro hn
    rw [hstep n hn, ih (by omega)]
    by_cases hlt : s ≤ n
    · rw [if_pos hlt, if_pos (by omega), blockTerm_miss (n + 1) w (T (n + 1)) j (fun k hk => by omega), add_zero]
    · rw [if_neg hlt, zero_add]
      by_cases hs : s = n + 1
      · subst hs
        rw [if_pos (le_refl _)]
        exact blockTerm_hit (n + 1) w (T (n + 1)) j r hr hw
      · rw [if_neg (by omega)]
        exact blockTerm_miss (n + 1) w (T (n + 1)) j (fun k hk => by omega)

/-! ## The product's operand indices -/

/-- The left operand's row is the output's row. -/
theorem dotL_row (y : S4096x64.Idx) (q : dot_S4096x1000_S1000x64_S4096x64_1_0_0_1_n_n.contr.Idx) :
    (dot_S4096x1000_S1000x64_S4096x64_1_0_0_1_n_n.lhsIdx y q 0).val = (y 0).val := by
  unfold DotDims.lhsIdx
  rw [dif_neg (show ¬(0 : Fin S4096x1000.rank) ∈ dot_S4096x1000_S1000x64_S4096x64_1_0_0_1_n_n.lhsBatch by decide),
    dif_pos (show (0 : Fin S4096x1000.rank) ∈ dot_S4096x1000_S1000x64_S4096x64_1_0_0_1_n_n.lhsNonContracting by decide)]
  rfl

/-- The left operand's column is the contraction coordinate. -/
theorem dotL_col (y : S4096x64.Idx) (q : dot_S4096x1000_S1000x64_S4096x64_1_0_0_1_n_n.contr.Idx) :
    (dot_S4096x1000_S1000x64_S4096x64_1_0_0_1_n_n.lhsIdx y q 1).val = (q ⟨0, by decide⟩).val :=
  dot_S4096x1000_S1000x64_S4096x64_1_0_0_1_n_n.lhsIdx_val_of_single rfl y q

/-- The right operand's row is the contraction coordinate. -/
theorem dotR_row (y : S4096x64.Idx) (q : dot_S4096x1000_S1000x64_S4096x64_1_0_0_1_n_n.contr.Idx) :
    (dot_S4096x1000_S1000x64_S4096x64_1_0_0_1_n_n.rhsIdx y q 0).val = (q ⟨0, by decide⟩).val :=
  dot_S4096x1000_S1000x64_S4096x64_1_0_0_1_n_n.rhsIdx_val_of_single rfl y q

/-- The right operand's column is the output's column. -/
theorem dotR_col (y : S4096x64.Idx) (q : dot_S4096x1000_S1000x64_S4096x64_1_0_0_1_n_n.contr.Idx) :
    (dot_S4096x1000_S1000x64_S4096x64_1_0_0_1_n_n.rhsIdx y q 1).val = (y 1).val := by
  unfold DotDims.rhsIdx
  rw [dif_neg (show ¬(1 : Fin S1000x64.rank) ∈ dot_S4096x1000_S1000x64_S4096x64_1_0_0_1_n_n.rhsBatch by decide),
    dif_pos (show (1 : Fin S1000x64.rank) ∈ dot_S4096x1000_S1000x64_S4096x64_1_0_0_1_n_n.rhsNonContracting by decide)]
  rfl

/-- The product into a zero accumulator, at (b, j): the sum over the 1000 lanes. -/
theorem onehot_matmul_apply (prec : Option ContractPrecision) (L : FVec Ideal S4096x1000 .f32) (R : FVec Ideal S1000x64 .f32)
    (b : Fin 4096) (j : Fin 64) :
    matmul dot_S4096x1000_S1000x64_S4096x64_1_0_0_1_n_n prec L R (constant S4096x64 .f32 0x00000000#32) (ix2 b j)
      = ∑ k : Fin 1000, L (ix2 b k) * R (ix2 k j) := by
  simp only [matmul]
  rw [Ideal.matmul_constant_zero_apply,
    ← Equiv.sum_comp (contrEquiv1 dot_S4096x1000_S1000x64_S4096x64_1_0_0_1_n_n 1000 rfl rfl).symm]
  refine Finset.sum_congr rfl fun k _ => ?_
  have hk := contrEquiv1_symm_val dot_S4096x1000_S1000x64_S4096x64_1_0_0_1_n_n 1000 rfl rfl k
  have el : dot_S4096x1000_S1000x64_S4096x64_1_0_0_1_n_n.lhsIdx (ix2 b j)
      ((contrEquiv1 dot_S4096x1000_S1000x64_S4096x64_1_0_0_1_n_n 1000 rfl rfl).symm k) = ix2 b k :=
    funext fun a => Fin.ext (by
      match a with
      | ⟨0, _⟩ => exact dotL_row _ _
      | ⟨1, _⟩ => exact (dotL_col _ _).trans hk)
  have er : dot_S4096x1000_S1000x64_S4096x64_1_0_0_1_n_n.rhsIdx (ix2 b j)
      ((contrEquiv1 dot_S4096x1000_S1000x64_S4096x64_1_0_0_1_n_n 1000 rfl rfl).symm k) = ix2 k j :=
    funext fun a => Fin.ext (by
      match a with
      | ⟨0, _⟩ => exact (dotR_row _ _).trans hk
      | ⟨1, _⟩ => exact dotR_col _ _)
  rw [el, er]

/-! ## The one-hot matrix at an element -/

/-- The row number of lane k in block t, as a 32-bit word: no wrap since 1000 * t + k < 2 ^ 32 for t < 50. -/
theorem rowWord_toNat (t : ℕ) (ht : t < 50) (k : Fin 1000) :
    (IntOp.addi (BitVec.ofNat 32 k.val) (Scalar.muli (BitVec.ofNat 32 t) 1000#32)).toNat = 1000 * t + k.val := by
  have hk := k.isLt
  simp only [IntOp.addi, Scalar.muli, IntOp.muli, BitVec.toNat_add, BitVec.toNat_mul, BitVec.toNat_ofNat]
  omega

/-- Comparing, widening and converting: the real 1 where the two words agree, else the real 0. -/
theorem onehot_word (x y : BitVec 32) :
    FloatOps.sitofp (F := Ideal) .f32 ((IntOp.cmpi .eq x y).setWidth 32) = if y.toNat = x.toNat then (1 : EReal) else 0 := by
  by_cases h : x = y
  · subst h
    rw [if_pos rfl]
    have : IntOp.cmpi .eq x x = 1#1 := by simp [IntOp.cmpi]
    rw [this]
    show (((1#1 : BitVec 1).setWidth 32).toInt : ℝ) = (1 : EReal)
    have : ((1#1 : BitVec 1).setWidth 32).toInt = 1 := by decide
    rw [this]; simp
  · have hne : ¬ y.toNat = x.toNat := fun e => h (BitVec.eq_of_toNat_eq e.symm)
    rw [if_neg hne]
    have : IntOp.cmpi .eq x y = 0#1 := by
      simp only [IntOp.cmpi, beq_eq_false_iff_ne.mpr h, BitVec.ofBool_false]
      rfl
    rw [this]
    show (((0#1 : BitVec 1).setWidth 32).toInt : ℝ) = (0 : EReal)
    have : ((0#1 : BitVec 1).setWidth 32).toInt = 0 := by decide
    rw [this]; simp

/-- The one-hot matrix of block t at (b, k): 1 when the index word of row b denotes row 1000 * t + k. -/
theorem onehot_apply (t : ℕ) (ht : t < 50) (idx : Vec Ideal S4096x1 .i32) (b : Fin 4096) (k : Fin 1000) :
    (sitofp .f32 (extui 32 (cmpi .eq
        (addi (iota .tc S4096x1000 32 [1] iota_S4096x1000_d1_w32)
          (broadcast S4096x1000 (Scalar.muli (BitVec.ofNat 32 t) 1000#32)))
        (broadcastTo S4096x1000 idx broadcasts_S4096x1_S4096x1000))
        natLt_1_32) : FVec Ideal S4096x1000 .f32) (ix2 b k)
      = hot t (idx (ix2 b 0)) k := by
  have hb : broadcastTo S4096x1000 idx broadcasts_S4096x1_S4096x1000 (ix2 b k) = idx (ix2 b 0) :=
    broadcastTo_apply idx broadcasts_S4096x1_S4096x1000 (ix2 b k) (ix2 b 0) (fun a => by
      match a with
      | ⟨0, _⟩ => show b.val = if (4096 : ℕ) = 1 then 0 else b.val; rw [if_neg (by decide)]
      | ⟨1, _⟩ => show (0 : ℕ) = if (1 : ℕ) = 1 then 0 else k.val; rw [if_pos rfl])
  have hi : iota .tc S4096x1000 32 [1] iota_S4096x1000_d1_w32 (ix2 b k) = BitVec.ofNat 32 k.val :=
    iota_single_apply .tc S4096x1000 32 1 iota_S4096x1000_d1_w32 (ix2 b k)
  show FloatOps.sitofp (F := Ideal) .f32 ((IntOp.cmpi .eq
      (IntOp.addi (iota .tc S4096x1000 32 [1] iota_S4096x1000_d1_w32 (ix2 b k)) (Scalar.muli (BitVec.ofNat 32 t) 1000#32))
      (broadcastTo S4096x1000 idx broadcasts_S4096x1_S4096x1000 (ix2 b k))).setWidth 32) = _
  rw [hb, hi, onehot_word, rowWord_toNat t ht k]
  rfl

/-! ## The payloads of the user-row gather -/

/-- The first grid point's store: the zero array. -/
theorem k2_pay1_apply (y : S4096x64.Idx) : k2_pay1 (F := Ideal) y = 0 := by
  unfold k2_pay1
  rw [shapeCast_self]
  exact Ideal.ofBits_zero_f32

/-- One grid point's store at (b, j): the accumulator plus the block's term for row b's index word. -/
theorem k2_pay2_apply (i : grid2.Coords) (idx : Vec Ideal S4096x1 .i32) (tbl : Vec Ideal S1000x64 .f32)
    (acc : Vec Ideal S4096x64 .f32) (b : Fin 4096) (j : Fin 64) :
    k2_pay2 (F := Ideal) i idx tbl acc (ix2 b j)
      = acc (ix2 b j) + blockTerm (i 0).val (idx (ix2 b 0)) tbl j := by
  have ht : (i 0).val < 50 := (i 0).isLt
  unfold k2_pay2
  simp only [shapeCast_self]
  rw [addf_apply, onehot_matmul_apply]
  unfold blockTerm
  congr 1
  refine Finset.sum_congr rfl fun k _ => ?_
  rw [onehot_apply (i 0).val ht idx b k]

/-- THE FOLD of the user-row gather: the accumulator after the fiftieth block is the table's indexed row. -/
theorem gather_fold2 (idx : Vec Ideal S4096x1 .i32) (T : ℕ → Vec Ideal S1000x64 .f32) (i : ℕ → grid2.Coords)
    (hi : ∀ n, n < 50 → ((i n) 0).val = n) (acc : ℕ → Vec Ideal S4096x64 .f32)
    (h0 : acc 0 = k2_pay2 (F := Ideal) (i 0) idx (T 0) (k2_pay1 (F := Ideal)))
    (hstep : ∀ n, n + 1 < 50 → acc (n + 1) = k2_pay2 (F := Ideal) (i (n + 1)) idx (T (n + 1)) (acc n))
    (b : Fin 4096) (j : Fin 64) (s r : ℕ) (hs : s < 50) (hr : r < 1000)
    (hidx : (idx (ix2 b 0) : BitVec 32).toNat = 1000 * s + r) :
    acc 49 (ix2 b j) = T s (ix2 ⟨r, hr⟩ j) := by
  have h := fold_blocks 50 (idx (ix2 b 0)) T j (fun n => acc n (ix2 b j))
    (by show acc 0 (ix2 b j) = _
        rw [h0, k2_pay2_apply, k2_pay1_apply, hi 0 (by omega)])
    (fun n hn => by
      show acc (n + 1) (ix2 b j) = acc n (ix2 b j) + _
      rw [hstep n hn, k2_pay2_apply, hi (n + 1) hn])
    s r hr hidx 49 (by omega)
  rw [if_pos (by omega)] at h
  exact h

/-! ## The payloads of the item-row gather: the same text over a grid of thirty blocks -/

/-- The first grid point's store: the zero array. -/
theorem k3_pay1_apply (y : S4096x64.Idx) : k3_pay1 (F := Ideal) y = 0 := by
  unfold k3_pay1
  rw [shapeCast_self]
  exact Ideal.ofBits_zero_f32

/-- One grid point's store at (b, j): the accumulator plus the block's term for row b's index word. -/
theorem k3_pay2_apply (i : grid3.Coords) (idx : Vec Ideal S4096x1 .i32) (tbl : Vec Ideal S1000x64 .f32)
    (acc : Vec Ideal S4096x64 .f32) (b : Fin 4096) (j : Fin 64) :
    k3_pay2 (F := Ideal) i idx tbl acc (ix2 b j)
      = acc (ix2 b j) + blockTerm (i 0).val (idx (ix2 b 0)) tbl j := by
  have ht : (i 0).val < 50 := lt_trans (i 0).isLt (by decide)
  unfold k3_pay2
  simp only [shapeCast_self]
  rw [addf_apply, onehot_matmul_apply]
  unfold blockTerm
  congr 1
  refine Finset.sum_congr rfl fun k _ => ?_
  rw [onehot_apply (i 0).val ht idx b k]

/-- THE FOLD of the item-row gather: the accumulator after the thirtieth block is the table's indexed row. -/
theorem gather_fold3 (idx : Vec Ideal S4096x1 .i32) (T : ℕ → Vec Ideal S1000x64 .f32) (i : ℕ → grid3.Coords)
    (hi : ∀ n, n < 30 → ((i n) 0).val = n) (acc : ℕ → Vec Ideal S4096x64 .f32)
    (h0 : acc 0 = k3_pay2 (F := Ideal) (i 0) idx (T 0) (k3_pay1 (F := Ideal)))
    (hstep : ∀ n, n + 1 < 30 → acc (n + 1) = k3_pay2 (F := Ideal) (i (n + 1)) idx (T (n + 1)) (acc n))
    (b : Fin 4096) (j : Fin 64) (s r : ℕ) (hs : s < 30) (hr : r < 1000)
    (hidx : (idx (ix2 b 0) : BitVec 32).toNat = 1000 * s + r) :
    acc 29 (ix2 b j) = T s (ix2 ⟨r, hr⟩ j) := by
  have h := fold_blocks 30 (idx (ix2 b 0)) T j (fun n => acc n (ix2 b j))
    (by show acc 0 (ix2 b j) = _
        rw [h0, k3_pay2_apply, k3_pay1_apply, hi 0 (by omega)])
    (fun n hn => by
      show acc (n + 1) (ix2 b j) = acc n (ix2 b j) + _
      rw [hstep n hn, k3_pay2_apply, hi (n + 1) hn])
    s r hr hidx 29 (by omega)
  rw [if_pos (by omega)] at h
  exact h

end Cert.KernelIdeal.Hand
-- ==== Proof.KI.Val2.lean ====
import proofs.«422603_j65833258713793_2_alg».proof.Proof.KI.Reg2
import proofs.«422603_j65833258713793_2_alg».proof.Proof.Math.Gather
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! # Region 2, from blocks to the array: the gathered user rows

When the third pipeline has run, its output array (4096 rows of 64) holds in row b the table's row numbered by the
index word of row b of the index column, for every index inside the table; both the table and the index column as the
region found them.

The argument. The output window's block is the whole array at every grid point, so it is written back once, after
the last point, and then holds what the last body left: the running sum after fifty blocks. The index column's
block is the whole column at every point, and the table's block at point s is rows 1000 s … 1000 s + 999. The
running sum starts from the zero fill and adds one block's one-hot product per point, so the fold theorem of the one-hot
gather applies: for an index 1000 s + r the sum ends at row r of block s, which is row 1000 s + r of the table. -/

/-- The one coordinate of grid point t is t. -/
theorem coord2_val : ∀ t : Fin cfg2.N, ((grid2.coords t) 0).val = t.val :=
  (by decide +kernel : ∀ t : Fin grid2.N, ((grid2.coords t) 0).val = t.val)

/-- The block indices, decided over the fifty grid points: the table's window moves down one block of rows per point;
    the index column's and the output's stay at block zero. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The table's block at point t, row r, column j: row 1000 t + r of the table. -/
theorem iblk2_0_apply (c : Dev nD) (t : Fin cfg2.N) (r : Fin 1000) (j : Fin 64) :
    iblk2 V c 0 t (ix2 r j)
      = V c main_v74 (ix2 ⟨1000 * t.val + r.val, by have := t.isLt; have : cfg2.N = 50 := N_2; have := r.isLt; omega⟩ j) := by
  obtain ⟨e00, e01, -, -, -, -⟩ := index_facts2 t
  show V c main_v74 (((cfg2.win 0).blk t).view.emb (ix2 r j)) = _
  congr 1
  funext a; apply Fin.ext
  match a with
  | ⟨0, _⟩ => show win2_0.index t (0 : Fin 2) * 1000 + 1 * r.val = 1000 * t.val + r.val; omega
  | ⟨1, _⟩ => show win2_0.index t (1 : Fin 2) * 64 + 1 * j.val = j.val; omega

/-- The index column's block at every point is the whole column. -/
theorem iblk2_1_eq (c : Dev nD) (t : Fin cfg2.N) : iblk2 V c 1 t = fun y => V c main_v76 y := by
  obtain ⟨-, -, e10, e11, -, -⟩ := index_facts2 t
  funext y
  obtain ⟨p, q, rfl⟩ : ∃ (p : Fin 4096) (q : Fin 1), y = ix2 p q := ⟨y 0, y 1, eq_ix2 y⟩
  show V c main_v76 (((cfg2.win 1).blk t).view.emb (ix2 p q)) = V c main_v76 (ix2 p q)
  congr 1
  funext a; apply Fin.ext
  match a with
  | ⟨0, _⟩ => show win2_1.index t (0 : Fin 2) * 4096 + 1 * p.val = p.val; omega
  | ⟨1, _⟩ => show win2_1.index t (1 : Fin 2) * 1 + 1 * q.val = q.val; omega

/-! ## The running sum as a sequence over the naturals -/

theorem lt2 {n : ℕ} (h : n < 50) : n < cfg2.N := by have : cfg2.N = 50 := N_2; omega

/-- The running sum after point n (anything past the grid). -/
def accN2 (c : Dev nD) (n : ℕ) : Vec Ideal S4096x64 .f32 :=
  if h : n < 50 then accAt2 V c n (lt2 h) else fun _ => 0

/-- The table's block at point n (anything past the grid). -/
def tblN2 (c : Dev nD) (n : ℕ) : Vec Ideal S1000x64 .f32 :=
  if h : n < 50 then iblk2 V c 0 ⟨n, lt2 h⟩ else fun _ => 0

/-- The coordinates of point n (the first point's past the grid). -/
def ptN2 (n : ℕ) : grid2.Coords :=
  if h : n < 50 then grid2.coords ⟨n, lt2 h⟩ else grid2.coords ⟨0, lt2 (by omega)⟩

/-- What the last body leaves at (b, j), for an index word inside the table: the table's row of that number. -/
theorem accLast2_apply (c : Dev nD) (b : Fin 4096) (j : Fin 64) (n : ℕ) (hn : n < 50000)
    (hidx : (V c main_v76 (ix2 b 0) : BitVec 32).toNat = n) :
    accAt2 V c 49 (lt2 (by omega)) (ix2 b j) = V c main_v74 (ix2 ⟨n, hn⟩ j) := by
  have hfold := gather_fold2 (fun y => V c main_v76 y) (tblN2 V c) ptN2
    (fun m hm => by unfold ptN2; rw [dif_pos hm]; exact coord2_val ⟨m, lt2 hm⟩)
    (accN2 V c)
    (by unfold accN2 tblN2 ptN2
        rw [dif_pos (by omega : 0 < 50), dif_pos (by omega : 0 < 50), dif_pos (by omega : 0 < 50), accAt2_zero,
          iblk2_1_eq]
        all_goals rfl)
    (fun m hm => by
      unfold accN2 tblN2 ptN2
      rw [dif_pos hm, dif_pos hm, dif_pos hm, dif_pos (by omega : m < 50), accAt2_succ, iblk2_1_eq]
      all_goals rfl)
    b j (n / 1000) (n % 1000) (by omega) (Nat.mod_lt _ (by omega))
    (by show (V c main_v76 (ix2 b 0) : BitVec 32).toNat = _
        rw [hidx]; omega)
  unfold accN2 tblN2 at hfold
  rw [dif_pos (by omega : 49 < 50), dif_pos (by omega : n / 1000 < 50)] at hfold
  rw [hfold, iblk2_0_apply]
  congr 1
  refine Shape.idx_ext₂ ?_ rfl
  show 1000 * (n / 1000) + n % 1000 = n
  omega

/-! ## The whole array -/

/-- What the last body leaves, as the output array's contents. -/
abbrev accLast2 (c : Dev nD) : S4096x64.Idx → Elt Ideal .f32 := accAt2 V c 49 (lt2 (by omega))

/-- The one write-back, after the last point, writes what the last body left. -/
theorem flushed2_2_eq (c : Dev nD) (t : Fin cfg2.N) (hf : (cfg2.win 2).flush t = true) :
    (dat2 (F := Ideal) V c).flushed 2 t = ((cfg2.win 2).blk t).view.read (Elt Ideal) (accLast2 V c) := by
  have ht : t.val = 49 := by
    have h := (flush2_2 t).mp hf
    have := t.isLt; have : cfg2.N = 50 := N_2; omega
  obtain ⟨-, -, -, -, e20, e21⟩ := index_facts2 t
  show (cfg2.win 2).cut (grid2.coords t) ((dat2 (F := Ideal) V c).after 2 t) = _
  rw [after2_2]
  obtain ⟨m, hm⟩ := t
  obtain rfl : m = 49 := ht
  funext y
  obtain ⟨p, q, rfl⟩ : ∃ (p : Fin 4096) (q : Fin 64), y = ix2 p q := ⟨y 0, y 1, eq_ix2 y⟩
  show accAt2 V c 49 _ (ix2 p q) = accAt2 V c 49 _ (((cfg2.win 2).blk ⟨49, hm⟩).view.emb (ix2 p q))
  congr 1
  funext a; apply Fin.ext
  match a with
  | ⟨0, _⟩ => show p.val = win2_2.index ⟨49, hm⟩ (0 : Fin 2) * 4096 + 1 * p.val; omega
  | ⟨1, _⟩ => show q.val = win2_2.index ⟨49, hm⟩ (1 : Fin 2) * 64 + 1 * q.val; omega

/-- An index of the output array lies in point t's block iff each coordinate lies in the block's range. -/
theorem mem_blk2_2 (t : Fin cfg2.N) (i : S4096x64.Idx) :
    i ∈ ((cfg2.win 2).blk t).view.set ↔ ∀ a : Fin 2, win2_2.index t a * S4096x64.size a ≤ (i a).val
      ∧ (i a).val < win2_2.index t a * S4096x64.size a + S4096x64.size a := by
  show i ∈ ((View.whole main_v78).slice (win2_2.rect t)).set ↔ _
  rw [View.set_slice_whole, Rect.mem_set_unit]
  exact Iff.rfl

/-- The last point's block is the whole output array. -/
theorem cover2_out (i : S4096x64.Idx) :
    ∃ t : Fin cfg2.N, (cfg2.win 2).flush t = true ∧ i ∈ ((cfg2.win 2).blk t).view.set := by
  have hi0 : (i 0).val < 4096 := (i 0).isLt
  have hi1 : (i 1).val < 64 := (i 1).isLt
  refine ⟨⟨49, lt2 (by omega)⟩, (flush2_2 _).mpr rfl, ?_⟩
  obtain ⟨-, -, -, -, e20, e21⟩ := index_facts2 ⟨49, lt2 (by omega)⟩
  rw [mem_blk2_2]
  intro a
  match a with
  | ⟨0, _⟩ => show win2_2.index ⟨49, _⟩ (0 : Fin 2) * 4096 ≤ (i 0).val ∧ (i 0).val < win2_2.index ⟨49, _⟩ (0 : Fin 2) * 4096 + 4096; omega
  | ⟨1, _⟩ => show win2_2.index ⟨49, _⟩ (1 : Fin 2) * 64 ≤ (i 1).val ∧ (i 1).val < win2_2.index ⟨49, _⟩ (1 : Fin 2) * 64 + 64; omega

/-- The output array after the region: what the last body left. -/
theorem arr2_final (c : Dev nD) : (dat2 (F := Ideal) V c).arrAt 2 cfg2.N = accLast2 V c :=
  (dat2 (F := Ideal) V c).arrAt_eq_of_cover 2 (accLast2 V c) (fun t hf => flushed2_2_eq V c t hf) cover2_out

/-- Entry (b, j) of the output array after the region, for an index word inside the table: the table's row of that
    number at column j. -/
theorem arr2_out (V : (c : Dev nD) → (b : Ref sig .tc) → Buf (Elt Ideal) ((c : Thread nD τ).loc b)) (c : Dev nD)
    (b : Fin 4096) (j : Fin 64) (n : ℕ) (hn : n < 50000)
    (hidx : (V c main_v76 (ValueIdx.ix2 b 0) : BitVec 32).toNat = n) :
    (dat2 (F := Ideal) V c).arrAt 2 cfg2.N (ValueIdx.ix2 b j) = V c main_v74 (ValueIdx.ix2 ⟨n, hn⟩ j) :=
  (congrFun (arr2_final V c) (ix2 b j)).trans (accLast2_apply V c b j n hn hidx)

end Cert.KernelIdeal.Hand
-- ==== Proof.KI.Val3.lean ====
/-
  Region 3 of @main, the last call: what its output column holds when the region has run, at the ideal reals.

  The call's thirty points walk the thirty blocks of 1000 rows of the item table; at each point the kernel adds, into a
  scratch accumulator, the one-hot selection of that block's rows by the index column, so that after the thirtieth point
  row b of the accumulator is the table's row the index column names at b. Only the last point writes the output back,
  and the output window's one block is the whole column: what it stores at row b is the sum over the 64 lanes of the
  user's row b times the accumulator's row b.
-/
import proofs.«422603_j65833258713793_2_alg».proof.Proof.KI.Reg3
import proofs.«422603_j65833258713793_2_alg».proof.Proof.Math.Gather
import proofs.«422603_j65833258713793_2_alg».proof.Proof.Math.Mean
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The grid's points and the windows' block indices -/

/-- The grid has thirty points. -/
theorem N3 : cfg3.N = 30 := N_3

/-- The last point. -/
abbrev tLast : Fin cfg3.N := ⟨29, by rw [N3]; omega⟩

/-- Point `t` of the one-axis grid has coordinate `t`. -/
theorem coord3 : ∀ t : Fin cfg3.N, ((grid3.coords t) 0).val = t.val :=
  (by decide +kernel : ∀ t : Fin grid3.N, ((grid3.coords t) 0).val = t.val)

/-- The table's window sits on block `t` of rows at point `t`; the other three windows' one block is their whole array. -/
theorem blocks3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- Only the last point writes the output back. -/
theorem flush_last (t : Fin cfg3.N) (hf : (cfg3.win 3).flush t = true) : t = tLast := by
  have h := (flush3_3 t).mp hf
  have ht : t.val < 30 := lt_of_lt_of_eq t.isLt N3
  exact Fin.ext (by show t.val = 29; omega)

theorem flush_at_last : (cfg3.win 3).flush tLast = true := (flush3_3 tLast).mpr rfl

/-! ## The blocks read off the arrays -/

/-- The index column's block, at any point, is the whole column. -/
theorem iblk3_1_eq (c : Dev nD) (t : Fin cfg3.N) : iblk3 V c 1 t = (V c main_v77 : Vec Ideal S4096x1 .i32) := by
  obtain ⟨-, -, e0, e1, -, -, -, -⟩ := blocks3 t
  funext y
  show V c main_v77 (((cfg3.win 1).blk t).view.emb y) = V c main_v77 y
  congr 1
  funext a; apply Fin.ext
  match a with
  | ⟨0, _⟩ => show win3_1.index t (0 : Fin 2) * 4096 + 1 * (y 0).val = (y 0).val; omega
  | ⟨1, _⟩ => show win3_1.index t (1 : Fin 2) * 1 + 1 * (y 1).val = (y 1).val; omega

/-- The user rows' block, at any point, is the whole array. -/
theorem iblk3_2_eq (c : Dev nD) (t : Fin cfg3.N) : iblk3 V c 2 t = (V c main_v78 : Vec Ideal S4096x64 .f32) := by
  obtain ⟨-, -, -, -, e0, e1, -, -⟩ := blocks3 t
  funext y
  show V c main_v78 (((cfg3.win 2).blk t).view.emb y) = V c main_v78 y
  congr 1
  funext a; apply Fin.ext
  match a with
  | ⟨0, _⟩ => show win3_2.index t (0 : Fin 2) * 4096 + 1 * (y 0).val = (y 0).val; omega
  | ⟨1, _⟩ => show win3_2.index t (1 : Fin 2) * 64 + 1 * (y 1).val = (y 1).val; omega

/-- The table's block at point `s`, row `r`, is the table's row `1000 s + r`. -/
theorem iblk3_0_apply (c : Dev nD) (s : ℕ) (hs : s < cfg3.N) (r : ℕ) (hr : r < 1000) (hsr : 1000 * s + r < 30000) (j : Fin 64) :
    iblk3 V c 0 ⟨s, hs⟩ (ix2 (⟨r, hr⟩ : Fin 1000) j) = V c main_v75 (ix2 (⟨1000 * s + r, hsr⟩ : Fin 30000) j) := by
  obtain ⟨e0, e1, -, -, -, -, -, -⟩ := blocks3 ⟨s, hs⟩
  show V c main_v75 (((cfg3.win 0).blk ⟨s, hs⟩).view.emb (ix2 (⟨r, hr⟩ : Fin 1000) j)) = _
  congr 1
  funext a; apply Fin.ext
  match a with
  | ⟨0, _⟩ => show win3_0.index ⟨s, hs⟩ (0 : Fin 2) * 1000 + 1 * r = 1000 * s + r; rw [e0]; show s * 1000 + 1 * r = _; omega
  | ⟨1, _⟩ => show win3_0.index ⟨s, hs⟩ (1 : Fin 2) * 64 + 1 * j.val = j.val; omega

/-! ## The accumulator after the last point -/

/-- The accumulator after the thirtieth block at row `b` is the table's row the index column names there. -/
theorem acc_last (c : Dev nD) (b : Fin 4096) (n : ℕ) (hn : n < 30000)
    (hidx : (V c main_v77 (ix2 b 0) : BitVec 32).toNat = n) (j : Fin 64) :
    accAt3 V c 29 tLast.isLt (ix2 b j) = V c main_v75 (ix2 (⟨n, hn⟩ : Fin 30000) j) := by
  have hN := N3
  have h0N : 0 < cfg3.N := by rw [hN]; omega
  -- the blocks, the coordinates and the accumulator as total functions of the point's number
  let T : ℕ → Vec Ideal S1000x64 .f32 := fun s => if h : s < cfg3.N then iblk3 V c 0 ⟨s, h⟩ else fun _ => 0
  let i : ℕ → grid3.Coords := fun m => if h : m < cfg3.N then grid3.coords ⟨m, h⟩ else grid3.coords ⟨0, h0N⟩
  let acc : ℕ → Vec Ideal S4096x64 .f32 := fun m => if h : m < cfg3.N then accAt3 V c m h else fun _ => 0
  have hs : n / 1000 < 30 := by omega
  have hr : n % 1000 < 1000 := Nat.mod_lt _ (by omega)
  have key := gather_fold3 (V c main_v77 : Vec Ideal S4096x1 .i32) T i
    (fun m hm => by
      have h : m < cfg3.N := by rw [hN]; exact hm
      show ((if h : m < cfg3.N then grid3.coords ⟨m, h⟩ else grid3.coords ⟨0, h0N⟩) 0).val = m
      rw [dif_pos h]; exact coord3 ⟨m, h⟩)
    acc
    (by
      show (if h : 0 < cfg3.N then accAt3 V c 0 h else fun _ => 0) = k3_pay2 (F := Ideal) (if h : 0 < cfg3.N then grid3.coords ⟨0, h⟩ else grid3.coords ⟨0, h0N⟩) _ (if h : 0 < cfg3.N then iblk3 V c 0 ⟨0, h⟩ else fun _ => 0) _
      rw [dif_pos h0N, dif_pos h0N, dif_pos h0N, accAt3_zero, iblk3_1_eq])
    (fun m hm => by
      have h1 : m + 1 < cfg3.N := by rw [hN]; exact hm
      have h0 : m < cfg3.N := Nat.lt_of_succ_lt h1
      show (if h : m + 1 < cfg3.N then accAt3 V c (m + 1) h else fun _ => 0)
        = k3_pay2 (F := Ideal) (if h : m + 1 < cfg3.N then grid3.coords ⟨m + 1, h⟩ else grid3.coords ⟨0, h0N⟩) _
            (if h : m + 1 < cfg3.N then iblk3 V c 0 ⟨m + 1, h⟩ else fun _ => 0) (if h : m < cfg3.N then accAt3 V c m h else fun _ => 0)
      rw [dif_pos h1, dif_pos h1, dif_pos h1, dif_pos h0, accAt3_succ, iblk3_1_eq])
    b j (n / 1000) (n % 1000) hs hr (by rw [hidx]; omega)
  have hs' : n / 1000 < cfg3.N := by rw [hN]; exact hs
  have e29 : acc 29 = accAt3 V c 29 tLast.isLt := dif_pos tLast.isLt
  have eT : T (n / 1000) = iblk3 V c 0 ⟨n / 1000, hs'⟩ := dif_pos hs'
  rw [e29, eT, iblk3_0_apply V c (n / 1000) hs' (n % 1000) hr (by omega) j] at key
  rw [key]
  congr 2
  exact Fin.ext (by show 1000 * (n / 1000) + n % 1000 = n; omega)

/-! ## The output array when the region has run -/

/-- No two distinct points both write the output back. -/
theorem flush_disj (t t' : Fin cfg3.N) (hf : (cfg3.win 3).flush t = true) (hf' : (cfg3.win 3).flush t' = true) (hne : t ≠ t') :
    Disjoint ((cfg3.win 3).blk t).view.set ((cfg3.win 3).blk t').view.set :=
  absurd ((flush_last t hf).trans (flush_last t' hf').symm) hne

/-- The output column when the region has run, at row `b`: the dot product of the user's row `b` with the table's row the
    index column names at `b`. The one write-back, at the last point, stores the whole column; there it is the lane sum of
    the user rows times the accumulator, and the accumulator's row `b` is the gathered table row. -/
theorem arr3_out (V : (c : Dev nD) → (b : Ref sig .tc) → Buf (Elt Ideal) ((c : Thread nD τ).loc b)) (c : Dev nD) (b : Fin 4096)
    (n : ℕ) (hn : n < 30000) (hidx : (V c main_v77 (ValueIdx.ix2 b 0) : BitVec 32).toNat = n) :
    (dat3 (F := Ideal) V c).arrAt 3 cfg3.N (ValueIdx.ix2 b 0)
      = dotSpec (fun j => V c main_v78 (ValueIdx.ix2 b j)) (fun j => V c main_v75 (ValueIdx.ix2 ⟨n, hn⟩ j)) := by
  have h := (dat3 (F := Ideal) V c).arrAt_emb_eq_flushed 3 flush_disj tLast flush_at_last (ix2 b (0 : Fin 1))
  have e : ((cfg3.win 3).blk tLast).view.emb (ix2 b (0 : Fin 1)) = (ix2 b (0 : Fin 1) : S4096x1.Idx) := by
    obtain ⟨-, -, -, -, -, -, e0, e1⟩ := blocks3 tLast
    funext a; apply Fin.ext
    match a with
    | ⟨0, _⟩ => show win3_3.index tLast (0 : Fin 2) * 4096 + 1 * b.val = b.val; omega
    | ⟨1, _⟩ => show win3_3.index tLast (1 : Fin 2) * 1 + 1 * 0 = 0; omega
  rw [e] at h
  refine h.trans ?_
  show (cfg3.win 3).cut (grid3.coords tLast) ((dat3 (F := Ideal) V c).after 3 tLast) (ix2 b (0 : Fin 1)) = _
  rw [after3_3]
  show k3_pay3 (F := Ideal) (iblk3 V c 2 tLast) (accAt3 V c 29 tLast.isLt) (ix2 b (0 : Fin 1)) = _
  rw [k3_pay3_apply, iblk3_2_eq]
  unfold dotSpec
  refine Finset.sum_congr rfl fun j _ => ?_
  show (_ : EReal) * accAt3 V c 29 tLast.isLt (ix2 b j) = _
  rw [acc_last V c b n hn hidx j]

end Cert.KernelIdeal.Hand

end
-- ==== Proof.KI.HostVals.lean ====
/-
  What the short host stretches of @main write, read at an index. Three of the eleven items of @main only slice or
  reshape buffers: the first cuts the projection matrix into its two row groups and turns the bias into a one-row block;
  a later one cuts the aggregated table into its two row groups and turns the two index vectors into one-lane columns;
  the last turns the one-lane column of scores into a vector. A slice read at an index is its operand at the index
  shifted by the slice's offsets; a reshape between a vector and a one-lane column, or a one-row block, keeps the value
  at the same row-major position.
-/
import proofs.«422603_j65833258713793_2_alg».proof.Proof.KI.Fold
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

variable (m : (ℓ : Loc nD τ sig) → Buf (Elt F) ℓ) (ρ : Dev nD → PrngReg)

section HostVals

open Idealize.ShloMosaic.ValueIdx

/-- The first 768 rows of the projection matrix. -/
theorem W1_v0 (c : Dev nD) (k : Fin 768) (j : Fin 64) :
    W1 m ρ c (Proc.devRef .tc main_v0) (ix2 k j)
      = W0 m ρ c (Proc.devRef .tc main_arg3) (ix2 (⟨k.val, Nat.lt_of_lt_of_le k.isLt (by decide)⟩ : Fin 896) j) := by
  have h : W1 m ρ c (Proc.devRef .tc main_v0)
      = extractStridedSlice S768x64 ![0, 0] (W0 m ρ c (Proc.devRef .tc main_arg3)) slices_S896x64_S768x64_0_0 := by
    show StableHlo.after main_part0_ops0 (W0 m ρ c) (Proc.devRef .tc main_v0) = _
    after_results
  rw [h]
  exact extractStridedSlice_apply ![0, 0] _ slices_S896x64_S768x64_0_0 (ix2 k j) (ix2 (⟨k.val, _⟩ : Fin 896) j) (fun a => match a with
    | ⟨0, _⟩ => by show k.val = 0 + k.val; omega
    | ⟨1, _⟩ => by show j.val = 0 + j.val; omega)

/-- Its last 128 rows. -/
theorem W1_v1 (c : Dev nD) (k : Fin 128) (j : Fin 64) :
    W1 m ρ c (Proc.devRef .tc main_v1) (ix2 k j)
      = W0 m ρ c (Proc.devRef .tc main_arg3) (ix2 (⟨768 + k.val, by have := k.isLt; omega⟩ : Fin 896) j) := by
  have h : W1 m ρ c (Proc.devRef .tc main_v1)
      = extractStridedSlice S128x64 ![768, 0] (W0 m ρ c (Proc.devRef .tc main_arg3)) slices_S896x64_S128x64_768_0 := by
    show StableHlo.after main_part0_ops0 (W0 m ρ c) (Proc.devRef .tc main_v1) = _
    after_results
  rw [h]
  exact extractStridedSlice_apply ![768, 0] _ slices_S896x64_S128x64_768_0 (ix2 k j) (ix2 (⟨768 + k.val, _⟩ : Fin 896) j) (fun a => match a with
    | ⟨0, _⟩ => by show 768 + k.val = 768 + k.val; rfl
    | ⟨1, _⟩ => by show j.val = 0 + j.val; omega)

/-- The bias as a one-row block. -/
theorem W1_v2 (c : Dev nD) (j : Fin 64) :
    W1 m ρ c (Proc.devRef .tc main_v2) (ix2 (0 : Fin 1) j) = W0 m ρ c (Proc.devRef .tc main_arg4) (ix1 j) := by
  have h : W1 m ρ c (Proc.devRef .tc main_v2)
      = shapeCast S1x64 (W0 m ρ c (Proc.devRef .tc main_arg4)) shapeCasts_S64_S1x64 := by
    show StableHlo.after main_part0_ops0 (W0 m ρ c) (Proc.devRef .tc main_v2) = _
    after_results
    rfl
  rw [h]
  exact shapeCast_apply _ shapeCasts_S64_S1x64 (ix2 (0 : Fin 1) j) (ix1 j)
    (by rewrite [Shape.rowMajor_val_two, Shape.rowMajor_val_one]; show j.val = 0 * 64 + j.val; omega)

/-- The stretch writes neither feature array. -/
theorem W1_keeps_arg1 (c : Dev nD) : W1 m ρ c (Proc.devRef .tc main_arg1) = W0 m ρ c (Proc.devRef .tc main_arg1) := by
  show StableHlo.after main_part0_ops0 (W0 m ρ c) (Proc.devRef .tc main_arg1) = _
  after_results
theorem W1_keeps_arg2 (c : Dev nD) : W1 m ρ c (Proc.devRef .tc main_arg2) = W0 m ρ c (Proc.devRef .tc main_arg2) := by
  show StableHlo.after main_part0_ops0 (W0 m ρ c) (Proc.devRef .tc main_arg2) = _
  after_results

/-- The first 50000 rows of the aggregated table. -/
theorem W8_v74 (c : Dev nD) (r : Fin 50000) (q : Fin 64) :
    W8 m ρ c (Proc.devRef .tc main_v74) (ix2 r q)
      = W7 m ρ c (Proc.devRef .tc main_v73) (ix2 (⟨r.val, Nat.lt_of_lt_of_le r.isLt (by decide)⟩ : Fin 80000) q) := by
  have h : W8 m ρ c (Proc.devRef .tc main_v74)
      = extractStridedSlice S50000x64 ![0, 0] (W7 m ρ c (Proc.devRef .tc main_v73)) slices_S80000x64_S50000x64_0_0 := by
    show StableHlo.after main_part1_ops1 (W7 m ρ c) (Proc.devRef .tc main_v74) = _
    after_results
  rw [h]
  exact extractStridedSlice_apply ![0, 0] _ slices_S80000x64_S50000x64_0_0 (ix2 r q) (ix2 (⟨r.val, _⟩ : Fin 80000) q) (fun a => match a with
    | ⟨0, _⟩ => by show r.val = 0 + r.val; omega
    | ⟨1, _⟩ => by show q.val = 0 + q.val; omega)

/-- Its last 30000 rows. -/
theorem W8_v75 (c : Dev nD) (r : Fin 30000) (q : Fin 64) :
    W8 m ρ c (Proc.devRef .tc main_v75) (ix2 r q)
      = W7 m ρ c (Proc.devRef .tc main_v73) (ix2 (⟨50000 + r.val, by have := r.isLt; omega⟩ : Fin 80000) q) := by
  have h : W8 m ρ c (Proc.devRef .tc main_v75)
      = extractStridedSlice S30000x64 ![50000, 0] (W7 m ρ c (Proc.devRef .tc main_v73)) slices_S80000x64_S30000x64_50000_0 := by
    show StableHlo.after main_part1_ops1 (W7 m ρ c) (Proc.devRef .tc main_v75) = _
    after_results
  rw [h]
  exact extractStridedSlice_apply ![50000, 0] _ slices_S80000x64_S30000x64_50000_0 (ix2 r q) (ix2 (⟨50000 + r.val, _⟩ : Fin 80000) q) (fun a => match a with
    | ⟨0, _⟩ => by show 50000 + r.val = 50000 + r.val; rfl
    | ⟨1, _⟩ => by show q.val = 0 + q.val; omega)

/-- The two index vectors as one-lane columns. -/
theorem W8_v76 (c : Dev nD) (b : Fin 4096) :
    W8 m ρ c (Proc.devRef .tc main_v76) (ix2 b (0 : Fin 1)) = W7 m ρ c (Proc.devRef .tc main_arg6) (ix1 b) := by
  have h : W8 m ρ c (Proc.devRef .tc main_v76)
      = shapeCast S4096x1 (W7 m ρ c (Proc.devRef .tc main_arg6)) shapeCasts_S4096_S4096x1 := by
    show StableHlo.after main_part1_ops1 (W7 m ρ c) (Proc.devRef .tc main_v76) = _
    after_results
    rfl
  rw [h]
  exact shapeCast_apply _ shapeCasts_S4096_S4096x1 (ix2 b (0 : Fin 1)) (ix1 b)
    (by rewrite [Shape.rowMajor_val_two, Shape.rowMajor_val_one]; show b.val = b.val * 1 + 0; omega)
theorem W8_v77 (c : Dev nD) (b : Fin 4096) :
    W8 m ρ c (Proc.devRef .tc main_v77) (ix2 b (0 : Fin 1)) = W7 m ρ c (Proc.devRef .tc main_arg7) (ix1 b) := by
  have h : W8 m ρ c (Proc.devRef .tc main_v77)
      = shapeCast S4096x1 (W7 m ρ c (Proc.devRef .tc main_arg7)) shapeCasts_S4096_S4096x1 := by
    show StableHlo.after main_part1_ops1 (W7 m ρ c) (Proc.devRef .tc main_v77) = _
    after_results
    rfl
  rw [h]
  exact shapeCast_apply _ shapeCasts_S4096_S4096x1 (ix2 b (0 : Fin 1)) (ix1 b)
    (by rewrite [Shape.rowMajor_val_two, Shape.rowMajor_val_one]; show b.val = b.val * 1 + 0; omega)

/-- The one-lane column of scores as a vector. -/
theorem W11_v80 (c : Dev nD) (b : Fin 4096) :
    W11 m ρ c (Proc.devRef .tc main_v80) (ix1 b) = W10 m ρ c (Proc.devRef .tc main_v79) (ix2 b (0 : Fin 1)) := by
  have h : W11 m ρ c (Proc.devRef .tc main_v80)
      = shapeCast S4096 (W10 m ρ c (Proc.devRef .tc main_v79)) shapeCasts_S4096x1_S4096 := by
    show StableHlo.after main_part1_ops2 (W10 m ρ c) (Proc.devRef .tc main_v80) = _
    after_results
    rfl
  rw [h]
  exact shapeCast_apply _ shapeCasts_S4096x1_S4096 (ix1 b) (ix2 b (0 : Fin 1))
    (by rewrite [Shape.rowMajor_val_two, Shape.rowMajor_val_one]; show b.val * 1 + 0 = b.val; omega)

end HostVals

end Cert.KernelIdeal.Hand

end
-- ==== Proof.KI.Mid.lean ====
/-
  The shared middle of the two programs. Between the projection call and the layer-mean call @main works on whole
  arrays, and it does there exactly what the reference does: it stacks the user rows on the projected item rows,
  splits the edge list into its sources and destinations, counts every node's degree by adding one at each edge's
  destination, takes the inverse square root of the degree (zero where the degree is zero), weighs every edge by the
  product of its two ends' inverse roots, and runs three graph-convolution layers, each gathering the edges' source
  rows, scaling them by the edges' weights and adding them into the destination rows.

  Both programs are compositions of the same array operations, so their results are equal as whole arrays, with no
  entry ever looked at: what a stretch of the kernel's host operations leaves in a buffer is a named function of the
  buffers it finds, each of the reference's stages is the same named function of the stage before it, and the
  functions compose. One layer is ONE function, layerFn, on both sides.
-/
import proofs.«422603_j65833258713793_2_alg».proof.Proof.KI.Fold
import proofs.«422603_j65833258713793_2_alg».proof.Proof.RefRead
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-! ## The pure functions the middle of @main computes

Between the projection call and the layer-mean call @main works on whole arrays: the node features are the user rows
stacked on the projected item rows; the edge list's two rows are the sources and the destinations; a node's degree
counts the edges that end in it; an edge's weight is the product of the inverse square roots of its two ends'
degrees; one graph-convolution layer gathers each edge's source row, scales it by the edge's weight and adds it into
the edge's destination row. -/

/-- Row 0 of the edge list: the edges' sources. -/
def edgeSrc (e : (⟨S2x2000000, .i32⟩ : BufTy).Contents (Elt F)) : (⟨S2000000, .i32⟩ : BufTy).Contents (Elt F) :=
  shapeCast _ ((extractStridedSlice S1x2000000 ![0, 0] e slices_S2x2000000_S1x2000000_0_0 : (⟨S1x2000000, .i32⟩ : BufTy).Contents (Elt F))) shapeCasts_S1x2000000_S2000000

/-- Row 1 of the edge list: the edges' destinations. -/
def edgeDst (e : (⟨S2x2000000, .i32⟩ : BufTy).Contents (Elt F)) : (⟨S2000000, .i32⟩ : BufTy).Contents (Elt F) :=
  shapeCast _ ((extractStridedSlice S1x2000000 ![1, 0] e slices_S2x2000000_S1x2000000_1_0 : (⟨S1x2000000, .i32⟩ : BufTy).Contents (Elt F))) shapeCasts_S1x2000000_S2000000

/-- The per-edge vector every entry of which is the 32-bit integer b. -/
def fillI (b : BitVec 32) : (⟨S2000000, .i32⟩ : BufTy).Contents (Elt F) :=
  broadcastInDim S2000000 ![] bcast_S_S2000000 ((constantI S_ 32 b : (⟨S_, .i32⟩ : BufTy).Contents (Elt F)))

/-- Node indices as a gather reads them: a negative index counts from the end (80000 is added to it), then the
    vector is set as a one-column matrix. -/
def wrapIdx (s : (⟨S2000000, .i32⟩ : BufTy).Contents (Elt F)) : (⟨S2000000x1, .i32⟩ : BufTy).Contents (Elt F) :=
  broadcastInDim S2000000x1 ![0] bcast_S2000000_S2000000x1_0
    ((select (cmpi .slt s (fillI (F := F) 0#32)) (addi s (fillI (F := F) 80000#32)) s : (⟨S2000000, .i32⟩ : BufTy).Contents (Elt F)))

/-- The per-node vector every entry of which is the float with bits b. -/
def fillN (b : BitVec 32) : (⟨S80000, .f32⟩ : BufTy).Contents (Elt F) :=
  broadcastInDim S80000 ![] bcast_S_S80000 ((constant S_ .f32 b : (⟨S_, .f32⟩ : BufTy).Contents (Elt F)))

/-- A node's degree: one is added at the destination of every edge. -/
def degree (dst : (⟨S2000000, .i32⟩ : BufTy).Contents (Elt F)) : (⟨S80000, .f32⟩ : BufTy).Contents (Elt F) :=
  Host.scatterAdd scatter_S80000_S2000000x1_S2000000_n_0_0_1 (fillN (F := F) 0x00000000#32)
    ((broadcastInDim S2000000x1 ![0] bcast_S2000000_S2000000x1_0 dst : (⟨S2000000x1, .i32⟩ : BufTy).Contents (Elt F)))
    ((broadcastInDim S2000000 ![] bcast_S_S2000000 ((constant S_ .f32 0x3F800000#32 : (⟨S_, .f32⟩ : BufTy).Contents (Elt F))) : (⟨S2000000, .f32⟩ : BufTy).Contents (Elt F)))

/-- The inverse square root of the degree where the degree is positive, zero elsewhere. -/
def degInv (dst : (⟨S2000000, .i32⟩ : BufTy).Contents (Elt F)) : (⟨S80000, .f32⟩ : BufTy).Contents (Elt F) :=
  select ((cmpf .ogt (degree (F := F) dst) (fillN (F := F) 0x00000000#32) : (⟨S80000, .i1⟩ : BufTy).Contents (Elt F)))
    ((Host.rsqrt ((maximumf (degree (F := F) dst) (fillN (F := F) 0x3F800000#32) : (⟨S80000, .f32⟩ : BufTy).Contents (Elt F))) : (⟨S80000, .f32⟩ : BufTy).Contents (Elt F)))
    ((broadcastInDim S80000 ![] bcast_S_S80000 ((id ((constant S_ .f32 0x00000000#32 : (⟨S_, .f32⟩ : BufTy).Contents (Elt F))) : (⟨S_, .f32⟩ : BufTy).Contents (Elt F))) : (⟨S80000, .f32⟩ : BufTy).Contents (Elt F)))

/-- An edge's weight: the inverse root degree at its source times the one at its destination. -/
def edgeNorm (dinv : (⟨S80000, .f32⟩ : BufTy).Contents (Elt F)) (src dst : (⟨S2000000, .i32⟩ : BufTy).Contents (Elt F)) :
    (⟨S2000000, .f32⟩ : BufTy).Contents (Elt F) :=
  mulf ((Host.gather gather_S80000_S2000000x1_S2000000_n_0_n_n_0_1_1 dinv (wrapIdx (F := F) src) : (⟨S2000000, .f32⟩ : BufTy).Contents (Elt F)))
    ((Host.gather gather_S80000_S2000000x1_S2000000_n_0_n_n_0_1_1 dinv (wrapIdx (F := F) dst) : (⟨S2000000, .f32⟩ : BufTy).Contents (Elt F)))

/-- One graph-convolution layer: every edge's source row of x, scaled by the edge's weight, is added into the
    edge's destination row of an all-zero array. -/
def layerFn (x : (⟨S80000x64, .f32⟩ : BufTy).Contents (Elt F)) (nrm : (⟨S2000000, .f32⟩ : BufTy).Contents (Elt F))
    (src dst : (⟨S2000000, .i32⟩ : BufTy).Contents (Elt F)) : (⟨S80000x64, .f32⟩ : BufTy).Contents (Elt F) :=
  Host.scatterAdd scatter_S80000x64_S2000000x1_S2000000x64_1_0_0_1
    ((broadcastInDim S80000x64 ![] bcast_S_S80000x64 ((constant S_ .f32 0x00000000#32 : (⟨S_, .f32⟩ : BufTy).Contents (Elt F))) : (⟨S80000x64, .f32⟩ : BufTy).Contents (Elt F)))
    ((broadcastInDim S2000000x1 ![0] bcast_S2000000_S2000000x1_0 dst : (⟨S2000000x1, .i32⟩ : BufTy).Contents (Elt F)))
    ((mulf ((Host.gather gather_S80000x64_S2000000x1_S2000000x64_1_0_n_n_0_1_164 x (wrapIdx (F := F) src) : (⟨S2000000x64, .f32⟩ : BufTy).Contents (Elt F)))
      ((broadcastInDim S2000000x64 ![0, 1] bcast_S2000000x1_S2000000x64_0_1
        ((broadcastInDim S2000000x1 ![0] bcast_S2000000_S2000000x1_0 nrm : (⟨S2000000x1, .f32⟩ : BufTy).Contents (Elt F))) : (⟨S2000000x64, .f32⟩ : BufTy).Contents (Elt F))) : (⟨S2000000x64, .f32⟩ : BufTy).Contents (Elt F)))

/-- The node features: the user rows on top of the projected item rows. -/
def stackFn (u : (⟨S50000x64, .f32⟩ : BufTy).Contents (Elt F)) (p : (⟨S30000x64, .f32⟩ : BufTy).Contents (Elt F)) :
    (⟨S80000x64, .f32⟩ : BufTy).Contents (Elt F) :=
  concatenate S80000x64 0 [⟨S50000x64, u⟩, ⟨S30000x64, p⟩] concatenates_S50000x64_S30000x64_S80000x64_d0

/-! ## The kernel's host stretches, from any contents V -/

section Stretches
variable (V : Valuation τ sig (Elt F))

/-- After the first two stretches (the degree count and the inlined select): the node features, the two edge rows
    and the inverse root degree, as functions of the three buffers read. -/
theorem stretch12_v4 : after main_part0_ops2 (after main_part0_ops1 V) (Proc.devRef .tc main_v4)
    = stackFn (F := F) (V (Proc.devRef .tc main_arg0)) (V (Proc.devRef .tc main_v3)) := by
  after_results
  rfl

theorem stretch12_v6 : after main_part0_ops2 (after main_part0_ops1 V) (Proc.devRef .tc main_v6)
    = edgeSrc (F := F) (V (Proc.devRef .tc main_arg5)) := by
  after_results
  rfl

theorem stretch12_v8 : after main_part0_ops2 (after main_part0_ops1 V) (Proc.devRef .tc main_v8)
    = edgeDst (F := F) (V (Proc.devRef .tc main_arg5)) := by
  after_results
  rfl

theorem stretch12_v18 : after main_part0_ops2 (after main_part0_ops1 V) (Proc.devRef .tc main_v18)
    = degInv (F := F) (edgeDst (F := F) (V (Proc.devRef .tc main_arg5))) := by
  after_results_simp
  rfl

/-- The third stretch leaves the node features and the two edge rows as they were. -/
theorem stretch3_v4 : after main_part0_ops3 V (Proc.devRef .tc main_v4) = V (Proc.devRef .tc main_v4) := by
  after_results_simp
theorem stretch3_v6 : after main_part0_ops3 V (Proc.devRef .tc main_v6) = V (Proc.devRef .tc main_v6) := by
  after_results_simp
theorem stretch3_v8 : after main_part0_ops3 V (Proc.devRef .tc main_v8) = V (Proc.devRef .tc main_v8) := by
  after_results_simp

/-- The third stretch's zero constant, which the fourth stretch reads. -/
theorem stretch3_c10 : after main_part0_ops3 V (Proc.devRef .tc main_c_10) = (constantI S_ 32 0#32 : (⟨S_, .i32⟩ : BufTy).Contents (Elt F)) := by
  after_results_simp

/-- The third stretch's edge weights. -/
theorem stretch3_v33 : after main_part0_ops3 V (Proc.devRef .tc main_v33)
    = edgeNorm (F := F) (V (Proc.devRef .tc main_v18)) (V (Proc.devRef .tc main_v6)) (V (Proc.devRef .tc main_v8)) := by
  after_results_simp
  rfl

/-- The third stretch's layer: one layer over the node features it finds. -/
theorem stretch3_v46 : after main_part0_ops3 V (Proc.devRef .tc main_v46)
    = layerFn (F := F) (V (Proc.devRef .tc main_v4))
        (edgeNorm (F := F) (V (Proc.devRef .tc main_v18)) (V (Proc.devRef .tc main_v6)) (V (Proc.devRef .tc main_v8)))
        (V (Proc.devRef .tc main_v6)) (V (Proc.devRef .tc main_v8)) := by
  after_results_simp
  rfl

/-- The fourth stretch leaves the node features and the first layer as they were. -/
theorem stretch4_v4 : after main_part1_ops0 V (Proc.devRef .tc main_v4) = V (Proc.devRef .tc main_v4) := by
  after_results_simp
theorem stretch4_v46 : after main_part1_ops0 V (Proc.devRef .tc main_v46) = V (Proc.devRef .tc main_v46) := by
  after_results_simp

/-- The fourth stretch's first layer: one layer over the first layer's result, with the weights and the edge rows it
    finds; the zero it compares the sources with is the one the third stretch left. -/
theorem stretch4_v59 (hc : V (Proc.devRef .tc main_c_10) = (constantI S_ 32 0#32 : (⟨S_, .i32⟩ : BufTy).Contents (Elt F))) :
    after main_part1_ops0 V (Proc.devRef .tc main_v59)
    = layerFn (F := F) (V (Proc.devRef .tc main_v46)) (V (Proc.devRef .tc main_v33))
        (V (Proc.devRef .tc main_v6)) (V (Proc.devRef .tc main_v8)) := by
  after_results_simp
  rw [hc]
  rfl

/-- The fourth stretch's second layer: one more layer over its first. -/
theorem stretch4_v72 (hc : V (Proc.devRef .tc main_c_10) = (constantI S_ 32 0#32 : (⟨S_, .i32⟩ : BufTy).Contents (Elt F))) :
    after main_part1_ops0 V (Proc.devRef .tc main_v72)
    = layerFn (F := F) (layerFn (F := F) (V (Proc.devRef .tc main_v46)) (V (Proc.devRef .tc main_v33))
          (V (Proc.devRef .tc main_v6)) (V (Proc.devRef .tc main_v8)))
        (V (Proc.devRef .tc main_v33)) (V (Proc.devRef .tc main_v6)) (V (Proc.devRef .tc main_v8)) := by
  after_results_simp
  rw [hc]
  rfl

end Stretches

/-! ## The reference's stages are the same functions -/

section Reference
open Cert.ReferenceIdeal.ReadP

variable (a0 : (⟨S50000x64, .f32⟩ : BufTy).Contents (Elt F)) (a1 : (⟨S30000x768, .f32⟩ : BufTy).Contents (Elt F))
  (a2 : (⟨S30000x128, .f32⟩ : BufTy).Contents (Elt F)) (a3 : (⟨S896x64, .f32⟩ : BufTy).Contents (Elt F))
  (a4 : (⟨S64, .f32⟩ : BufTy).Contents (Elt F)) (a5 : (⟨S2x2000000, .i32⟩ : BufTy).Contents (Elt F))

theorem ref_v10 : val_main_v10 (F := F) a0 a1 a2 a3 a4 = stackFn (F := F) a0 (val_main_v9 (F := F) a1 a2 a3 a4) := rfl
theorem ref_v12 : val_main_v12 (F := F) a5 = edgeSrc (F := F) a5 := rfl
theorem ref_v14 : val_main_v14 (F := F) a5 = edgeDst (F := F) a5 := rfl
theorem ref_v24 : val_main_v24 (F := F) a5 = degInv (F := F) (edgeDst (F := F) a5) := rfl
theorem ref_v39 : val_main_v39 (F := F) a5
    = edgeNorm (F := F) (degInv (F := F) (edgeDst (F := F) a5)) (edgeSrc (F := F) a5) (edgeDst (F := F) a5) := rfl
/-- Each of the reference's three layers is one layer over the stage before it, with the same weights and edge rows. -/
theorem ref_v52 : val_main_v52 (F := F) a0 a1 a2 a3 a4 a5
    = layerFn (F := F) (val_main_v10 (F := F) a0 a1 a2 a3 a4) (val_main_v39 (F := F) a5) (edgeSrc (F := F) a5) (edgeDst (F := F) a5) := rfl
theorem ref_v65 : val_main_v65 (F := F) a0 a1 a2 a3 a4 a5
    = layerFn (F := F) (val_main_v52 (F := F) a0 a1 a2 a3 a4 a5) (val_main_v39 (F := F) a5) (edgeSrc (F := F) a5) (edgeDst (F := F) a5) := rfl
theorem ref_v78 : val_main_v78 (F := F) a0 a1 a2 a3 a4 a5
    = layerFn (F := F) (val_main_v65 (F := F) a0 a1 a2 a3 a4 a5) (val_main_v39 (F := F) a5) (edgeSrc (F := F) a5) (edgeDst (F := F) a5) := rfl

/-! ## The four stretches together -/

/-- From ANY contents W whose user rows, projected item rows and edge list are the reference's arguments and its
    normalised projection, the buffers after the four host stretches are the reference's node features and its three
    layers, as whole arrays. -/
theorem mid_layers_of (W : Valuation τ sig (Elt F))
    (h0 : W (Proc.devRef .tc main_arg0) = a0)
    (h3 : W (Proc.devRef .tc main_v3) = val_main_v9 (F := F) a1 a2 a3 a4)
    (h5 : W (Proc.devRef .tc main_arg5) = a5) :
    after main_part1_ops0 (after main_part0_ops3 (after main_part0_ops2 (after main_part0_ops1 W))) (Proc.devRef .tc main_v4)
        = val_main_v10 (F := F) a0 a1 a2 a3 a4
    ∧ after main_part1_ops0 (after main_part0_ops3 (after main_part0_ops2 (after main_part0_ops1 W))) (Proc.devRef .tc main_v46)
        = val_main_v52 (F := F) a0 a1 a2 a3 a4 a5
    ∧ after main_part1_ops0 (after main_part0_ops3 (after main_part0_ops2 (after main_part0_ops1 W))) (Proc.devRef .tc main_v59)
        = val_main_v65 (F := F) a0 a1 a2 a3 a4 a5
    ∧ after main_part1_ops0 (after main_part0_ops3 (after main_part0_ops2 (after main_part0_ops1 W))) (Proc.devRef .tc main_v72)
        = val_main_v78 (F := F) a0 a1 a2 a3 a4 a5 := by
  have e4 := stretch12_v4 (F := F) W
  have e6 := stretch12_v6 (F := F) W
  have e8 := stretch12_v8 (F := F) W
  have e18 := stretch12_v18 (F := F) W
  rw [h0, h3] at e4
  rw [h5] at e6 e8 e18
  generalize after main_part0_ops2 (after main_part0_ops1 W) = X at e4 e6 e8 e18 ⊢
  have f4 := stretch3_v4 (F := F) X
  have f6 := stretch3_v6 (F := F) X
  have f8 := stretch3_v8 (F := F) X
  have fc := stretch3_c10 (F := F) X
  have f33 := stretch3_v33 (F := F) X
  have f46 := stretch3_v46 (F := F) X
  rw [e4] at f4
  rw [e6] at f6
  rw [e8] at f8
  rw [e18, e6, e8] at f33
  rw [e4, e18, e6, e8] at f46
  generalize after main_part0_ops3 X = Y at f4 f6 f8 fc f33 f46 ⊢
  refine ⟨?_, ?_, ?_, ?_⟩
  · rw [stretch4_v4, f4, ref_v10]
  · rw [stretch4_v46, f46, ref_v52, ref_v39, ref_v10]
  · rw [stretch4_v59 Y fc, f46, f33, f6, f8, ref_v65, ref_v52, ref_v39, ref_v10]
  · rw [stretch4_v72 Y fc, f46, f33, f6, f8, ref_v78, ref_v65, ref_v52, ref_v39, ref_v10]

end Reference

/-! ## At the program's own contents -/

section AtFold
open Cert.ReferenceIdeal.ReadP
variable (m : (ℓ : Loc nD τ sig) → Buf (Elt F) ℓ) (ρ : Dev nD → PrngReg)

/-- THE SHARED MIDDLE. If, when the projection call has run, the user rows, the projected item rows and the edge list
    hold the reference's arguments and its normalised projection, then when the layer-mean call is entered the four
    layer buffers hold the reference's node features and its three graph-convolution layers, as whole arrays. -/
theorem mid_layers (c : Dev nD) (a0 : (⟨S50000x64, .f32⟩ : BufTy).Contents (Elt F)) (a1 : (⟨S30000x768, .f32⟩ : BufTy).Contents (Elt F))
    (a2 : (⟨S30000x128, .f32⟩ : BufTy).Contents (Elt F)) (a3 : (⟨S896x64, .f32⟩ : BufTy).Contents (Elt F))
    (a4 : (⟨S64, .f32⟩ : BufTy).Contents (Elt F)) (a5 : (⟨S2x2000000, .i32⟩ : BufTy).Contents (Elt F))
    (h0 : W2 m ρ c (Proc.devRef .tc main_arg0) = a0)
    (h3 : W2 m ρ c (Proc.devRef .tc main_v3) = Cert.ReferenceIdeal.ReadP.val_main_v9 (F := F) a1 a2 a3 a4)
    (h5 : W2 m ρ c (Proc.devRef .tc main_arg5) = a5) :
    W6 m ρ c (Proc.devRef .tc main_v4) = Cert.ReferenceIdeal.ReadP.val_main_v10 (F := F) a0 a1 a2 a3 a4
    ∧ W6 m ρ c (Proc.devRef .tc main_v46) = Cert.ReferenceIdeal.ReadP.val_main_v52 (F := F) a0 a1 a2 a3 a4 a5
    ∧ W6 m ρ c (Proc.devRef .tc main_v59) = Cert.ReferenceIdeal.ReadP.val_main_v65 (F := F) a0 a1 a2 a3 a4 a5
    ∧ W6 m ρ c (Proc.devRef .tc main_v72) = Cert.ReferenceIdeal.ReadP.val_main_v78 (F := F) a0 a1 a2 a3 a4 a5 :=
  mid_layers_of (F := F) a0 a1 a2 a3 a4 a5 (W2 m ρ c) h0 h3 h5

end AtFold

end Cert.KernelIdeal.Hand
end
-- ==== Proof.Ref.Mean.lean ====
/-
  The reference's layer-wise mean and its final row dot product, read at an index as the same two functions of plain
  extended reals the kernel's payloads compute (`meanSpec`, `dotSpec`).

  * The mean: each of the four `[80000, 64]` layers gets a leading unit axis, the four are stacked along it, the stack is
    summed over that axis starting from `0.0`, and the sum is divided by `4.0`. At `(r, q)` the stack's slice `k` is layer
    `k` at `(r, q)`, the sum over the four slices expands to `l0 + l1 + l2 + l3`, and the quotient by `4` is the product
    with `1/4`.
  * The dot product: the two gathered `[4096, 64]` arrays are multiplied pointwise and each row is summed over its 64
    columns starting from `0.0`.
-/
import proofs.«422603_j65833258713793_2_alg».proof.Proof.RefRead
import proofs.«422603_j65833258713793_2_alg».proof.Proof.Math.Mean

noncomputable section

namespace Cert.ReferenceIdeal.Hand

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo
open Cert.KernelIdeal.Hand (meanSpec dotSpec ofBits_four div_four_eq_meanSpec)
open scoped BigOperators

/-! ## A layer under its leading unit axis -/

/-- The index a `[1, 80000, 64]` broadcast of a `[80000, 64]` layer reads at `(0, r, q)` is `(r, q)`: for each of the four
    layers. -/
theorem unit_idx0 (r : Fin 80000) (q : Fin 64) : idx_main_v79 (ix3 (0 : Fin 1) r q) = (ix2 r q : S80000x64.Idx) :=
  funext fun a => match a with | ⟨0, _⟩ => rfl | ⟨1, _⟩ => rfl
theorem unit_idx1 (r : Fin 80000) (q : Fin 64) : idx_main_v80 (ix3 (0 : Fin 1) r q) = (ix2 r q : S80000x64.Idx) :=
  funext fun a => match a with | ⟨0, _⟩ => rfl | ⟨1, _⟩ => rfl
theorem unit_idx2 (r : Fin 80000) (q : Fin 64) : idx_main_v81 (ix3 (0 : Fin 1) r q) = (ix2 r q : S80000x64.Idx) :=
  funext fun a => match a with | ⟨0, _⟩ => rfl | ⟨1, _⟩ => rfl
theorem unit_idx3 (r : Fin 80000) (q : Fin 64) : idx_main_v82 (ix3 (0 : Fin 1) r q) = (ix2 r q : S80000x64.Idx) :=
  funext fun a => match a with | ⟨0, _⟩ => rfl | ⟨1, _⟩ => rfl

/-! ## The stack of four unit-axis layers read at slice `k`

Slice `k` of the stack at `(r, q)` is piece `k` at `(0, r, q)`: the `k` pieces before it have extent one each along the
stacking axis, and the other two coordinates carry over. -/

section Stack
variable {α : Type} (y0 y1 y2 y3 : S1x80000x64.Idx → α)
  (h : Shape.Concatenates [S1x80000x64, S1x80000x64, S1x80000x64, S1x80000x64] S4x80000x64 0) (r : Fin 80000) (q : Fin 64)

/-- Off the stacking axis the two indices have the same coordinates. -/
theorem stack_off (k : Fin 4) (b : Fin S1x80000x64.rank) (hb : b.cast (rfl : S1x80000x64.rank = S4x80000x64.rank) ≠ 0) :
    ((ix3 (0 : Fin 1) r q : S1x80000x64.Idx) b).val
      = (idx_main_v84 (ix2 r q) k (b.cast (rfl : S1x80000x64.rank = S4x80000x64.rank))).val :=
  match b, hb with
  | ⟨0, _⟩, hb => absurd rfl hb
  | ⟨1, _⟩, _ => rfl
  | ⟨2, _⟩, _ => rfl

theorem stack_at0 : concatenate S4x80000x64 0 [⟨S1x80000x64, y0⟩, ⟨S1x80000x64, y1⟩, ⟨S1x80000x64, y2⟩, ⟨S1x80000x64, y3⟩] h
      (idx_main_v84 (ix2 r q) 0) = y0 (ix3 (0 : Fin 1) r q) :=
  concatenate_apply_piece (t := S4x80000x64) 0 [⟨S1x80000x64, y0⟩, ⟨S1x80000x64, y1⟩, ⟨S1x80000x64, y2⟩, ⟨S1x80000x64, y3⟩] h _ 0 (show 0 < 4 by omega) S1x80000x64 y0 rfl rfl 0 rfl _ (stack_off r q 0) rfl

theorem stack_at1 : concatenate S4x80000x64 0 [⟨S1x80000x64, y0⟩, ⟨S1x80000x64, y1⟩, ⟨S1x80000x64, y2⟩, ⟨S1x80000x64, y3⟩] h
      (idx_main_v84 (ix2 r q) 1) = y1 (ix3 (0 : Fin 1) r q) :=
  concatenate_apply_piece (t := S4x80000x64) 0 [⟨S1x80000x64, y0⟩, ⟨S1x80000x64, y1⟩, ⟨S1x80000x64, y2⟩, ⟨S1x80000x64, y3⟩] h _ 1 (show 1 < 4 by omega) S1x80000x64 y1 rfl rfl 1 rfl _ (stack_off r q 1) rfl

theorem stack_at2 : concatenate S4x80000x64 0 [⟨S1x80000x64, y0⟩, ⟨S1x80000x64, y1⟩, ⟨S1x80000x64, y2⟩, ⟨S1x80000x64, y3⟩] h
      (idx_main_v84 (ix2 r q) 2) = y2 (ix3 (0 : Fin 1) r q) :=
  concatenate_apply_piece (t := S4x80000x64) 0 [⟨S1x80000x64, y0⟩, ⟨S1x80000x64, y1⟩, ⟨S1x80000x64, y2⟩, ⟨S1x80000x64, y3⟩] h _ 2 (show 2 < 4 by omega) S1x80000x64 y2 rfl rfl 2 rfl _ (stack_off r q 2) rfl

theorem stack_at3 : concatenate S4x80000x64 0 [⟨S1x80000x64, y0⟩, ⟨S1x80000x64, y1⟩, ⟨S1x80000x64, y2⟩, ⟨S1x80000x64, y3⟩] h
      (idx_main_v84 (ix2 r q) 3) = y3 (ix3 (0 : Fin 1) r q) :=
  concatenate_apply_piece (t := S4x80000x64) 0 [⟨S1x80000x64, y0⟩, ⟨S1x80000x64, y1⟩, ⟨S1x80000x64, y2⟩, ⟨S1x80000x64, y3⟩] h _ 3 (show 3 < 4 by omega) S1x80000x64 y3 rfl rfl 3 rfl _ (stack_off r q 3) rfl

end Stack

/-! ## The mean -/

/-- The reference's mean at `(r, q)`: `meanSpec` of the four layers there. -/
theorem ref_mean_apply (x0 : (⟨S50000x64, .f32⟩ : BufTy).Contents (Elt Ideal)) (x1 : (⟨S30000x768, .f32⟩ : BufTy).Contents (Elt Ideal)) (x2 : (⟨S30000x128, .f32⟩ : BufTy).Contents (Elt Ideal)) (x3 : (⟨S896x64, .f32⟩ : BufTy).Contents (Elt Ideal)) (x4 : (⟨S64, .f32⟩ : BufTy).Contents (Elt Ideal)) (x5 : (⟨S2x2000000, .i32⟩ : BufTy).Contents (Elt Ideal)) (r : Fin 80000) (q : Fin 64) :
    val_main_v86 (F := Ideal) x0 x1 x2 x3 x4 x5 (ix2 r q)
      = meanSpec (val_main_v10 (F := Ideal) x0 x1 x2 x3 x4 (ix2 r q)) (val_main_v52 (F := Ideal) x0 x1 x2 x3 x4 x5 (ix2 r q))
          (val_main_v65 (F := Ideal) x0 x1 x2 x3 x4 x5 (ix2 r q)) (val_main_v78 (F := Ideal) x0 x1 x2 x3 x4 x5 (ix2 r q)) := by
  rw [val_main_v86_apply, val_main_v85_apply, val_main_cst_18_apply, val_main_v84_apply, val_main_cst_17_apply,
    Fin.sum_univ_four]
  unfold val_main_v83
  rw [stack_at0, stack_at1, stack_at2, stack_at3, val_main_v79_apply, val_main_v80_apply, val_main_v81_apply,
    val_main_v82_apply, unit_idx0, unit_idx1, unit_idx2, unit_idx3]
  show Ideal.div (Ideal.ofBits .f32 0x00000000#32 + _) (Ideal.ofBits .f32 0x40800000#32) = _
  rw [Ideal.ofBits_zero_f32, ofBits_four]
  exact div_four_eq_meanSpec _ _ _ _

/-! ## The row dot product -/

/-- The index the row sum reads at row `b`, column `k`, is `(b, k)`. -/
theorem row_idx (b : Fin 4096) (k : Fin 64) : idx_main_v104 (ix1 b) k = (ix2 b k : S4096x64.Idx) :=
  funext fun a => match a with | ⟨0, _⟩ => rfl | ⟨1, _⟩ => rfl

/-- The reference's score at row `b`: `dotSpec` of the two gathered rows. -/
theorem ref_dot_apply (x0 : (⟨S50000x64, .f32⟩ : BufTy).Contents (Elt Ideal)) (x1 : (⟨S30000x768, .f32⟩ : BufTy).Contents (Elt Ideal)) (x2 : (⟨S30000x128, .f32⟩ : BufTy).Contents (Elt Ideal)) (x3 : (⟨S896x64, .f32⟩ : BufTy).Contents (Elt Ideal)) (x4 : (⟨S64, .f32⟩ : BufTy).Contents (Elt Ideal)) (x5 : (⟨S2x2000000, .i32⟩ : BufTy).Contents (Elt Ideal)) (x6 x7 : (⟨S4096, .i32⟩ : BufTy).Contents (Elt Ideal)) (b : Fin 4096) :
    val_main_v104 (F := Ideal) x0 x1 x2 x3 x4 x5 x6 x7 (ix1 b)
      = dotSpec (fun j => val_main_v95 (F := Ideal) x0 x1 x2 x3 x4 x5 x6 (ix2 b j))
          (fun j => val_main_v102 (F := Ideal) x0 x1 x2 x3 x4 x5 x7 (ix2 b j)) := by
  rw [val_main_v104_apply, val_main_cst_23_apply]
  show Ideal.ofBits .f32 0x00000000#32 + _ = _
  rw [Ideal.ofBits_zero_f32, zero_add]
  unfold dotSpec
  refine Finset.sum_congr rfl fun k _ => ?_
  rw [row_idx, val_main_v103_apply]
  rfl

end Cert.ReferenceIdeal.Hand

end
-- ==== Proof.Ref.Gather.lean ====
/-
  The reference's two row gathers, read at an element.

  The reference looks a batch of 4096 rows up in a table (the user rows in a table of 50000 rows, the item rows
  in one of 30000) by a gather whose slices are whole rows: result element (b, j) is the table at row
  "start index of b, read signed and clamped into the table" and column j. The start index is the batch's
  index with the table's height added when it is negative. For an index already inside the table neither the
  wrap nor the clamp acts, and the result is the table's row numbered by the index.
-/
import proofs.«422603_j65833258713793_2_alg».proof.Proof.RefRead
import Idealize.ShloMosaic.Lib.ValueIdx
import Idealize.ShloMosaic.Lib.Pipeline.Value

noncomputable section

namespace Cert.ReferenceIdeal.Hand

open Cert.ReferenceIdeal Cert.ReferenceIdeal.Gen Cert.ReferenceIdeal.ReadP Idealize.ShloMosaic Idealize.ShloMosaic.ValueIdx Idealize.SL.Sem

/-! ## A gather of whole rows at an element -/

section Rows
variable {α : Type}

/-- The dimension numbers of a whole-row gather: operand [N, C], one start index per result row
    (start indices [R, 1]), the row axis collapsed, the column axis an offset axis. -/
abbrev rowsDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result element (b, j) of a whole-row gather: the operand at column j of the row the start index of b
    names, read signed and clamped into [0, N - 1]. -/
theorem gather_rows_apply {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (I : IVec ⟨2, ![R, 1]⟩ w) (b : Fin R) (j : Fin C) :
    Host.gather (rowsDims N R C wf) x I (ix2 b j)
      = x (ix2 ⟨min (I (ix2 b 0)).toInt.toNat (N - 1), by omega⟩ j) := by
  unfold Host.gather
  congr 1
  funext a
  refine Fin.ext ?_
  show (rowsDims N R C wf).start (ix2 b j) I a + (rowsDims N R C wf).batchCoord (ix2 b j) a
      + (rowsDims N R C wf).offCoord (ix2 b j) a = _
  rw [GatherDims.batchCoord_eq_zero _ _ _ List.not_mem_nil, Nat.add_zero]
  obtain rfl | rfl : a = (0 : Fin 2) ∨ a = (1 : Fin 2) := by
    match a with
    | ⟨0, _⟩ => exact Or.inl rfl
    | ⟨1, _⟩ => exact Or.inr rfl
  · rw [GatherDims.offCoord_eq_zero _ _ _
      (fun h => ((GatherDims.mem_sKept _ _).mp h).1 (List.mem_singleton.mpr rfl)), Nat.add_zero]
    unfold GatherDims.start
    rw [dif_pos (show (0 : Fin 2) ∈ (rowsDims N R C wf).startIndexMap from List.mem_singleton.mpr rfl)]
    have hsi : (rowsDims N R C wf).siIdx (ix2 b j) ⟨List.idxOf (0 : Fin 2) (rowsDims N R C wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  · have hst : (rowsDims N R C wf).start (ix2 b j) I (1 : Fin 2) = 0 := by
      unfold GatherDims.start
      rw [dif_neg (show ¬ (1 : Fin 2) ∈ ([0] : List (Fin 2)) by decide)]
    show (rowsDims N R C wf).start (ix2 b j) I (1 : Fin 2) + (rowsDims N R C wf).offCoord (ix2 b j) (1 : Fin 2) = j.val
    rw [hst, Nat.zero_add]
    unfold GatherDims.offCoord
    rw [dif_pos ((GatherDims.mem_sKept (rowsDims N R C wf) (1 : Fin 2)).mpr
      ⟨(show ¬ (1 : Fin 2) ∈ ([0] : List (Fin 2)) by decide), List.not_mem_nil⟩)]
    rfl

/-- A 32-bit start index that lies inside the table is neither wrapped nor clamped. -/
theorem clamp_inside {N : ℕ} (w : BitVec 32) (h0 : 0 ≤ w.toInt) (h1 : w.toInt < (N : ℤ)) :
    min w.toInt.toNat (N - 1) = w.toNat ∧ w.toNat < N := by
  have hc := BitVec.toInt_eq_toNat_cond w
  have hlt := w.isLt
  split at hc <;> omega

end Rows

/-- The user-row gather's dimension numbers are those of a whole-row gather. -/
theorem gatherU_eq : gather_S50000x64_S4096x1_S4096x64_1_0_n_n_0_1_164
    = rowsDims 50000 4096 64 gather_S50000x64_S4096x1_S4096x64_1_0_n_n_0_1_164_wf := rfl

/-- The item-row gather's likewise. -/
theorem gatherI_eq : gather_S30000x64_S4096x1_S4096x64_1_0_n_n_0_1_164
    = rowsDims 30000 4096 64 gather_S30000x64_S4096x1_S4096x64_1_0_n_n_0_1_164_wf := rfl

/-- The user-row gather at (b, j), for start indices whose row b holds a word inside the table. -/
theorem gather_user_apply (M : (⟨S50000x64, .f32⟩ : BufTy).Contents (Elt Ideal)) (I : IVec S4096x1 32)
    (b : Fin 4096) (j : Fin 64) (w : BitVec 32) (hI : I (ix2 b 0) = w) (h0 : 0 ≤ w.toInt) (h1 : w.toInt < 50000) :
    Host.gather gather_S50000x64_S4096x1_S4096x64_1_0_n_n_0_1_164 M I (ix2 b j)
      = M (ix2 ⟨w.toNat, (clamp_inside (N := 50000) w h0 h1).2⟩ j) := by
  rw [gatherU_eq, gather_rows_apply (by decide)]
  congr 1
  refine Shape.idx_ext₂ ?_ rfl
  show min (I (ix2 b 0)).toInt.toNat (50000 - 1) = w.toNat
  rw [hI]
  exact (clamp_inside (N := 50000) w h0 h1).1

/-- The item-row gather at (b, j), for start indices whose row b holds a word inside the table. -/
theorem gather_item_apply (M : (⟨S30000x64, .f32⟩ : BufTy).Contents (Elt Ideal)) (I : IVec S4096x1 32)
    (b : Fin 4096) (j : Fin 64) (w : BitVec 32) (hI : I (ix2 b 0) = w) (h0 : 0 ≤ w.toInt) (h1 : w.toInt < 30000) :
    Host.gather gather_S30000x64_S4096x1_S4096x64_1_0_n_n_0_1_164 M I (ix2 b j)
      = M (ix2 ⟨w.toNat, (clamp_inside (N := 30000) w h0 h1).2⟩ j) := by
  rw [gatherI_eq, gather_rows_apply (by decide)]
  congr 1
  refine Shape.idx_ext₂ ?_ rfl
  show min (I (ix2 b 0)).toInt.toNat (30000 - 1) = w.toNat
  rw [hI]
  exact (clamp_inside (N := 30000) w h0 h1).1

/-! ## The start indices at a row, and the two gathers in the reference's own terms -/

/-- A signed compare "below zero" of a word that is not negative answers the bit 0. -/
theorem slt_zero_of_nonneg (w : BitVec 32) (h0 : 0 ≤ w.toInt) : IntOp.cmpi .slt w 0#32 = 0#1 := by
  have hf : w.slt 0#32 = false := by
    rw [Bool.eq_false_iff]
    intro e
    rw [BitVec.slt_iff_toInt_lt, BitVec.toInt_zero] at e
    omega
  simp only [IntOp.cmpi, hf, BitVec.ofBool_false]
  rfl

/-- The user start indices at row b: the batch's index itself when it is not negative. -/
theorem startU_apply (idx : (⟨S4096, .i32⟩ : BufTy).Contents (Elt Ideal)) (b : Fin 4096)
    (h0 : 0 ≤ (idx (ix1 b) : BitVec 32).toInt) :
    val_main_v94 (F := Ideal) idx (ix2 b 0) = idx (ix1 b) := by
  have hi : idx_main_v94 (ix2 b (0 : Fin 1)) = ix1 b := by
    funext a
    match a with
    | ⟨0, _⟩ => rfl
  rw [val_main_v94_apply, hi, val_main_v93_apply, val_main_v90_apply, val_main_v89_apply, val_main_c_19_apply,
    slt_zero_of_nonneg _ h0, select_zero]

/-- The item start indices at row b likewise. -/
theorem startI_apply (idx : (⟨S4096, .i32⟩ : BufTy).Contents (Elt Ideal)) (b : Fin 4096)
    (h0 : 0 ≤ (idx (ix1 b) : BitVec 32).toInt) :
    val_main_v101 (F := Ideal) idx (ix2 b 0) = idx (ix1 b) := by
  have hi : idx_main_v101 (ix2 b (0 : Fin 1)) = ix1 b := by
    funext a
    match a with
    | ⟨0, _⟩ => rfl
  rw [val_main_v101_apply, hi, val_main_v100_apply, val_main_v97_apply, val_main_v96_apply, val_main_c_21_apply,
    slt_zero_of_nonneg _ h0, select_zero]

/-- THE USER-ROW GATHER of the reference at (b, j), for an index inside the table: the table's row of that
    number at column j. -/
theorem ref_gather_user (M : (⟨S50000x64, .f32⟩ : BufTy).Contents (Elt Ideal))
    (idx : (⟨S4096, .i32⟩ : BufTy).Contents (Elt Ideal)) (b : Fin 4096) (j : Fin 64)
    (h0 : 0 ≤ (idx (ix1 b) : BitVec 32).toInt) (h1 : (idx (ix1 b) : BitVec 32).toInt < 50000) :
    Host.gather gather_S50000x64_S4096x1_S4096x64_1_0_n_n_0_1_164 M (val_main_v94 (F := Ideal) idx) (ix2 b j)
      = M (ix2 ⟨(idx (ix1 b) : BitVec 32).toNat, (clamp_inside (N := 50000) _ h0 h1).2⟩ j) :=
  gather_user_apply M _ b j _ (startU_apply idx b h0) h0 h1

/-- THE ITEM-ROW GATHER of the reference at (b, j), for an index inside the table. -/
theorem ref_gather_item (M : (⟨S30000x64, .f32⟩ : BufTy).Contents (Elt Ideal))
    (idx : (⟨S4096, .i32⟩ : BufTy).Contents (Elt Ideal)) (b : Fin 4096) (j : Fin 64)
    (h0 : 0 ≤ (idx (ix1 b) : BitVec 32).toInt) (h1 : (idx (ix1 b) : BitVec 32).toInt < 30000) :
    Host.gather gather_S30000x64_S4096x1_S4096x64_1_0_n_n_0_1_164 M (val_main_v101 (F := Ideal) idx) (ix2 b j)
      = M (ix2 ⟨(idx (ix1 b) : BitVec 32).toNat, (clamp_inside (N := 30000) _ h0 h1).2⟩ j) :=
  gather_item_apply M _ b j _ (startI_apply idx b h0) h0 h1

/-! ## The two tables as slices of one array, and the gathers read in it -/

/-- The user table is the first 50000 rows of the normalised embedding array. -/
theorem ref_slice_user (x0 : (⟨S50000x64, .f32⟩ : BufTy).Contents (Elt Ideal)) (x1 : (⟨S30000x768, .f32⟩ : BufTy).Contents (Elt Ideal)) (x2 : (⟨S30000x128, .f32⟩ : BufTy).Contents (Elt Ideal)) (x3 : (⟨S896x64, .f32⟩ : BufTy).Contents (Elt Ideal)) (x4 : (⟨S64, .f32⟩ : BufTy).Contents (Elt Ideal)) (x5 : (⟨S2x2000000, .i32⟩ : BufTy).Contents (Elt Ideal)) (r : Fin 50000) (q : Fin 64) :
    val_main_v87 (F := Ideal) x0 x1 x2 x3 x4 x5 (ix2 r q)
      = val_main_v86 (F := Ideal) x0 x1 x2 x3 x4 x5 (ix2 (⟨r.val, by have := r.isLt; omega⟩ : Fin 80000) q) := by
  rw [val_main_v87_apply]
  congr 1
  funext a
  match a with
  | ⟨0, _⟩ => rfl
  | ⟨1, _⟩ => rfl

/-- The item table is its last 30000 rows. -/
theorem ref_slice_item (x0 : (⟨S50000x64, .f32⟩ : BufTy).Contents (Elt Ideal)) (x1 : (⟨S30000x768, .f32⟩ : BufTy).Contents (Elt Ideal)) (x2 : (⟨S30000x128, .f32⟩ : BufTy).Contents (Elt Ideal)) (x3 : (⟨S896x64, .f32⟩ : BufTy).Contents (Elt Ideal)) (x4 : (⟨S64, .f32⟩ : BufTy).Contents (Elt Ideal)) (x5 : (⟨S2x2000000, .i32⟩ : BufTy).Contents (Elt Ideal)) (r : Fin 30000) (q : Fin 64) :
    val_main_v88 (F := Ideal) x0 x1 x2 x3 x4 x5 (ix2 r q)
      = val_main_v86 (F := Ideal) x0 x1 x2 x3 x4 x5 (ix2 (⟨50000 + r.val, by have := r.isLt; omega⟩ : Fin 80000) q) := by
  rw [val_main_v88_apply]
  congr 1
  funext a
  match a with
  | ⟨0, _⟩ => rfl
  | ⟨1, _⟩ => rfl

/-- The gathered user rows, read in the embedding array: row b is the array's row numbered by the batch's index. -/
theorem ref_user_rows (x0 : (⟨S50000x64, .f32⟩ : BufTy).Contents (Elt Ideal)) (x1 : (⟨S30000x768, .f32⟩ : BufTy).Contents (Elt Ideal)) (x2 : (⟨S30000x128, .f32⟩ : BufTy).Contents (Elt Ideal)) (x3 : (⟨S896x64, .f32⟩ : BufTy).Contents (Elt Ideal)) (x4 : (⟨S64, .f32⟩ : BufTy).Contents (Elt Ideal)) (x5 : (⟨S2x2000000, .i32⟩ : BufTy).Contents (Elt Ideal)) (x6 : (⟨S4096, .i32⟩ : BufTy).Contents (Elt Ideal)) (b : Fin 4096) (j : Fin 64)
    (h0 : 0 ≤ (x6 (ix1 b) : BitVec 32).toInt) (h1 : (x6 (ix1 b) : BitVec 32).toInt < 50000) :
    val_main_v95 (F := Ideal) x0 x1 x2 x3 x4 x5 x6 (ix2 b j)
      = val_main_v86 (F := Ideal) x0 x1 x2 x3 x4 x5
          (ix2 (⟨(x6 (ix1 b) : BitVec 32).toNat, by have := (clamp_inside (N := 50000) _ h0 h1).2; omega⟩ : Fin 80000) j) := by
  unfold val_main_v95
  rw [ref_gather_user _ _ b j h0 h1]
  exact ref_slice_user x0 x1 x2 x3 x4 x5 _ j

/-- The gathered item rows, read in the embedding array: row b is the array's row 50000 plus the batch's index. -/
theorem ref_item_rows (x0 : (⟨S50000x64, .f32⟩ : BufTy).Contents (Elt Ideal)) (x1 : (⟨S30000x768, .f32⟩ : BufTy).Contents (Elt Ideal)) (x2 : (⟨S30000x128, .f32⟩ : BufTy).Contents (Elt Ideal)) (x3 : (⟨S896x64, .f32⟩ : BufTy).Contents (Elt Ideal)) (x4 : (⟨S64, .f32⟩ : BufTy).Contents (Elt Ideal)) (x5 : (⟨S2x2000000, .i32⟩ : BufTy).Contents (Elt Ideal)) (x7 : (⟨S4096, .i32⟩ : BufTy).Contents (Elt Ideal)) (b : Fin 4096) (j : Fin 64)
    (h0 : 0 ≤ (x7 (ix1 b) : BitVec 32).toInt) (h1 : (x7 (ix1 b) : BitVec 32).toInt < 30000) :
    val_main_v102 (F := Ideal) x0 x1 x2 x3 x4 x5 x7 (ix2 b j)
      = val_main_v86 (F := Ideal) x0 x1 x2 x3 x4 x5
          (ix2 (⟨50000 + (x7 (ix1 b) : BitVec 32).toNat, by have := (clamp_inside (N := 30000) _ h0 h1).2; omega⟩ : Fin 80000) j) := by
  unfold val_main_v102
  rw [ref_gather_item _ _ b j h0 h1]
  exact ref_slice_item x0 x1 x2 x3 x4 x5 _ j

end Cert.ReferenceIdeal.Hand
-- ==== Proof.Ref.Proj.lean ====
/-
  The reference's projected, L2-normalised item features, read at an index: row `r`, column `q` is `projSpec` of row `r`
  of the two feature arrays, the two row groups of the projection matrix (rows 0..767 and 768..895) and the bias.

  The reference joins the two feature arrays along the columns and contracts the joined 896 columns with the projection
  matrix in one product. A sum over the 896 joined positions is the sum over the first 768 plus the sum over the last 128
  (`Fin.sum_univ_add`), and the joined array read at a position is the first array there, or the second at the position
  less 768. The bias, the row length (a sum of squares from a zero start, then a square root), the floor and the division
  are read pointwise.
-/
import proofs.«422603_j65833258713793_2_alg».proof.Proof.RefRead
import proofs.«422603_j65833258713793_2_alg».proof.Proof.Math.ProjSpec
import Idealize.ShloMosaic.Lib.Pipeline.Value
import Idealize.ShloMosaic.Lib.ValueIdx
import Idealize.ShloMosaic.PureOps.Ideal.Laws
import Mathlib.Algebra.BigOperators.Fin

noncomputable section

namespace Cert.ReferenceIdeal.Hand

open Cert.ReferenceIdeal Cert.ReferenceIdeal.Gen Cert.ReferenceIdeal.ReadP Idealize.ShloMosaic Idealize.ShloMosaic.ValueIdx Cert.Hand

variable (F0 : (⟨S30000x768, .f32⟩ : BufTy).Contents (Elt Ideal)) (F1 : (⟨S30000x128, .f32⟩ : BufTy).Contents (Elt Ideal))
  (W : (⟨S896x64, .f32⟩ : BufTy).Contents (Elt Ideal)) (b : (⟨S64, .f32⟩ : BufTy).Contents (Elt Ideal))

/-! ## The joined feature array at a position -/

/-- Left of column 768 the joined array is the first feature array. -/
theorem cat_left (r : Fin 30000) (k : Fin 768) :
    val_main_v0 (F := Ideal) F0 F1 (ix2 r (⟨k.val, Nat.lt_of_lt_of_le k.isLt (by decide)⟩ : Fin 896)) = F0 (ix2 r k) := by
  unfold val_main_v0
  exact concatenate_pair_apply_left (1 : Fin S30000x896.rank) F0 F1 concatenates_S30000x768_S30000x128_S30000x896_d1 _ rfl (ix2 r k)
    (fun a => match a with
      | ⟨0, _⟩ => rfl
      | ⟨1, _⟩ => rfl)

/-- From column 768 on it is the second, at the column less 768. -/
theorem cat_right (r : Fin 30000) (k : Fin 128) :
    val_main_v0 (F := Ideal) F0 F1 (ix2 r (⟨768 + k.val, by have := k.isLt; omega⟩ : Fin 896)) = F1 (ix2 r k) := by
  unfold val_main_v0
  exact concatenate_pair_apply_right (1 : Fin S30000x896.rank) F0 F1 concatenates_S30000x768_S30000x128_S30000x896_d1 _ rfl rfl (ix2 r k)
    (fun a => match a with
      | ⟨0, _⟩ => fun _ => rfl
      | ⟨1, _⟩ => fun h => absurd rfl h)
    (by show k.val + 768 = 768 + k.val; omega)

/-! ## The product, split at column 768 -/

theorem dot_apply (r : Fin 30000) (q : Fin 64) :
    val_main_v1 (F := Ideal) F0 F1 W (ix2 r q)
      = (∑ k : Fin 768, F0 (ix2 r k) * W (ix2 (⟨k.val, Nat.lt_of_lt_of_le k.isLt (by decide)⟩ : Fin 896) q))
        + ∑ k : Fin 128, F1 (ix2 r k) * W (ix2 (⟨768 + k.val, by have := k.isLt; omega⟩ : Fin 896) q) := by
  rw [val_main_v1_apply]
  show ∑ k : Fin (768 + 128), _ = _
  rw [Fin.sum_univ_add]
  congr 1
  · refine Finset.sum_congr rfl fun k _ => ?_
    have e1 : lidx_main_v1 (ix2 r q) (Fin.castAdd 128 k) = ix2 r (⟨k.val, Nat.lt_of_lt_of_le k.isLt (by decide)⟩ : Fin 896) :=
      funext fun a => match a with
        | ⟨0, _⟩ => rfl
        | ⟨1, _⟩ => rfl
    have e2 : ridx_main_v1 (ix2 r q) (Fin.castAdd 128 k) = ix2 (⟨k.val, Nat.lt_of_lt_of_le k.isLt (by decide)⟩ : Fin 896) q :=
      funext fun a => match a with
        | ⟨0, _⟩ => rfl
        | ⟨1, _⟩ => rfl
    rw [e1, e2, cat_left]
  · refine Finset.sum_congr rfl fun k _ => ?_
    have e1 : lidx_main_v1 (ix2 r q) (Fin.natAdd 768 k) = ix2 r (⟨768 + k.val, by have := k.isLt; omega⟩ : Fin 896) :=
      funext fun a => match a with
        | ⟨0, _⟩ => rfl
        | ⟨1, _⟩ => rfl
    have e2 : ridx_main_v1 (ix2 r q) (Fin.natAdd 768 k) = ix2 (⟨768 + k.val, by have := k.isLt; omega⟩ : Fin 896) q :=
      funext fun a => match a with
        | ⟨0, _⟩ => rfl
        | ⟨1, _⟩ => rfl
    rw [e1, e2, cat_right]

/-! ## The un-normalised feature, the row length, the result -/

/-- The product plus the bias at (r, q) is the un-normalised feature of row `r`. -/
theorem y_apply (r : Fin 30000) (q : Fin 64) :
    val_main_v4 (F := Ideal) F0 F1 W b (ix2 r q)
      = projY (fun k => F0 (ix2 r k)) (fun k => F1 (ix2 r k))
          (fun k j => W (ix2 (⟨k.val, Nat.lt_of_lt_of_le k.isLt (by decide)⟩ : Fin 896) j))
          (fun k j => W (ix2 (⟨768 + k.val, by have := k.isLt; omega⟩ : Fin 896) j)) (fun j => b (ix1 j)) q := by
  have eb : idx_main_v2 (idx_main_v3 (ix2 r q)) = ix1 q := funext fun a => match a with
    | ⟨0, _⟩ => rfl
  rw [val_main_v4_apply, val_main_v3_apply, val_main_v2_apply, dot_apply, eb]
  rfl

/-- The floored row length at (r, q): the square root of the row's sum of squares, or the floor if that is larger. -/
theorem len_apply (r : Fin 30000) (q : Fin 64) :
    val_main_v8 (F := Ideal) F0 F1 W b (ix2 r q)
      = max (Ideal.sqrt (∑ j : Fin 64, val_main_v4 (F := Ideal) F0 F1 W b (ix2 r j) * val_main_v4 (F := Ideal) F0 F1 W b (ix2 r j)))
          (Ideal.ofBits .f32 0x2B8CBCCC#32) := by
  have ei : ∀ j : Fin 64, idx_main_call0_v1 (idx_main_call0_v2 (idx_main_v8 (ix2 r q))) j = ix2 r j := fun j =>
    funext fun a => match a with
      | ⟨0, _⟩ => rfl
      | ⟨1, _⟩ => rfl
  rw [val_main_v8_apply, val_main_v7_apply, val_main_v5_apply, val_main_v6_apply, val_main_cst_apply,
    val_main_call0_v2_apply, val_main_call0_v1_apply, val_main_call0_cst_apply]
  simp only [val_main_call0_v0_apply, ei]
  show max (Ideal.sqrt (Ideal.ofBits .f32 0x00000000#32 + _)) _ = _
  rw [Ideal.ofBits_zero_f32, zero_add]
  rfl

/-- Row `r`, column `q` of the reference's normalised item features is the normalised projected feature of row `r`. -/
theorem ref_proj_apply (r : Fin 30000) (q : Fin 64) :
    val_main_v9 (F := Ideal) F0 F1 W b (ix2 r q)
      = projSpec (fun k => F0 (ix2 r k)) (fun k => F1 (ix2 r k))
          (fun k j => W (ix2 (⟨k.val, Nat.lt_of_lt_of_le k.isLt (by decide)⟩ : Fin 896) j))
          (fun k j => W (ix2 (⟨768 + k.val, by have := k.isLt; omega⟩ : Fin 896) j)) (fun j => b (ix1 j)) q := by
  rw [val_main_v9_apply, len_apply]
  simp only [y_apply]
  rfl

end Cert.ReferenceIdeal.Hand

end
-- ==== Proof.KI.Final.lean ====
/- The last bridge: on index vectors that stay inside their tables, the score the program computes for every
   user-item pair is the score the reference computes.

   Both programs end the same way. A pooled table of 80000 rows, the mean of four layers position by position, holds
   the users in its first 50000 rows and the items in its last 30000. The score of pair b is the dot product, over
   the 64 columns, of the user row numbered by the b-th user word and the item row numbered 50000 plus the b-th item
   word. The program reaches it through its four calls and the host operations between them (slices of the pooled
   array, reshapes of the index vectors, a one-hot gather of the user rows, a one-hot gather of the item rows fused
   with the row dot product); the reference through slices, two gathers, a product and a row sum. Each chain is first
   walked over plain functions of indices, one hypothesis per step, then the steps are supplied: on the program's
   side from the buffer contents between the items of @main, on the reference's side from its operations read at an
   index. The four layers agree because the first call's output array is the reference's normalised projection and
   the host operations between the first two calls compute the reference's layers from it. -/
import proofs.«422603_j65833258713793_2_alg».proof.Proof.KI.Fold
import proofs.«422603_j65833258713793_2_alg».proof.Proof.KI.Args
import proofs.«422603_j65833258713793_2_alg».proof.Proof.KI.Val0
import proofs.«422603_j65833258713793_2_alg».proof.Proof.KI.Val1
import proofs.«422603_j65833258713793_2_alg».proof.Proof.KI.Val2
import proofs.«422603_j65833258713793_2_alg».proof.Proof.KI.Val3
import proofs.«422603_j65833258713793_2_alg».proof.Proof.KI.HostVals
import proofs.«422603_j65833258713793_2_alg».proof.Proof.KI.Mid
import proofs.«422603_j65833258713793_2_alg».proof.Proof.Ref.Mean
import proofs.«422603_j65833258713793_2_alg».proof.Proof.Ref.Gather
import proofs.«422603_j65833258713793_2_alg».proof.Proof.Ref.Proj
import proofs.«422603_j65833258713793_2_alg».proof.Proof.Math.Mean
import proofs.«422603_j65833258713793_2_alg».proof.Proof.Math.ProjSpec
import Idealize.ShloMosaic.Lib.ValueIdx

set_option maxRecDepth 16384

noncomputable section

namespace Cert.KernelIdeal.Hand

open Idealize.ShloMosaic Idealize.ShloMosaic.ValueIdx

/-- Two functions on a rank-2 index type that agree at every pair of coordinates are equal. -/
theorem ext_ix2 {n0 n1 : ℕ} {α : Type} (f g : (⟨2, ![n0, n1]⟩ : Shape).Idx → α)
    (h : ∀ (r : Fin n0) (q : Fin n1), f (ix2 r q) = g (ix2 r q)) : f = g :=
  funext fun x => (congrArg f (eq_ix2 x)).trans ((h (x 0) (x 1)).trans (congrArg g (eq_ix2 x)).symm)

/-! ## A word in range, read as a natural number -/

/-- A 32-bit word whose signed value lies in [0, N), N at most 2^31, has that same unsigned value. -/
theorem word_toNat_lt (x : BitVec 32) (N : ℕ) (hN : N ≤ 2147483648) (h0 : 0 ≤ x.toInt) (h1 : x.toInt < (N : ℤ)) :
    x.toNat < N := by
  have hlt := x.isLt
  rw [BitVec.toInt_eq_toNat_cond] at h0 h1
  split at h0 <;> omega

/-! ## The score of one pair, from pooled layers: both programs' last steps, over plain functions

    M is the pooled table, 80000 rows: the first 50000 the users', the last 30000 the items'. The score of pair b
    is the dot product over the 64 columns of the user row u b and the item row 50000 + i b. -/

/-- The pooled table at a row and column. -/
def pooledAt (L0 L1 L2 L3 : (⟨2, ![80000, 64]⟩ : Shape).Idx → EReal) (r : Fin 80000) (q : Fin 64) : EReal :=
  meanSpec (L0 (ix2 r q)) (L1 (ix2 r q)) (L2 (ix2 r q)) (L3 (ix2 r q))

/-- The score both programs are shown to compute for a pair whose user word reads nu and item word reads ni. -/
def scoreAt (L0 L1 L2 L3 : (⟨2, ![80000, 64]⟩ : Shape).Idx → EReal) (nu ni : ℕ) (hnu : nu < 50000) (hni : ni < 30000) : EReal :=
  dotSpec (fun j => pooledAt L0 L1 L2 L3 ⟨nu, by omega⟩ j) (fun j => pooledAt L0 L1 L2 L3 ⟨50000 + ni, by omega⟩ j)

/-- THE KERNEL'S SIDE. out: the result vector; o79: the last call's output column; g78: the gathered user rows (the
    third call's output); t74 / t75: the user and item tables the last two calls stream (the two row ranges of the
    pooled array p73); i76 / i77: the index columns (the user and item index vectors u, i reshaped). -/
theorem kernel_chain (b : Fin 4096)
    {out : (⟨1, ![4096]⟩ : Shape).Idx → EReal} {o79 : (⟨2, ![4096, 1]⟩ : Shape).Idx → EReal}
    {g78 : (⟨2, ![4096, 64]⟩ : Shape).Idx → EReal}
    {t74 : (⟨2, ![50000, 64]⟩ : Shape).Idx → EReal} {t75 : (⟨2, ![30000, 64]⟩ : Shape).Idx → EReal}
    {i76 i77 : (⟨2, ![4096, 1]⟩ : Shape).Idx → BitVec 32}
    {p73 : (⟨2, ![80000, 64]⟩ : Shape).Idx → EReal}
    {u i : (⟨1, ![4096]⟩ : Shape).Idx → BitVec 32}
    {L0 L1 L2 L3 : (⟨2, ![80000, 64]⟩ : Shape).Idx → EReal}
    (nu ni : ℕ) (hnu : nu < 50000) (hni : ni < 30000)
    (hu : (u (ix1 b)).toNat = nu) (hi : (i (ix1 b)).toNat = ni)
    (h_out : out (ix1 b) = o79 (ix2 b 0))
    (h_dot : ∀ (n : ℕ) (hn : n < 30000), (i77 (ix2 b 0)).toNat = n →
      o79 (ix2 b 0) = dotSpec (fun j => g78 (ix2 b j)) (fun j => t75 (ix2 ⟨n, hn⟩ j)))
    (h_sel : ∀ (j : Fin 64) (n : ℕ) (hn : n < 50000), (i76 (ix2 b 0)).toNat = n → g78 (ix2 b j) = t74 (ix2 ⟨n, hn⟩ j))
    (h_i76 : i76 (ix2 b 0) = u (ix1 b)) (h_i77 : i77 (ix2 b 0) = i (ix1 b))
    (h_t74 : ∀ (r : Fin 50000) (q : Fin 64), t74 (ix2 r q) = p73 (ix2 (⟨r.val, by omega⟩ : Fin 80000) q))
    (h_t75 : ∀ (r : Fin 30000) (q : Fin 64), t75 (ix2 r q) = p73 (ix2 (⟨50000 + r.val, by omega⟩ : Fin 80000) q))
    (h_mean : ∀ (r : Fin 80000) (q : Fin 64), p73 (ix2 r q) = meanSpec (L0 (ix2 r q)) (L1 (ix2 r q)) (L2 (ix2 r q)) (L3 (ix2 r q))) :
    out (ix1 b) = scoreAt L0 L1 L2 L3 nu ni hnu hni := by
  rw [h_out, h_dot ni hni (by rw [h_i77]; exact hi)]
  unfold scoreAt pooledAt
  congr 1
  · funext j
    rw [h_sel j nu hnu (by rw [h_i76]; exact hu), h_t74, h_mean]
  · funext j
    rw [h_t75, h_mean]

/-- THE REFERENCE'S SIDE. R: the result vector; v95 / v102: the gathered user and item rows; v87 / v88: the two row
    ranges of the pooled array v86. -/
theorem ref_chain (b : Fin 4096)
    {R : (⟨1, ![4096]⟩ : Shape).Idx → EReal}
    {v95 v102 : (⟨2, ![4096, 64]⟩ : Shape).Idx → EReal}
    {v87 : (⟨2, ![50000, 64]⟩ : Shape).Idx → EReal} {v88 : (⟨2, ![30000, 64]⟩ : Shape).Idx → EReal}
    {v86 : (⟨2, ![80000, 64]⟩ : Shape).Idx → EReal}
    {u i : (⟨1, ![4096]⟩ : Shape).Idx → BitVec 32}
    {L0 L1 L2 L3 : (⟨2, ![80000, 64]⟩ : Shape).Idx → EReal}
    (nu ni : ℕ) (hnu : nu < 50000) (hni : ni < 30000)
    (hu : (u (ix1 b)).toNat = nu) (hi : (i (ix1 b)).toNat = ni)
    (h_dot : R (ix1 b) = dotSpec (fun j => v95 (ix2 b j)) (fun j => v102 (ix2 b j)))
    (h_gu : ∀ (j : Fin 64) (n : ℕ) (hn : n < 50000), (u (ix1 b)).toNat = n → v95 (ix2 b j) = v87 (ix2 ⟨n, hn⟩ j))
    (h_gi : ∀ (j : Fin 64) (n : ℕ) (hn : n < 30000), (i (ix1 b)).toNat = n → v102 (ix2 b j) = v88 (ix2 ⟨n, hn⟩ j))
    (h_87 : ∀ (r : Fin 50000) (q : Fin 64), v87 (ix2 r q) = v86 (ix2 (⟨r.val, by omega⟩ : Fin 80000) q))
    (h_88 : ∀ (r : Fin 30000) (q : Fin 64), v88 (ix2 r q) = v86 (ix2 (⟨50000 + r.val, by omega⟩ : Fin 80000) q))
    (h_mean : ∀ (r : Fin 80000) (q : Fin 64), v86 (ix2 r q) = meanSpec (L0 (ix2 r q)) (L1 (ix2 r q)) (L2 (ix2 r q)) (L3 (ix2 r q))) :
    R (ix1 b) = scoreAt L0 L1 L2 L3 nu ni hnu hni := by
  rw [h_dot]
  unfold scoreAt pooledAt
  congr 1
  · funext j
    rw [h_gu j nu hnu hu, h_87, h_mean]
  · funext j
    rw [h_gi j ni hni hi, h_88, h_mean]

/-! ## The projected item features: the first call's output array is the reference's, over plain functions -/

/-- o: the first call's output array; F0 F1: the two feature arrays; w0 w1 bb: the two row groups of the projection
    matrix and the bias row as the call reads them; Wt bv: the matrix and the bias vector they are cut from; v9: the
    reference's projected features. -/
theorem proj_chain
    {o v9 : (⟨2, ![30000, 64]⟩ : Shape).Idx → EReal}
    {F0 : (⟨2, ![30000, 768]⟩ : Shape).Idx → EReal} {F1 : (⟨2, ![30000, 128]⟩ : Shape).Idx → EReal}
    {w0 : (⟨2, ![768, 64]⟩ : Shape).Idx → EReal} {w1 : (⟨2, ![128, 64]⟩ : Shape).Idx → EReal}
    {bb : (⟨2, ![1, 64]⟩ : Shape).Idx → EReal}
    {Wt : (⟨2, ![896, 64]⟩ : Shape).Idx → EReal} {bv : (⟨1, ![64]⟩ : Shape).Idx → EReal}
    (h_o : ∀ (r : Fin 30000) (q : Fin 64), o (ix2 r q) = Cert.Hand.projSpec (fun k => F0 (ix2 r k)) (fun k => F1 (ix2 r k))
      (fun k j => w0 (ix2 k j)) (fun k j => w1 (ix2 k j)) (fun j => bb (ix2 0 j)) q)
    (h_w0 : ∀ (k : Fin 768) (j : Fin 64), w0 (ix2 k j) = Wt (ix2 (⟨k.val, by omega⟩ : Fin 896) j))
    (h_w1 : ∀ (k : Fin 128) (j : Fin 64), w1 (ix2 k j) = Wt (ix2 (⟨768 + k.val, by omega⟩ : Fin 896) j))
    (h_bb : ∀ j : Fin 64, bb (ix2 0 j) = bv (ix1 j))
    (h_v9 : ∀ (r : Fin 30000) (q : Fin 64), v9 (ix2 r q) = Cert.Hand.projSpec (fun k => F0 (ix2 r k)) (fun k => F1 (ix2 r k))
      (fun k j => Wt (ix2 (⟨k.val, by omega⟩ : Fin 896) j)) (fun k j => Wt (ix2 (⟨768 + k.val, by omega⟩ : Fin 896) j)) (fun j => bv (ix1 j)) q) :
    o = v9 := by
  refine ext_ix2 o v9 fun r q => ?_
  rw [h_o, h_v9]
  congr 1
  · funext k j; exact h_w0 k j
  · funext k j; exact h_w1 k j
  · funext j; exact h_bb j

/-! ## The kernel's side, over the program's buffer contents

    The steps from the result vector back to the four layers are taken as hypotheses, one per host operation or
    call between them; L0..L3 stand for the four layers as the reference computes them. -/

section KernelSide

open Cert.KernelIdeal Cert.KernelIdeal.Gen Idealize.ShloMosaic.TcCoe Idealize.SL.Sem

variable (m : (ℓ : Loc nD τ sig) → Buf (Elt Ideal) ℓ) (ρ : Dev nD → PrngReg) (c : Dev nD)
variable (L0 L1 L2 L3 : (⟨2, ![80000, 64]⟩ : Shape).Idx → EReal)

variable
  (W11_v80 : ∀ b : Fin 4096, W11 (F := Ideal) m ρ c (Proc.devRef .tc main_v80) (ix1 b)
      = W10 (F := Ideal) m ρ c (Proc.devRef .tc main_v79) (ix2 b (0 : Fin 1)))
  (arr3_out : ∀ (V : (c : Dev nD) → (b : Ref sig .tc) → Buf (Elt Ideal) ((c : Thread nD τ).loc b)) (c : Dev nD)
      (b : Fin 4096) (n : ℕ) (hn : n < 30000), (V c main_v77 (ix2 b (0 : Fin 1)) : BitVec 32).toNat = n →
      (dat3 (F := Ideal) V c).arrAt 3 cfg3.N (ix2 b (0 : Fin 1))
        = dotSpec (fun j => V c main_v78 (ix2 b j)) (fun j => V c main_v75 (ix2 (⟨n, hn⟩ : Fin 30000) j)))
  (W9_main_v75 : W9 (F := Ideal) m ρ c (Proc.devRef .tc main_v75) = W8 (F := Ideal) m ρ c (Proc.devRef .tc main_v75))
  (W9_main_v77 : W9 (F := Ideal) m ρ c (Proc.devRef .tc main_v77) = W8 (F := Ideal) m ρ c (Proc.devRef .tc main_v77))
  (arr2_out : ∀ (V : (c : Dev nD) → (b : Ref sig .tc) → Buf (Elt Ideal) ((c : Thread nD τ).loc b)) (c : Dev nD)
      (b : Fin 4096) (j : Fin 64) (n : ℕ) (hn : n < 50000), (V c main_v76 (ix2 b (0 : Fin 1)) : BitVec 32).toNat = n →
      (dat2 (F := Ideal) V c).arrAt 2 cfg2.N (ix2 b j) = V c main_v74 (ix2 (⟨n, hn⟩ : Fin 50000) j))
  (W8_v74 : ∀ (r : Fin 50000) (q : Fin 64), W8 (F := Ideal) m ρ c (Proc.devRef .tc main_v74) (ix2 r q)
      = W7 (F := Ideal) m ρ c (Proc.devRef .tc main_v73) (ix2 (⟨r.val, by omega⟩ : Fin 80000) q))
  (W8_v75 : ∀ (r : Fin 30000) (q : Fin 64), W8 (F := Ideal) m ρ c (Proc.devRef .tc main_v75) (ix2 r q)
      = W7 (F := Ideal) m ρ c (Proc.devRef .tc main_v73) (ix2 (⟨50000 + r.val, by omega⟩ : Fin 80000) q))
  (W8_v76 : ∀ b : Fin 4096, W8 (F := Ideal) m ρ c (Proc.devRef .tc main_v76) (ix2 b (0 : Fin 1))
      = W7 (F := Ideal) m ρ c (Proc.devRef .tc main_arg6) (ix1 b))
  (W8_v77 : ∀ b : Fin 4096, W8 (F := Ideal) m ρ c (Proc.devRef .tc main_v77) (ix2 b (0 : Fin 1))
      = W7 (F := Ideal) m ρ c (Proc.devRef .tc main_arg7) (ix1 b))
  (W7_main_arg6 : W7 (F := Ideal) m ρ c (Proc.devRef .tc main_arg6) = m ((c : Thread nD τ).loc main_arg6))
  (W7_main_arg7 : W7 (F := Ideal) m ρ c (Proc.devRef .tc main_arg7) = m ((c : Thread nD τ).loc main_arg7))
  (arr1_out : ∀ (V : (c : Dev nD) → (b : Ref sig .tc) → Buf (Elt Ideal) ((c : Thread nD τ).loc b)) (c : Dev nD)
      (r : Fin 80000) (q : Fin 64), (dat1 (F := Ideal) V c).arrAt 4 cfg1.N (ix2 r q)
        = meanSpec (V c main_v4 (ix2 r q)) (V c main_v46 (ix2 r q)) (V c main_v59 (ix2 r q)) (V c main_v72 (ix2 r q)))
  (layer0 : W6 (F := Ideal) m ρ c (Proc.devRef .tc main_v4) = L0)
  (layer1 : W6 (F := Ideal) m ρ c (Proc.devRef .tc main_v46) = L1)
  (layer2 : W6 (F := Ideal) m ρ c (Proc.devRef .tc main_v59) = L2)
  (layer3 : W6 (F := Ideal) m ρ c (Proc.devRef .tc main_v72) = L3)

include W11_v80 arr3_out W9_main_v75 W9_main_v77 arr2_out W8_v74 W8_v75 W8_v76 W8_v77 W7_main_arg6 W7_main_arg7 arr1_out
  layer0 layer1 layer2 layer3 in
/-- The kernel's score of pair b, from the launch contents of the two index vectors and the four layers. -/
theorem kernel_side (b : Fin 4096) (nu ni : ℕ) (hnu : nu < 50000) (hni : ni < 30000)
    (hu : (m ((c : Thread nD τ).loc main_arg6) (ix1 b) : BitVec 32).toNat = nu)
    (hi : (m ((c : Thread nD τ).loc main_arg7) (ix1 b) : BitVec 32).toNat = ni) :
    W11 (F := Ideal) m ρ c (Proc.devRef .tc main_v80) (ix1 b) = scoreAt L0 L1 L2 L3 nu ni hnu hni := by
  refine kernel_chain b
    (out := W11 (F := Ideal) m ρ c (Proc.devRef .tc main_v80))
    (o79 := W10 (F := Ideal) m ρ c (Proc.devRef .tc main_v79))
    (g78 := W9 (F := Ideal) m ρ c (Proc.devRef .tc main_v78))
    (t74 := W8 (F := Ideal) m ρ c (Proc.devRef .tc main_v74))
    (t75 := W8 (F := Ideal) m ρ c (Proc.devRef .tc main_v75))
    (i76 := W8 (F := Ideal) m ρ c (Proc.devRef .tc main_v76))
    (i77 := W8 (F := Ideal) m ρ c (Proc.devRef .tc main_v77))
    (p73 := W7 (F := Ideal) m ρ c (Proc.devRef .tc main_v73))
    (u := m ((c : Thread nD τ).loc main_arg6)) (i := m ((c : Thread nD τ).loc main_arg7))
    nu ni hnu hni hu hi (W11_v80 b) ?dot ?sel ?i76 ?i77 W8_v74 W8_v75 ?mean
  case dot =>
    intro n hn e
    have e' : (V9 (F := Ideal) m ρ c main_v77 (ix2 b (0 : Fin 1)) : BitVec 32).toNat = n := by
      show (W9 (F := Ideal) m ρ c (Proc.devRef .tc main_v77) (ix2 b (0 : Fin 1)) : BitVec 32).toNat = n
      rw [W9_main_v77]; exact e
    have h3 := arr3_out (V9 (F := Ideal) m ρ) c b n hn e'
    rw [← W10_arr (F := Ideal) m ρ c 3] at h3
    refine h3.trans ?_
    show dotSpec (fun j => W9 (F := Ideal) m ρ c (Proc.devRef .tc main_v78) (ix2 b j))
        (fun j => W9 (F := Ideal) m ρ c (Proc.devRef .tc main_v75) (ix2 (⟨n, hn⟩ : Fin 30000) j)) = _
    rw [W9_main_v75]
  case sel =>
    intro j n hn e
    have h2 := arr2_out (V8 (F := Ideal) m ρ) c b j n hn e
    rw [← W9_arr (F := Ideal) m ρ c 2] at h2
    exact h2
  case i76 => exact (W8_v76 b).trans (congrFun W7_main_arg6 (ix1 b))
  case i77 => exact (W8_v77 b).trans (congrFun W7_main_arg7 (ix1 b))
  case mean =>
    intro r q
    have h1 := arr1_out (V6 (F := Ideal) m ρ) c r q
    rw [← W7_arr (F := Ideal) m ρ c 4] at h1
    refine h1.trans ?_
    show meanSpec (W6 (F := Ideal) m ρ c (Proc.devRef .tc main_v4) (ix2 r q)) (W6 (F := Ideal) m ρ c (Proc.devRef .tc main_v46) (ix2 r q))
        (W6 (F := Ideal) m ρ c (Proc.devRef .tc main_v59) (ix2 r q)) (W6 (F := Ideal) m ρ c (Proc.devRef .tc main_v72) (ix2 r q)) = _
    rw [layer0, layer1, layer2, layer3]

end KernelSide

/-! ## The first call's output array is the reference's projected features -/

section ProjSide

open Cert.KernelIdeal Cert.KernelIdeal.Gen Idealize.ShloMosaic.TcCoe Idealize.SL.Sem

variable (m : (ℓ : Loc nD τ sig) → Buf (Elt Ideal) ℓ) (ρ : Dev nD → PrngReg) (c : Dev nD)
variable (v9 : (⟨2, ![30000, 64]⟩ : Shape).Idx → EReal)

variable
  (arr0_out : ∀ (V : (c : Dev nD) → (b : Ref sig .tc) → Buf (Elt Ideal) ((c : Thread nD τ).loc b)) (c : Dev nD)
      (r : Fin 30000) (q : Fin 64), (dat0 (F := Ideal) V c).arrAt 5 cfg0.N (ix2 r q)
        = Cert.Hand.projSpec (fun k => V c main_arg1 (ix2 r k)) (fun k => V c main_arg2 (ix2 r k))
            (fun k j => V c main_v0 (ix2 k j)) (fun k j => V c main_v1 (ix2 k j)) (fun j => V c main_v2 (ix2 (0 : Fin 1) j)) q)
  (W1_v0 : ∀ (k : Fin 768) (j : Fin 64), W1 (F := Ideal) m ρ c (Proc.devRef .tc main_v0) (ix2 k j)
      = W0 (F := Ideal) m ρ c (Proc.devRef .tc main_arg3) (ix2 (⟨k.val, by omega⟩ : Fin 896) j))
  (W1_v1 : ∀ (k : Fin 128) (j : Fin 64), W1 (F := Ideal) m ρ c (Proc.devRef .tc main_v1) (ix2 k j)
      = W0 (F := Ideal) m ρ c (Proc.devRef .tc main_arg3) (ix2 (⟨768 + k.val, by omega⟩ : Fin 896) j))
  (W1_v2 : ∀ j : Fin 64, W1 (F := Ideal) m ρ c (Proc.devRef .tc main_v2) (ix2 (0 : Fin 1) j)
      = W0 (F := Ideal) m ρ c (Proc.devRef .tc main_arg4) (ix1 j))
  (W1_main_arg1 : W1 (F := Ideal) m ρ c (Proc.devRef .tc main_arg1) = m ((c : Thread nD τ).loc main_arg1))
  (W1_main_arg2 : W1 (F := Ideal) m ρ c (Proc.devRef .tc main_arg2) = m ((c : Thread nD τ).loc main_arg2))
  (ref_proj : ∀ (r : Fin 30000) (q : Fin 64), v9 (ix2 r q)
      = Cert.Hand.projSpec (fun k => m ((c : Thread nD τ).loc main_arg1) (ix2 r k)) (fun k => m ((c : Thread nD τ).loc main_arg2) (ix2 r k))
          (fun k j => m ((c : Thread nD τ).loc main_arg3) (ix2 (⟨k.val, by omega⟩ : Fin 896) j))
          (fun k j => m ((c : Thread nD τ).loc main_arg3) (ix2 (⟨768 + k.val, by omega⟩ : Fin 896) j))
          (fun j => m ((c : Thread nD τ).loc main_arg4) (ix1 j)) q)

include arr0_out W1_v0 W1_v1 W1_v2 W1_main_arg1 W1_main_arg2 ref_proj in
/-- After the first call its output array holds the reference's normalised projected features. -/
theorem proj_side : W2 (F := Ideal) m ρ c (Proc.devRef .tc main_v3) = v9 := by
  refine proj_chain
    (o := W2 (F := Ideal) m ρ c (Proc.devRef .tc main_v3)) (v9 := v9)
    (F0 := m ((c : Thread nD τ).loc main_arg1)) (F1 := m ((c : Thread nD τ).loc main_arg2))
    (w0 := W1 (F := Ideal) m ρ c (Proc.devRef .tc main_v0)) (w1 := W1 (F := Ideal) m ρ c (Proc.devRef .tc main_v1))
    (bb := W1 (F := Ideal) m ρ c (Proc.devRef .tc main_v2))
    (Wt := m ((c : Thread nD τ).loc main_arg3)) (bv := m ((c : Thread nD τ).loc main_arg4))
    ?o W1_v0 W1_v1 W1_v2 ref_proj
  case o =>
    intro r q
    have h0 := arr0_out (V1 (F := Ideal) m ρ) c r q
    rw [← W2_arr (F := Ideal) m ρ c 5] at h0
    refine h0.trans ?_
    show Cert.Hand.projSpec (fun k => W1 (F := Ideal) m ρ c (Proc.devRef .tc main_arg1) (ix2 r k))
        (fun k => W1 (F := Ideal) m ρ c (Proc.devRef .tc main_arg2) (ix2 r k))
        (fun k j => W1 (F := Ideal) m ρ c (Proc.devRef .tc main_v0) (ix2 k j))
        (fun k j => W1 (F := Ideal) m ρ c (Proc.devRef .tc main_v1) (ix2 k j))
        (fun j => W1 (F := Ideal) m ρ c (Proc.devRef .tc main_v2) (ix2 (0 : Fin 1) j)) q = _
    rw [W1_main_arg1, W1_main_arg2]

end ProjSide

/-! ## The two programs agree on every pair's score -/

section Final

open Cert.KernelIdeal Cert.KernelIdeal.Gen Idealize.ShloMosaic.TcCoe Idealize.SL.Sem
open Cert.ReferenceIdeal.ReadP Cert.ReferenceIdeal.Hand

variable (m : (ℓ : Loc nD τ sig) → Buf (Elt Ideal) ℓ) (ρ : Dev nD → PrngReg) (c : Dev nD)

set_option quotPrecheck false
local notation "a0" => (m ((c : Thread nD τ).loc main_arg0))
local notation "a1" => (m ((c : Thread nD τ).loc main_arg1))
local notation "a2" => (m ((c : Thread nD τ).loc main_arg2))
local notation "a3" => (m ((c : Thread nD τ).loc main_arg3))
local notation "a4" => (m ((c : Thread nD τ).loc main_arg4))
local notation "a5" => (m ((c : Thread nD τ).loc main_arg5))
local notation "a6" => (m ((c : Thread nD τ).loc main_arg6))
local notation "a7" => (m ((c : Thread nD τ).loc main_arg7))
set_option quotPrecheck true

/-- The row the user-table slice reads at (r, q) is row r of the pooled array. -/
theorem slice_user_idx (r : Fin 50000) (q : Fin 64) :
    idx_main_v87 (ix2 r q) = (ix2 (⟨r.val, by omega⟩ : Fin 80000) q : Cert.ReferenceIdeal.S80000x64.Idx) :=
  funext fun a => match a with | ⟨0, _⟩ => rfl | ⟨1, _⟩ => rfl

/-- The row the item-table slice reads at (r, q) is row 50000 + r of the pooled array. -/
theorem slice_item_idx (r : Fin 30000) (q : Fin 64) :
    idx_main_v88 (ix2 r q) = (ix2 (⟨50000 + r.val, by omega⟩ : Fin 80000) q : Cert.ReferenceIdeal.S80000x64.Idx) :=
  funext fun a => match a with | ⟨0, _⟩ => rfl | ⟨1, _⟩ => rfl

/-- For index vectors inside their tables, the kernel's score of every pair is the reference's. -/
theorem kernel_value
    (hu : ∀ b : Fin 4096, 0 ≤ (a6 (ix1 b) : BitVec 32).toInt ∧ (a6 (ix1 b) : BitVec 32).toInt < 50000)
    (hi : ∀ b : Fin 4096, 0 ≤ (a7 (ix1 b) : BitVec 32).toInt ∧ (a7 (ix1 b) : BitVec 32).toInt < 30000)
    (b : Fin 4096) :
    W11 (F := Ideal) m ρ c (Proc.devRef .tc main_v80) (ix1 b)
      = val_main_v104 (F := Ideal) a0 a1 a2 a3 a4 a5 a6 a7 (ix1 b) := by
  have hnu : (a6 (ix1 b) : BitVec 32).toNat < 50000 := word_toNat_lt _ 50000 (by norm_num) (hu b).1 (hu b).2
  have hni : (a7 (ix1 b) : BitVec 32).toNat < 30000 := word_toNat_lt _ 30000 (by norm_num) (hi b).1 (hi b).2
  -- the first call's output array holds the reference's projected features
  have h3 : W2 (F := Ideal) m ρ c (Proc.devRef .tc main_v3) = val_main_v9 (F := Ideal) a1 a2 a3 a4 :=
    proj_side m ρ c _ arr0_out (W1_v0 m ρ c) (W1_v1 m ρ c) (W1_v2 m ρ c) (W1_main_arg1 m ρ c) (W1_main_arg2 m ρ c)
      (ref_proj_apply a1 a2 a3 a4)
  -- so the four layers the mean call reads are the reference's
  obtain ⟨l0, l1, l2, l3⟩ := mid_layers m ρ c a0 a1 a2 a3 a4 a5 (W2_main_arg0 m ρ c) h3 (W2_main_arg5 m ρ c)
  have hK := kernel_side m ρ c
    (val_main_v10 (F := Ideal) a0 a1 a2 a3 a4) (val_main_v52 (F := Ideal) a0 a1 a2 a3 a4 a5)
    (val_main_v65 (F := Ideal) a0 a1 a2 a3 a4 a5) (val_main_v78 (F := Ideal) a0 a1 a2 a3 a4 a5)
    (W11_v80 m ρ c) arr3_out (W9_main_v75 m ρ c) (W9_main_v77 m ρ c) arr2_out
    (W8_v74 m ρ c) (W8_v75 m ρ c) (W8_v76 m ρ c) (W8_v77 m ρ c) (W7_main_arg6 m ρ c) (W7_main_arg7 m ρ c)
    arr1_out l0 l1 l2 l3 b _ _ hnu hni rfl rfl
  have hR := ref_chain b
    (R := val_main_v104 (F := Ideal) a0 a1 a2 a3 a4 a5 a6 a7)
    (v95 := val_main_v95 (F := Ideal) a0 a1 a2 a3 a4 a5 a6) (v102 := val_main_v102 (F := Ideal) a0 a1 a2 a3 a4 a5 a7)
    (v87 := val_main_v87 (F := Ideal) a0 a1 a2 a3 a4 a5) (v88 := val_main_v88 (F := Ideal) a0 a1 a2 a3 a4 a5)
    (v86 := val_main_v86 (F := Ideal) a0 a1 a2 a3 a4 a5) (u := a6) (i := a7)
    (L0 := val_main_v10 (F := Ideal) a0 a1 a2 a3 a4) (L1 := val_main_v52 (F := Ideal) a0 a1 a2 a3 a4 a5)
    (L2 := val_main_v65 (F := Ideal) a0 a1 a2 a3 a4 a5) (L3 := val_main_v78 (F := Ideal) a0 a1 a2 a3 a4 a5)
    _ _ hnu hni rfl rfl
    (ref_dot_apply a0 a1 a2 a3 a4 a5 a6 a7 b)
    (fun j n hn e => by subst e; exact ref_gather_user (val_main_v87 (F := Ideal) a0 a1 a2 a3 a4 a5) a6 b j (hu b).1 (hu b).2)
    (fun j n hn e => by subst e; exact ref_gather_item (val_main_v88 (F := Ideal) a0 a1 a2 a3 a4 a5) a7 b j (hi b).1 (hi b).2)
    (fun r q => (val_main_v87_apply (F := Ideal) a0 a1 a2 a3 a4 a5 (ix2 r q)).trans (congrArg _ (slice_user_idx r q)))
    (fun r q => (val_main_v88_apply (F := Ideal) a0 a1 a2 a3 a4 a5 (ix2 r q)).trans (congrArg _ (slice_item_idx r q)))
    (ref_mean_apply a0 a1 a2 a3 a4 a5)
  exact hK.trans hR.symm

end Final

end Cert.KernelIdeal.Hand

end
-- ==== Proof.Ref.PreRange.lean ====
/-
  THE PRECONDITION DECODED. The precondition `finite_inputs` is a conjunction of one-bit scalars: five say that a float
  input is finite everywhere, and the last two say that (user_idx ≥ 0) & (user_idx < 50000) holds at all entries and
  that (item_idx ≥ 0) & (item_idx < 30000) holds at all entries, signed. Only the last two are read here. A conjunction of bits that is 1
  has both conjuncts 1; a reduction by `and` from 1 over all 4096 entries that is 1 met a 1 at every entry; an entry of
  (x ≥ lo) & (x < hi) that is 1 says lo ≤ x < hi as signed integers, the bounds being scalars broadcast to every entry.
  So every user index lies in [0, 50000) and every item index in [0, 30000), signed, and hence also unsigned: a
  non-negative signed word is its own natural number.
-/
import proofs.«422603_j65833258713793_2_alg».proof.Pre_finite_inputs
import proofs.«422603_j65833258713793_2_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Hand

open Idealize.ShloMosaic Cert.Pre_finite_inputs

/-- The scalar shape has one index. -/
instance subsingleton_scalar_idx : Subsingleton S_.Idx := ⟨fun a b => funext fun d => d.elim0⟩

/-- The conjunction over all entries of (x ≥ lo) & (x < hi) is 1, the bounds broadcast scalars: every entry of x lies
    in [lo, hi), signed. -/
theorem all_between (x : IVec S4096 32) (lo hi : BitVec 32) (init : IVec S_ 1)
    (hb : S_.BroadcastsInDim S4096 (![] : Fin 0 → Fin S4096.rank)) (hr : S4096.ReducesTo [0] S_) (hu : 0 < S_.numel)
    (j : S_.Idx)
    (e : Host.reduce IntOp.andi
          (andi (cmpi .sge x (broadcastInDim S4096 ![] hb (constantI S_ 32 lo)))
                (cmpi .slt x (broadcastInDim S4096 ![] hb (constantI S_ 32 hi)))) init hr hu j = 1#1)
    (i : S4096.Idx) : lo.toInt ≤ (x i).toInt ∧ (x i).toInt < hi.toInt := by
  have h1 := Host.reduce_andi_all _ _ hr hu j e i
  change IntOp.andi (IntOp.cmpi .sge (x i) lo) (IntOp.cmpi .slt (x i) hi) = 1#1 at h1
  obtain ⟨hge, hlt⟩ := IntOp.andi_eq_one.1 h1
  exact ⟨IntOp.cmpi_sge.1 hge, IntOp.cmpi_slt.1 hlt⟩

/-- A word in [0, n) signed is below n as a natural number, and reads the same signed and unsigned. -/
theorem toNat_of_toInt (w : BitVec 32) (n : Nat) (h0 : 0 ≤ w.toInt) (h1 : w.toInt < n) :
    w.toNat < n ∧ w.toInt = w.toNat := by
  have e : w.toInt = w.toNat := BitVec.toInt_eq_toNat_of_lt (BitVec.toInt_pos_iff.1 h0)
  rw [e] at h1
  exact ⟨by exact_mod_cast h1, e⟩

variable [Facts] {F : FTy → Type} [FloatOps F]

/-- THE INDEX RANGES: under the precondition every user index is in [0, 50000) and every item index in [0, 30000), signed. -/
theorem idx_range (a0 : FVec F S50000x64 .f32) (a1 : FVec F S30000x768 .f32) (a2 : FVec F S30000x128 .f32)
    (a3 : FVec F S896x64 .f32) (a4 : FVec F S64 .f32) (a5 : IVec S2x2000000 32) (a6 : IVec S4096 32) (a7 : IVec S4096 32)
    (h : fn (F := F) a0 a1 a2 a3 a4 a5 a6 a7 = fun _ => 1#1) :
    (∀ b : Fin 4096, 0 ≤ (a6 (ValueIdx.ix1 b)).toInt ∧ (a6 (ValueIdx.ix1 b)).toInt < 50000) ∧
    (∀ b : Fin 4096, 0 ≤ (a7 (ValueIdx.ix1 b)).toInt ∧ (a7 (ValueIdx.ix1 b)).toInt < 30000) := by
  have e := congrFun h ValueIdx.ix0
  dsimp only [fn, fn_part1, fn_part2] at e
  -- the last conjunct is the item range, the one before it the user range; the rest is float finiteness
  obtain ⟨e', eItem⟩ := IntOp.andi_eq_one.1 e
  obtain ⟨-, eUser⟩ := IntOp.andi_eq_one.1 e'
  have z : (0#32 : BitVec 32).toInt = 0 := by decide
  have u : (50000#32 : BitVec 32).toInt = 50000 := by decide
  have t : (30000#32 : BitVec 32).toInt = 30000 := by decide
  refine ⟨fun b => ?_, fun b => ?_⟩
  · have r := all_between a6 0#32 50000#32 _ _ _ _ _ eUser (ValueIdx.ix1 b)
    rwa [z, u] at r
  · have r := all_between a7 0#32 30000#32 _ _ _ _ _ eItem (ValueIdx.ix1 b)
    rwa [z, t] at r

/-- The same in natural numbers: user indices below 50000, item indices below 30000, each word equal signed and unsigned. -/
theorem idx_range_nat (a0 : FVec F S50000x64 .f32) (a1 : FVec F S30000x768 .f32) (a2 : FVec F S30000x128 .f32)
    (a3 : FVec F S896x64 .f32) (a4 : FVec F S64 .f32) (a5 : IVec S2x2000000 32) (a6 : IVec S4096 32) (a7 : IVec S4096 32)
    (h : fn (F := F) a0 a1 a2 a3 a4 a5 a6 a7 = fun _ => 1#1) :
    (∀ b : Fin 4096, (a6 (ValueIdx.ix1 b)).toNat < 50000 ∧ (a6 (ValueIdx.ix1 b)).toInt = (a6 (ValueIdx.ix1 b)).toNat) ∧
    (∀ b : Fin 4096, (a7 (ValueIdx.ix1 b)).toNat < 30000 ∧ (a7 (ValueIdx.ix1 b)).toInt = (a7 (ValueIdx.ix1 b)).toNat) := by
  obtain ⟨hu, hi⟩ := idx_range a0 a1 a2 a3 a4 a5 a6 a7 h
  exact ⟨fun b => toNat_of_toInt _ 50000 (hu b).1 (hu b).2, fun b => toNat_of_toInt _ 30000 (hi b).1 (hi b).2⟩

end Cert.Pre_finite_inputs.Hand

end
-- ==== Proof.lean ====
/-
  THE CLAIM. A recommender scores 4096 (user, item) pairs. Item features come as two matrices (30000 × 768 and
  30000 × 128); a projection matrix of 896 = 768 + 128 rows and a bias map each item to 64 numbers, and each such row is
  divided by the larger of its Euclidean length and a small floor. The 50000 user rows and the 30000 projected item rows
  are stacked into one table of 80000 rows, which is propagated three times along the edges of a bipartite graph with
  symmetric degree weights (gather the source row, scale it, add it into the destination row); the four tables so
  obtained are averaged. The score of a pair is the dot product of its user's averaged row and its item's averaged row.

  The kernel does the projection, the averaging and the two row look-ups in four pipelined calls and the graph
  propagation in between on the host; the reference does all of it on the host. Over the extended reals the two agree
  entry by entry, for these reasons:

  * THE PROJECTION. The reference multiplies the row of all 896 features by the projection matrix; the kernel adds the
    product of the first 768 features with the first 768 rows of the matrix to the product of the last 128 with the last
    128 rows. A sum over 896 indices is the sum over the first 768 plus the sum over the remaining 128. The bias, the sum
    of squares, the square root, the floor and the division are the same operations on both sides, and the changes of
    float format in the kernel are the identity on extended reals.
  * THE PROPAGATION is the same sequence of host operations on both sides, applied to equal tables.
  * THE AVERAGE. The kernel multiplies the sum of the four tables by the constant 0.25, the reference divides it by
    4.0. Dividing by a nonzero real is multiplying by its reciprocal, at infinite sums too.
  * THE LOOK-UP. The reference reads row `idx b` of a table. The kernel sweeps the table in blocks of 1000 rows and adds,
    for every row `k` of the block, the table's row `k` times 1 if `k = idx b` and times 0 otherwise. On the extended
    reals `0 · x = 0` for every `x`, infinite ones included, so the sum over all rows is the one row `idx b` — provided
    `idx b` IS one of the table's rows. The last call multiplies the two looked-up rows entry by entry and sums the 64
    products, as the reference does.

  THE PRECONDITION. Besides finiteness of the float inputs it states the evident domain of the indices: every user index
  lies in `[0, 50000)` and every item index in `[0, 30000)`. Outside that range the two sides are not meant to agree: the
  reference adds the table's length to a negative index before it gathers the row, whereas the kernel's sweep compares the
  index as given with every row number, meets no match, and leaves zero.

  The frame claims (each program terminates without a fault and leaves its arguments as launched) are read off the same
  runs. The idealization rewrote no operation, so its claim is `True`.
-/
import proofs.«422603_j65833258713793_2_alg».proof.Defs
import proofs.«422603_j65833258713793_2_alg».proof.Proof.KB.Frame
import proofs.«422603_j65833258713793_2_alg».proof.Proof.KI.Frame
import proofs.«422603_j65833258713793_2_alg».proof.Proof.KI.Final
import proofs.«422603_j65833258713793_2_alg».proof.Proof.RefRunC
import proofs.«422603_j65833258713793_2_alg».proof.Proof.RefRead
import proofs.«422603_j65833258713793_2_alg».proof.Proof.Ref.PreRange
import Idealize.ShloMosaic.Lib.ValueIdx

noncomputable section

namespace Cert.Proof

open Idealize.ShloMosaic Idealize.ShloMosaic.TcCoe Idealize.SL.Sem

/-! ## The five claims -/

/-- The kernel as printed runs and leaves its eight arguments as launched. -/
theorem frame_p : Cert.frame_Kernel := fun m ρ _ => Cert.Kernel.Hand.frame (F := Bits) m ρ

/-- So does the kernel read over the extended reals. -/
theorem frame_pi : Cert.frame_KernelIdeal := fun m ρ _ => Cert.KernelIdeal.Hand.frame (F := Ideal) m ρ

/-- The reference runs to its result term and leaves its arguments as launched; the frame claim keeps the latter. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation, so there is nothing to preserve. -/
theorem preserves : Cert.preserves_Kernel_KernelIdeal := trivial

/-- Over the extended reals, from memories that agree on the eight arguments, the kernel's result array and the
    reference's are one array: the kernel's run ends with the result at the last boundary's contents, the reference's
    with its result term, and entry by entry of the 4096 the two are equal whenever every user index lies in
    `[0, 50000)` and every item index in `[0, 30000)` — which the precondition says. -/
theorem algebraic : Cert.algebraic_KernelIdeal_ReferenceIdeal := by
  intro m ρ m' ρ' hpre hagree
  refine ⟨fun c => Cert.KernelIdeal.Hand.W11 (F := Ideal) m ρ c (Proc.devRef .tc Cert.KernelIdeal.main_v80), Cert.KernelIdeal.Hand.run_value (F := Ideal) m ρ, ?_⟩
  refine (θ_run Cert.ReferenceIdeal.defs _ _).mono (fun _ h c => ⟨(h c).1.trans ?_, (h c).2⟩) (Cert.ReferenceIdeal.ValueP.run (F := Ideal) m' ρ')
  obtain ⟨hu, hi⟩ := Cert.Pre_finite_inputs.Hand.idx_range _ _ _ _ _ _ _ _ (hpre c)
  funext i
  obtain ⟨b, rfl⟩ : ∃ b : Fin 4096, i = ValueIdx.ix1 b := ⟨i 0, ValueIdx.eq_ix1 i⟩
  rw [Cert.ReferenceIdeal.ReadP.val_main_v104_eq (F := Ideal) m' c, (hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.KernelIdeal.Hand.kernel_value m ρ c hu hi b).symm

/-- The certificate: the four witnesses of the stated side conditions, then the five claims. -/
theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
